-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S32 : Shape := ⟨1, ![32]⟩
abbrev S3x32x32 : Shape := ⟨3, ![3, 32, 32]⟩
abbrev S3x32 : Shape := ⟨2, ![3, 32]⟩
abbrev S32x8 : Shape := ⟨2, ![32, 8]⟩
abbrev S8 : Shape := ⟨1, ![8]⟩
abbrev S8x4 : Shape := ⟨2, ![8, 4]⟩
abbrev S4 : Shape := ⟨1, ![4]⟩
abbrev S3200000 : Shape := ⟨1, ![3200000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S32x8 .f32) (main_arg8 : FVec F S8 .f32) (main_arg9 : FVec F S8x4 .f32) (main_arg10 : FVec F S4 .f32) (main_v33 : IVec S_ 1) : IVec S_ 1 :=
  let main_v34 : FVec F S32x8 .f32 := Host.absf main_arg7
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x4 .f32 := Host.absf main_arg9
  let main_cst_16 : FVec F S_ .f32 := constant S_ .f32 0x7F800000#32
  let main_v45 : FVec F S8x4 .f32 := broadcastInDim S8x4 ![] bcast_S_S8x4 main_cst_16
  let main_v46 : IVec S8x4 1 := cmpf .olt main_v44 main_v45
  let main_c_17 : IVec S_ 1 := constantI S_ 1 1#1
  let main_v47 : IVec S_ 1 := (fun x v => Host.reduce IntOp.andi x v reducesTo_S8x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S3x32x32 .f32) (main_arg5 : FVec F S3x32 .f32) (main_arg6 : FVec F S3x32x32 .f32) (main_arg7 : FVec F S32x8 .f32) (main_arg8 : FVec F S8 .f32) (main_arg9 : FVec F S8x4 .f32) (main_arg10 : FVec F S4 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S3x32x32 .f32 := Host.absf main_arg4
  let main_cst_6 : FVec F S_ .f32 := constant S_ .f32 0x7F800000#32
  let main_v20 : FVec F S3x32x32 .f32 := broadcastInDim S3x32x32 ![] bcast_S_S3x32x32 main_cst_6
  let main_v21 : IVec S3x32x32 1 := cmpf .olt main_v19 main_v20
  let main_c_7 : IVec S_ 1 := constantI S_ 1 1#1
  let main_v22 : IVec S_ 1 := (fun x v => Host.reduce IntOp.andi x v reducesTo_S3x32x32_S_d0_1_2 h_S_) main_v21 main_c_7
  let main_v23 : IVec S_ 1 := andi main_v18 main_v22
  let main_v24 : FVec F S3x32 .f32 := Host.absf main_arg5
  let main_cst_8 : FVec F S_ .f32 := constant S_ .f32 0x7F800000#32
  let main_v25 : FVec F S3x32 .f32 := broadcastInDim S3x32 ![] bcast_S_S3x32 main_cst_8
  let main_v26 : IVec S3x32 1 := cmpf .olt main_v24 main_v25
  let main_c_9 : IVec S_ 1 := constantI S_ 1 1#1
  let main_v27 : IVec S_ 1 := (fun x v => Host.reduce IntOp.andi x v reducesTo_S3x32_S_d0_1 h_S_) main_v26 main_c_9
  let main_v28 : IVec S_ 1 := andi main_v23 main_v27
  let main_v29 : FVec F S3x32x32 .f32 := Host.absf main_arg6
  let main_cst_10 : FVec F S_ .f32 := constant S_ .f32 0x7F800000#32
  let main_v30 : FVec F S3x32x32 .f32 := broadcastInDim S3x32x32 ![] bcast_S_S3x32x32 main_cst_10
  let main_v31 : IVec S3x32x32 1 := cmpf .olt main_v29 main_v30
  let main_c_11 : IVec S_ 1 := constantI S_ 1 1#1
  let main_v32 : IVec S_ 1 := (fun x v => Host.reduce IntOp.andi x v reducesTo_S3x32x32_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x128 .f32) (main_arg1 : FVec F S128x32 .f32) (main_arg2 : FVec F S32 .f32) (main_arg3 : FVec F S128x32 .f32) (main_arg4 : FVec F S3x32x32 .f32) (main_arg5 : FVec F S3x32 .f32) (main_arg6 : FVec F S3x32x32 .f32) (main_arg7 : FVec F S32x8 .f32) (main_arg8 : FVec F S8 .f32) (main_arg9 : FVec F S8x4 .f32) (main_arg10 : FVec F S4 .f32) (main_arg11 : IVec S3200000 32) (main_arg12 : IVec S3200000 32) (main_arg13 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_arg6 main_arg7 main_arg8 main_arg9 main_arg10 main_v13 main_v16
-- ==== Kernel.lean ====
abbrev S100000x128 : Shape := ⟨2, ![100000, 128]⟩
abbrev S128x32 : Shape := ⟨2, ![128, 32]⟩
abbrev S32 : Shape := ⟨1, ![32]⟩
abbrev S3x32x32 : Shape := ⟨3, ![3, 32, 32]⟩
abbrev S3x32 : Shape := ⟨2, ![3, 32]⟩
abbrev S32x8 : Shape := ⟨2, ![32, 8]⟩
abbrev S8 : Shape := ⟨1, ![8]⟩
abbrev S8x4 : Shape := ⟨2, ![8, 4]⟩
abbrev S4 : Shape := ⟨1, ![4]⟩
abbrev S3200000 : Shape := ⟨1, ![3200000]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S5000x32 : Shape := ⟨2, ![5000, 32]⟩
abbrev S1x32x32 : Shape := ⟨3, ![1, 32, 32]⟩
abbrev S32x32 : Shape := ⟨2, ![32, 32]⟩
abbrev S32x64 : Shape := ⟨2, ![32, 64]⟩
abbrev S64x32 : Shape := ⟨2, ![64, 32]⟩
abbrev S5000x1 : Shape := ⟨2, ![5000, 1]⟩
abbrev S1x64 : Shape := ⟨2, ![1, 64]⟩
abbrev S1x8 : Shape := ⟨2, ![1, 8]⟩
abbrev S1x4 : Shape := ⟨2, ![1, 4]⟩
abbrev S64x4 : Shape := ⟨2, ![64, 4]⟩
abbrev S64x8 : Shape := ⟨2, ![64, 8]⟩
abbrev S64 : Shape := ⟨1, ![64]⟩
abbrev S64x1 : Shape := ⟨2, ![64, 1]⟩

abbrev nBuf : Space → Nat
  | .hbm => 113
  | .vmem => 59
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S32, .f32⟩
  | .hbm, ⟨3, _⟩ => ⟨S128x32, .f32⟩
  | .hbm, ⟨4, _⟩ => ⟨S3x32x32, .f32⟩
  | .hbm, ⟨5, _⟩ => ⟨S3x32, .f32⟩
  | .hbm, ⟨6, _⟩ => ⟨S3x32x32, .f32⟩
  | .hbm, ⟨7, _⟩ => ⟨S32x8, .f32⟩
  | .hbm, ⟨8, _⟩ => ⟨S8, .f32⟩
  | .hbm, ⟨9, _⟩ => ⟨S8x4, .f32⟩
  | .hbm, ⟨10, _⟩ => ⟨S4, .f32⟩
  | .hbm, ⟨11, _⟩ => ⟨S3200000, .i32⟩
  | .hbm, ⟨12, _⟩ => ⟨S3200000, .i32⟩
  | .hbm, ⟨13, _⟩ => ⟨S100000, .i32⟩
  | .hbm, ⟨14, _⟩ => ⟨S100000x1, .i32⟩
  | .hbm, ⟨15, _⟩ => ⟨S128x64, .f32⟩
  | .hbm, ⟨16, _⟩ => ⟨S100000x64, .f32⟩
  | .hbm, ⟨17, _⟩ => ⟨S100000x32, .f32⟩
  | .hbm, ⟨18, _⟩ => ⟨S100000x32, .f32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x32, .f32⟩
  | .hbm, ⟨28, _⟩ => ⟨S_, .f32⟩
  | .hbm, ⟨29, _⟩ => ⟨S100000x32, .f32⟩
  | .hbm, ⟨30, _⟩ => ⟨S3200000x1, .i32⟩
  | .hbm, ⟨31, _⟩ => ⟨S100000x32, .f32⟩
  | .hbm, ⟨32, _⟩ => ⟨S1x32, .f32⟩
  | .hbm, ⟨33, _⟩ => ⟨S100000x32, .f32⟩
  | .hbm, ⟨34, _⟩ => ⟨S1x32x32, .f32⟩
  | .hbm, ⟨35, _⟩ => ⟨S32x32, .f32⟩
  | .hbm, ⟨36, _⟩ => ⟨S1x32x32, .f32⟩
  | .hbm, ⟨37, _⟩ => ⟨S32x32, .f32⟩
  | .hbm, ⟨38, _⟩ => ⟨S32x64, .f32⟩
  | .hbm, ⟨39, _⟩ => ⟨S100000x64, .f32⟩
  | .hbm, ⟨40, _⟩ => ⟨S100000x32, .f32⟩
  | .hbm, ⟨41, _⟩ => ⟨S100000x32, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x32, .f32⟩
  | .hbm, ⟨51, _⟩ => ⟨S_, .f32⟩
  | .hbm, ⟨52, _⟩ => ⟨S100000x32, .f32⟩
  | .hbm, ⟨53, _⟩ => ⟨S3200000x1, .i32⟩
  | .hbm, ⟨54, _⟩ => ⟨S100000x32, .f32⟩
  | .hbm, ⟨55, _⟩ => ⟨S1x32, .f32⟩
  | .hbm, ⟨56, _⟩ => ⟨S32, .f32⟩
  | .hbm, ⟨57, _⟩ => ⟨S1x32, .f32⟩
  | .hbm, ⟨58, _⟩ => ⟨S100000x32, .f32⟩
  | .hbm, ⟨59, _⟩ => ⟨S1x32x32, .f32⟩
  | .hbm, ⟨60, _⟩ => ⟨S32x32, .f32⟩
  | .hbm, ⟨61, _⟩ => ⟨S1x32x32, .f32⟩
  | .hbm, ⟨62, _⟩ => ⟨S32x32, .f32⟩
  | .hbm, ⟨63, _⟩ => ⟨S32x64, .f32⟩
  | .hbm, ⟨64, _⟩ => ⟨S100000x64, .f32⟩
  | .hbm, ⟨65, _⟩ => ⟨S100000x32, .f32⟩
  | .hbm, ⟨66, _⟩ => ⟨S100000x32, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x32, .f32⟩
  | .hbm, ⟨76, _⟩ => ⟨S_, .f32⟩
  | .hbm, ⟨77, _⟩ => ⟨S100000x32, .f32⟩
  | .hbm, ⟨78, _⟩ => ⟨S3200000x1, .i32⟩
  | .hbm, ⟨79, _⟩ => ⟨S100000x32, .f32⟩
  | .hbm, ⟨80, _⟩ => ⟨S1x32, .f32⟩
  | .hbm, ⟨81, _⟩ => ⟨S32, .f32⟩
  | .hbm, ⟨82, _⟩ => ⟨S1x32, .f32⟩
  | .hbm, ⟨83, _⟩ => ⟨S100000x32, .f32⟩
  | .hbm, ⟨84, _⟩ => ⟨S1x32x32, .f32⟩
  | .hbm, ⟨85, _⟩ => ⟨S32x32, .f32⟩
  | .hbm, ⟨86, _⟩ => ⟨S1x32x32, .f32⟩
  | .hbm, ⟨87, _⟩ => ⟨S32x32, .f32⟩
  | .hbm, ⟨88, _⟩ => ⟨S32x64, .f32⟩
  | .hbm, ⟨89, _⟩ => ⟨S100000x64, .f32⟩
  | .hbm, ⟨90, _⟩ => ⟨S100000x32, .f32⟩
  | .hbm, ⟨91, _⟩ => ⟨S100000x32, .f32⟩
  | .hbm, ⟨92, _⟩ => ⟨S_, .i32⟩
  | .hbm, ⟨93, _⟩ => ⟨S3200000, .i32⟩
  | .hbm, ⟨94, _⟩ => ⟨S3200000, .i1⟩
  | .hbm, ⟨95, _⟩ => ⟨S_, .i32⟩
  | .hbm, ⟨96, _⟩ => ⟨S3200000, .i32⟩
  | .hbm, ⟨97, _⟩ => ⟨S3200000, .i32⟩
  | .hbm, ⟨98, _⟩ => ⟨S3200000, .i32⟩
  | .hbm, ⟨99, _⟩ => ⟨S3200000x1, .i32⟩
  | .hbm, ⟨100, _⟩ => ⟨S3200000x32, .f32⟩
  | .hbm, ⟨101, _⟩ => ⟨S_, .f32⟩
  | .hbm, ⟨102, _⟩ => ⟨S100000x32, .f32⟩
  | .hbm, ⟨103, _⟩ => ⟨S3200000x1, .i32⟩
  | .hbm, ⟨104, _⟩ => ⟨S100000x32, .f32⟩
  | .hbm, ⟨105, _⟩ => ⟨S1x32, .f32⟩
  | .hbm, ⟨106, _⟩ => ⟨S32, .f32⟩
  | .hbm, ⟨107, _⟩ => ⟨S1x32, .f32⟩
  | .hbm, ⟨108, _⟩ => ⟨S100000x32, .f32⟩
  | .hbm, ⟨109, _⟩ => ⟨S64x32, .f32⟩
  | .hbm, ⟨110, _⟩ => ⟨S1x8, .f32⟩
  | .hbm, ⟨111, _⟩ => ⟨S1x4, .f32⟩
  | .hbm, ⟨112, _⟩ => ⟨S64x4, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S1x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S32x64, .f32⟩
  | .local _ .vmem, ⟨15, _⟩ => ⟨S5000x64, .f32⟩
  | .local _ .vmem, ⟨16, _⟩ => ⟨S5000x64, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x64, .f32⟩
  | .local _ .vmem, ⟨27, _⟩ => ⟨S5000x64, .f32⟩
  | .local _ .vmem, ⟨28, _⟩ => ⟨S5000x64, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S32x64, .f32⟩
  | .local _ .vmem, ⟨39, _⟩ => ⟨S5000x64, .f32⟩
  | .local _ .vmem, ⟨40, _⟩ => ⟨S5000x64, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S1x32, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S5000x32, .f32⟩
  | .local _ .vmem, ⟨50, _⟩ => ⟨S5000x1, .i32⟩
  | .local _ .vmem, ⟨51, _⟩ => ⟨S5000x1, .i32⟩
  | .local _ .vmem, ⟨52, _⟩ => ⟨S64x32, .f32⟩
  | .local _ .vmem, ⟨53, _⟩ => ⟨S64x32, .f32⟩
  | .local _ .vmem, ⟨54, _⟩ => ⟨S32x8, .f32⟩
  | .local _ .vmem, ⟨55, _⟩ => ⟨S1x8, .f32⟩
  | .local _ .vmem, ⟨56, _⟩ => ⟨S8x4, .f32⟩
  | .local _ .vmem, ⟨57, _⟩ => ⟨S1x4, .f32⟩
  | .local _ .vmem, ⟨58, _⟩ => ⟨S64x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_7 : Ref sig .tc := ⟨.hbm, 92, rfl⟩
abbrev main_v69 : Ref sig .tc := ⟨.hbm, 93, rfl⟩
abbrev main_v70 : Ref sig .tc := ⟨.hbm, 94, rfl⟩
abbrev main_c_8 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc9_stg0_0 : Ref sig .tc := ⟨.vmem, 53, rfl⟩
abbrev cc9_stg1_0 : Ref sig .tc := ⟨.vmem, 54, rfl⟩
abbrev cc9_stg2_0 : Ref sig .tc := ⟨.vmem, 55, rfl⟩
abbrev cc9_stg3_0 : Ref sig .tc := ⟨.vmem, 56, rfl⟩
abbrev cc9_stg4_0 : Ref sig .tc := ⟨.vmem, 57, rfl⟩
abbrev cc9_stg5_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc9_sem0_0 : DmaSem sig := 53
abbrev cc9_sem1_0 : DmaSem sig := 54
abbrev cc9_sem2_0 : DmaSem sig := 55
abbrev cc9_sem3_0 : DmaSem sig := 56
abbrev cc9_sem4_0 : DmaSem sig := 57
abbrev cc9_sem5_0 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x32 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S32x8 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x8 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S8x4 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x4 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x4 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  shapeCasts_S100000_S100000x1 : S100000.ShapeCasts S100000x1
  concatenates_S128x32_S128x32_S128x64_d1 : Shape.Concatenates [S128x32, S128x32] S128x64 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  slices_S100000x64_S100000x32_0_0 : S100000x64.Slices ![0, 0] S100000x32
  slices_S100000x64_S100000x32_0_32 : S100000x64.Slices ![0, 32] S100000x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  slices_S3x32x32_S1x32x32_0_0_0 : S3x32x32.Slices ![0, 0, 0] S1x32x32
  shapeCasts_S1x32x32_S32x32 : S1x32x32.ShapeCasts S32x32
  concatenates_S32x32_S32x32_S32x64_d1 : Shape.Concatenates [S32x32, S32x32] S32x64 1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S3x32_S1x32_0_0 : S3x32.Slices ![0, 0] S1x32
  shapeCasts_S1x32_S32 : S1x32.ShapeCasts S32
  slices_S3x32x32_S1x32x32_1_0_0 : S3x32x32.Slices ![1, 0, 0] S1x32x32
  slices_S3x32_S1x32_1_0 : S3x32.Slices ![1, 0] S1x32
  slices_S3x32x32_S1x32x32_2_0_0 : S3x32x32.Slices ![2, 0, 0] S1x32x32
  slices_S3x32_S1x32_2_0 : S3x32.Slices ![2, 0] S1x32
  inb_S64x32_S64x32_0_0 : ∀ a, (![0, 0] : Fin 2 → Nat) a + S64x32.size a ≤ S64x32.size a
  h_S64x32 : 0 < S64x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  shapeCasts_S64x32_S64x32 : S64x32.ShapeCasts S64x32
  shapeCasts_S8_S1x8 : S8.ShapeCasts S1x8
  shapeCasts_S4_S1x4 : S4.ShapeCasts S1x4
  inb_S32x8_S32x8_0_0 : ∀ a, (![0, 0] : Fin 2 → Nat) a + S32x8.size a ≤ S32x8.size a
  h_S32x8 : 0 < S32x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S64x4 : S1x4.Broadcasts S64x4
  reduces_S64x4_S64 : S64x4.Reduces [1] S64
  shapeCasts_S64_S64x1 : S64.ShapeCasts S64x1
  broadcasts_S64x1_S64x4 : S64x1.Broadcasts S64x4
  inb_S64x4_S64x4_0_0 : ∀ a, (![0, 0] : Fin 2 → Nat) a + S64x4.size a ≤ S64x4.size a
  h_S64x4 : 0 < S64x4.numel
  dot_S5000x128_S128x64_S5000x64_1_0_0_1_n_n_wf : DotDims.WF S5000x128 S128x64 S5000x64 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x64_S5000x64_1_0_0_1_n_n_wf : DotDims.WF S5000x32 S32x64 S5000x64 [1] [0] [0] [1] [] []
  dot_S5000x64_S5000x32_S64x32_0_0_1_1_n_n_wf : DotDims.WF S5000x64 S5000x32 S64x32 [0] [0] [1] [1] [] []
  dot_S64x32_S32x8_S64x8_1_0_0_1_n_n_wf : DotDims.WF S64x32 S32x8 S64x8 [1] [0] [0] [1] [] []
  dot_S64x8_S8x4_S64x4_1_0_0_1_n_n_wf : DotDims.WF S64x8 S8x4 S64x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S100000x32.size a
  hwx5_3 : ∀ i : grid5.Coords, EltTy.bits .f32 = 32 ∨ (Rect.block (s := S100000x32) S5000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x32.size a ≤ S100000x32.size a
  hwx7_1 : ∀ i : grid7.Coords, EltTy.bits .f32 = 32 ∨ (Rect.block (s := S100000x32) S5000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x32.size a ≤ S100000x32.size a
  hwx7_3 : ∀ i : grid7.Coords, EltTy.bits .f32 = 32 ∨ (Rect.block (s := S100000x32) S5000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S100000x1.size a
  hwx8_1 : ∀ i : grid8.Coords, EltTy.bits .i32 = 32 ∨ (Rect.block (s := S100000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x32.size a ≤ S64x32.size a
  hwx8_2 : ∀ i : grid8.Coords, EltTy.bits .f32 = 32 ∨ (Rect.block (s := S64x32) S64x32.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x32.size a ≤ S64x32.size a
  hwx9_0 : ∀ i : grid9.Coords, EltTy.bits .f32 = 32 ∨ (Rect.block (s := S64x32) S64x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x8.size a ≤ S32x8.size a
  hwx9_1 : ∀ i : grid9.Coords, EltTy.bits .f32 = 32 ∨ (Rect.block (s := S32x8) S32x8.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x8.size a ≤ S1x8.size a
  hwx9_2 : ∀ i : grid9.Coords, EltTy.bits .f32 = 32 ∨ (Rect.block (s := S1x8) S1x8.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S8x4.size a ≤ S8x4.size a
  hwx9_3 : ∀ i : grid9.Coords, EltTy.bits .f32 = 32 ∨ (Rect.block (s := S8x4) S8x4.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x4.size a ≤ S1x4.size a
  hwx9_4 : ∀ i : grid9.Coords, EltTy.bits .f32 = 32 ∨ (Rect.block (s := S1x4) S1x4.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x4.size a ≤ S64x4.size a
  hwx9_5 : ∀ i : grid9.Coords, EltTy.bits .f32 = 32 ∨ (Rect.block (s := S64x4) S64x4.size (cc9_transform_5 i) (hinb9_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S5000x32_S64x32_0_0_1_1_n_n : DotDims S5000x64 S5000x32 S64x32 where
  lhsContracting := [0]
  rhsContracting := [0]
  lhsNonContracting := [1]
  rhsNonContracting := [1]
  lhsBatch := []
  rhsBatch := []
  wf := dot_S5000x64_S5000x32_S64x32_0_0_1_1_n_n_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68) S5000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v82) S5000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v82) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v0) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v83) S64x32.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v83) S64x32.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S32x8.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v84) S1x8.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg9) S8x4.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v85) S1x4.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v86) S64x4.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S32 : Shape := ⟨1, ![32]⟩
abbrev S3x32x32 : Shape := ⟨3, ![3, 32, 32]⟩
abbrev S3x32 : Shape := ⟨2, ![3, 32]⟩
abbrev S32x8 : Shape := ⟨2, ![32, 8]⟩
abbrev S8 : Shape := ⟨1, ![8]⟩
abbrev S8x4 : Shape := ⟨2, ![8, 4]⟩
abbrev S4 : Shape := ⟨1, ![4]⟩
abbrev S3200000 : Shape := ⟨1, ![3200000]⟩
abbrev S100000 : Shape := ⟨1, ![100000]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S1x32x32 : Shape := ⟨3, ![1, 32, 32]⟩
abbrev S32x32 : Shape := ⟨2, ![32, 32]⟩
abbrev S64x32 : Shape := ⟨2, ![64, 32]⟩
abbrev S100000x1 : Shape := ⟨2, ![100000, 1]⟩
abbrev S64x8 : Shape := ⟨2, ![64, 8]⟩
abbrev S1x8 : Shape := ⟨2, ![1, 8]⟩
abbrev S64x4 : Shape := ⟨2, ![64, 4]⟩
abbrev S1x4 : Shape := ⟨2, ![1, 4]⟩
abbrev S64 : Shape := ⟨1, ![64]⟩
abbrev S64x1 : Shape := ⟨2, ![64, 1]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S128x32, .f32⟩
  | 2 => ⟨S32, .f32⟩
  | 3 => ⟨S128x32, .f32⟩
  | 4 => ⟨S3x32x32, .f32⟩
  | 5 => ⟨S3x32, .f32⟩
  | 6 => ⟨S3x32x32, .f32⟩
  | 7 => ⟨S32x8, .f32⟩
  | 8 => ⟨S8, .f32⟩
  | 9 => ⟨S8x4, .f32⟩
  | 10 => ⟨S4, .f32⟩
  | 11 => ⟨S3200000, .i32⟩
  | 12 => ⟨S3200000, .i32⟩
  | 13 => ⟨S100000, .i32⟩
  | 14 => ⟨S100000x32, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S3200000x32, .f32⟩
  | 24 => ⟨S_, .f32⟩
  | 25 => ⟨S100000x32, .f32⟩
  | 26 => ⟨S3200000x1, .i32⟩
  | 27 => ⟨S100000x32, .f32⟩
  | 28 => ⟨S1x32, .f32⟩
  | 29 => ⟨S100000x32, .f32⟩
  | 30 => ⟨S100000x32, .f32⟩
  | 31 => ⟨S100000x32, .f32⟩
  | 32 => ⟨S100000x32, .f32⟩
  | 33 => ⟨S_, .f32⟩
  | 34 => ⟨S100000x32, .f32⟩
  | 35 => ⟨S100000x32, .f32⟩
  | 36 => ⟨S1x32x32, .f32⟩
  | 37 => ⟨S32x32, .f32⟩
  | 38 => ⟨S1x32, .f32⟩
  | 39 => ⟨S32, .f32⟩
  | 40 => ⟨S1x32x32, .f32⟩
  | 41 => ⟨S32x32, .f32⟩
  | 42 => ⟨S100000x32, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x32, .f32⟩
  | 52 => ⟨S_, .f32⟩
  | 53 => ⟨S100000x32, .f32⟩
  | 54 => ⟨S3200000x1, .i32⟩
  | 55 => ⟨S100000x32, .f32⟩
  | 56 => ⟨S1x32, .f32⟩
  | 57 => ⟨S100000x32, .f32⟩
  | 58 => ⟨S100000x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S1x32x32, .f32⟩
  | 65 => ⟨S32x32, .f32⟩
  | 66 => ⟨S1x32, .f32⟩
  | 67 => ⟨S32, .f32⟩
  | 68 => ⟨S1x32x32, .f32⟩
  | 69 => ⟨S32x32, .f32⟩
  | 70 => ⟨S100000x32, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x32, .f32⟩
  | 80 => ⟨S_, .f32⟩
  | 81 => ⟨S100000x32, .f32⟩
  | 82 => ⟨S3200000x1, .i32⟩
  | 83 => ⟨S100000x32, .f32⟩
  | 84 => ⟨S1x32, .f32⟩
  | 85 => ⟨S100000x32, .f32⟩
  | 86 => ⟨S100000x32, .f32⟩
  | 87 => ⟨S100000x32, .f32⟩
  | 88 => ⟨S100000x32, .f32⟩
  | 89 => ⟨S_, .f32⟩
  | 90 => ⟨S100000x32, .f32⟩
  | 91 => ⟨S100000x32, .f32⟩
  | 92 => ⟨S1x32x32, .f32⟩
  | 93 => ⟨S32x32, .f32⟩
  | 94 => ⟨S1x32, .f32⟩
  | 95 => ⟨S32, .f32⟩
  | 96 => ⟨S1x32x32, .f32⟩
  | 97 => ⟨S32x32, .f32⟩
  | 98 => ⟨S100000x32, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S_, .f32⟩
  | 109 => ⟨S100000x32, .f32⟩
  | 110 => ⟨S3200000x1, .i32⟩
  | 111 => ⟨S100000x32, .f32⟩
  | 112 => ⟨S1x32, .f32⟩
  | 113 => ⟨S100000x32, .f32⟩
  | 114 => ⟨S100000x32, .f32⟩
  | 115 => ⟨S100000x32, .f32⟩
  | 116 => ⟨S100000x32, .f32⟩
  | 117 => ⟨S_, .f32⟩
  | 118 => ⟨S100000x32, .f32⟩
  | 119 => ⟨S100000x32, .f32⟩
  | 120 => ⟨S_, .f32⟩
  | 121 => ⟨S64x32, .f32⟩
  | 122 => ⟨S100000x1, .i32⟩
  | 123 => ⟨S64x32, .f32⟩
  | 124 => ⟨S64x8, .f32⟩
  | 125 => ⟨S1x8, .f32⟩
  | 126 => ⟨S64x8, .f32⟩
  | 127 => ⟨S64x8, .f32⟩
  | _ => ⟨S100000x128, .f32⟩

abbrev hbmTy0_1 (i : Nat) : BufTy := match i % 128 with
  | 0 => ⟨S_, .f32⟩
  | 1 => ⟨S64x8, .f32⟩
  | 2 => ⟨S64x8, .f32⟩
  | 3 => ⟨S64x4, .f32⟩
  | 4 => ⟨S1x4, .f32⟩
  | 5 => ⟨S64x4, .f32⟩
  | 6 => ⟨S64x4, .f32⟩
  | 7 => ⟨S_, .f32⟩
  | 8 => ⟨S64x4, .f32⟩
  | 9 => ⟨S64x4, .f32⟩
  | 10 => ⟨S_, .f32⟩
  | 11 => ⟨S64, .f32⟩
  | 12 => ⟨S_, .f32⟩
  | 13 => ⟨S64, .f32⟩
  | 14 => ⟨S64, .f32⟩
  | 15 => ⟨S64x1, .f32⟩
  | 16 => ⟨S64x4, .f32⟩
  | 17 => ⟨S64x4, .f32⟩
  | 18 => ⟨S64x4, .f32⟩
  | 19 => ⟨S_, .f32⟩
  | 20 => ⟨S64, .f32⟩
  | 21 => ⟨S64x1, .f32⟩
  | 22 => ⟨S64x4, .f32⟩
  | 23 => ⟨S64x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_1 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_cst : Ref sig .tc := ⟨.hbm, 61, rfl⟩
abbrev main_call1_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call2_cst : Ref sig .tc := ⟨.hbm, 89, rfl⟩
abbrev main_call2_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_7 : Ref sig .tc := ⟨.hbm, 99, rfl⟩
abbrev main_v70 : Ref sig .tc := ⟨.hbm, 100, rfl⟩
abbrev main_v71 : Ref sig .tc := ⟨.hbm, 101, rfl⟩
abbrev main_c_8 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_9 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_v85 : Ref sig .tc := ⟨.hbm, 119, rfl⟩
abbrev main_cst_10 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call4_cst : Ref sig .tc := ⟨.hbm, 128, rfl⟩
abbrev main_call4_v0 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call5_cst : Ref sig .tc := ⟨.hbm, 135, rfl⟩
abbrev main_call5_v0 : Ref sig .tc := ⟨.hbm, 136, rfl⟩
abbrev main_v98 : Ref sig .tc := ⟨.hbm, 137, rfl⟩
abbrev main_cst_11 : Ref sig .tc := ⟨.hbm, 138, rfl⟩
abbrev main_v99 : Ref sig .tc := ⟨.hbm, 139, rfl⟩
abbrev main_cst_12 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_13 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  shapeCasts_S1x32_S32 : S1x32.ShapeCasts S32
  slices_S3x32x32_S1x32x32_1_0_0 : S3x32x32.Slices ![1, 0, 0] S1x32x32
  slices_S3x32_S1x32_1_0 : S3x32.Slices ![1, 0] S1x32
  slices_S3x32x32_S1x32x32_2_0_0 : S3x32x32.Slices ![2, 0, 0] S1x32x32
  slices_S3x32_S1x32_2_0 : S3x32.Slices ![2, 0] S1x32
  bcast_S_S64x32 : S_.BroadcastsInDim S64x32 (![] : Fin 0 → Fin S64x32.rank)
  bcast_S100000_S100000x1_0 : S100000.BroadcastsInDim S100000x1 (![0] : Fin 1 → Fin S100000x1.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  reducesTo_S64x4_S64_d1 : S64x4.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x4_0_1 : S64x1.BroadcastsInDim S64x4 (![0, 1] : Fin 2 → Fin S64x4.rank)
  dot_S100000x128_S128x32_S100000x32_1_0_0_1_n_n_wf : DotDims.WF S100000x128 S128x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  dot_S64x32_S32x8_S64x8_1_0_0_1_n_n_wf : DotDims.WF S64x32 S32x8 S64x8 [1] [0] [0] [1] [] []
  dot_S64x8_S8x4_S64x4_1_0_0_1_n_n_wf : DotDims.WF S64x8 S8x4 S64x4 [1] [0] [0] [1] [] []

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def dot_S64x32_S32x8_S64x8_1_0_0_1_n_n : DotDims S64x32 S32x8 S64x8 where
  lhsContracting := [1]
  rhsContracting := [0]
  lhsNonContracting := [0]
  rhsNonContracting := [1]
  lhsBatch := []
  rhsBatch := []
  wf := dot_S64x32_S32x8_S64x8_1_0_0_1_n_n_wf
def dot_S64x8_S8x4_S64x4_1_0_0_1_n_n : DotDims S64x8 S8x4 S64x4 where
  lhsContracting := [1]
  rhsContracting := [0]
  lhsNonContracting := [0]
  rhsNonContracting := [1]
  lhsBatch := []
  rhsBatch := []
  wf := dot_S64x8_S8x4_S64x4_1_0_0_1_n_n_wf

class Facts : Prop extends Facts₀ where

variable [Facts]
-- ==== Proof.KKeep.lean ====
/-
  Buffers no host stretch and no region writes between two boundaries of @main keep their contents: for each argument
  array the program reads late, and for the reshaped graph ids, the contents at each boundary are the contents at the
  boundary before, back to the launch memory (for the graph ids: back to the stretch that made them).
-/
import proofs.«412697_j56040733278666_2_alg».proof.Proof.Gen.KernelIdeal.Frame

set_option maxRecDepth 16384

noncomputable section

namespace Cert.KernelIdeal.KV

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem step_main_arg0_1 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg0_1 (c : Dev nD) : W1 m ρ c (Proc.devRef .tc main_arg0) = m ((c : Thread nD τ).loc main_arg0) :=
  (step_main_arg0_1 m ρ c).trans rfl

theorem step_main_arg2_1 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg2_2 (c : Dev nD) : W2 m ρ c (Proc.devRef .tc main_arg2) = W1 m ρ c (Proc.devRef .tc main_arg2) :=
  W2_of_ne m ρ c main_arg2 (by decide)
theorem keep_main_arg2_1 (c : Dev nD) : W1 m ρ c (Proc.devRef .tc main_arg2) = m ((c : Thread nD τ).loc main_arg2) :=
  (step_main_arg2_1 m ρ c).trans rfl
theorem keep_main_arg2_2 (c : Dev nD) : W2 m ρ c (Proc.devRef .tc main_arg2) = m ((c : Thread nD τ).loc main_arg2) :=
  (step_main_arg2_2 m ρ c).trans (keep_main_arg2_1 m ρ c)

theorem step_main_arg11_1 (c : Dev nD) : W1 m ρ c (Proc.devRef .tc main_arg11) = W0 m ρ c (Proc.devRef .tc main_arg11) :=
  StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_2 (c : Dev nD) : W2 m ρ c (Proc.devRef .tc main_arg11) = W1 m ρ c (Proc.devRef .tc main_arg11) :=
  W2_of_ne m ρ c main_arg11 (by decide)
theorem step_main_arg11_3 (c : Dev nD) : W3 m ρ c (Proc.devRef .tc main_arg11) = W2 m ρ c (Proc.devRef .tc main_arg11) :=
  StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_4 (c : Dev nD) : W4 m ρ c (Proc.devRef .tc main_arg11) = W3 m ρ c (Proc.devRef .tc main_arg11) :=
  W4_of_ne m ρ c main_arg11 (by decide)
theorem step_main_arg11_5 (c : Dev nD) : W5 m ρ c (Proc.devRef .tc main_arg11) = W4 m ρ c (Proc.devRef .tc main_arg11) :=
  StableHlo.after_of_forall_not_mem (b := Proc.devRef .tc main_arg11) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_6 (c : Dev nD) : W6 m ρ c (Proc.devRef .tc main_arg11) = W5 m ρ c (Proc.devRef .tc main_arg11) :=
  W6_of_ne m ρ c main_arg11 (by decide)
theorem step_main_arg11_7 (c : Dev nD) : W7 m ρ c (Proc.devRef .tc main_arg11) = W6 m ρ c (Proc.devRef .tc main_arg11) :=
  StableHlo.after_of_forall_not_mem (b := Proc.devRef .tc main_arg11) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_8 (c : Dev nD) : W8 m ρ c (Proc.devRef .tc main_arg11) = W7 m ρ c (Proc.devRef .tc main_arg11) :=
  W8_of_ne m ρ c main_arg11 (by decide)
theorem step_main_arg11_9 (c : Dev nD) : W9 m ρ c (Proc.devRef .tc main_arg11) = W8 m ρ c (Proc.devRef .tc main_arg11) :=
  StableHlo.after_of_forall_not_mem (b := Proc.devRef .tc main_arg11) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_10 (c : Dev nD) : W10 m ρ c (Proc.devRef .tc main_arg11) = W9 m ρ c (Proc.devRef .tc main_arg11) :=
  W10_of_ne m ρ c main_arg11 (by decide)
theorem step_main_arg11_11 (c : Dev nD) : W11 m ρ c (Proc.devRef .tc main_arg11) = W10 m ρ c (Proc.devRef .tc main_arg11) :=
  StableHlo.after_of_forall_not_mem (b := Proc.devRef .tc main_arg11) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_12 (c : Dev nD) : W12 m ρ c (Proc.devRef .tc main_arg11) = W11 m ρ c (Proc.devRef .tc main_arg11) :=
  W12_of_ne m ρ c main_arg11 (by decide)
theorem step_main_arg11_13 (c : Dev nD) : W13 m ρ c (Proc.devRef .tc main_arg11) = W12 m ρ c (Proc.devRef .tc main_arg11) :=
  StableHlo.after_of_forall_not_mem (b := Proc.devRef .tc main_arg11) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg11_14 (c : Dev nD) : W14 m ρ c (Proc.devRef .tc main_arg11) = W13 m ρ c (Proc.devRef .tc main_arg11) :=
  W14_of_ne m ρ c main_arg11 (by decide)
theorem keep_main_arg11_1 (c : Dev nD) : W1 m ρ c (Proc.devRef .tc main_arg11) = m ((c : Thread nD τ).loc main_arg11) :=
  (step_main_arg11_1 m ρ c).trans rfl
theorem keep_main_arg11_2 (c : Dev nD) : W2 m ρ c (Proc.devRef .tc main_arg11) = m ((c : Thread nD τ).loc main_arg11) :=
  (step_main_arg11_2 m ρ c).trans (keep_main_arg11_1 m ρ c)
theorem keep_main_arg11_3 (c : Dev nD) : W3 m ρ c (Proc.devRef .tc main_arg11) = m ((c : Thread nD τ).loc main_arg11) :=
  (step_main_arg11_3 m ρ c).trans (keep_main_arg11_2 m ρ c)
theorem keep_main_arg11_4 (c : Dev nD) : W4 m ρ c (Proc.devRef .tc main_arg11) = m ((c : Thread nD τ).loc main_arg11) :=
  (step_main_arg11_4 m ρ c).trans (keep_main_arg11_3 m ρ c)
theorem keep_main_arg11_5 (c : Dev nD) : W5 m ρ c (Proc.devRef .tc main_arg11) = m ((c : Thread nD τ).loc main_arg11) :=
  (step_main_arg11_5 m ρ c).trans (keep_main_arg11_4 m ρ c)
theorem keep_main_arg11_6 (c : Dev nD) : W6 m ρ c (Proc.devRef .tc main_arg11) = m ((c : Thread nD τ).loc main_arg11) :=
  (step_main_arg11_6 m ρ c).trans (keep_main_arg11_5 m ρ c)
theorem keep_main_arg11_7 (c : Dev nD) : W7 m ρ c (Proc.devRef .tc main_arg11) = m ((c : Thread nD τ).loc main_arg11) :=
  (step_main_arg11_7 m ρ c).trans (keep_main_arg11_6 m ρ c)
theorem keep_main_arg11_8 (c : Dev nD) : W8 m ρ c (Proc.devRef .tc main_arg11) = m ((c : Thread nD τ).loc main_arg11) :=
  (step_main_arg11_8 m ρ c).trans (keep_main_arg11_7 m ρ c)
theorem keep_main_arg11_9 (c : Dev nD) : W9 m ρ c (Proc.devRef .tc main_arg11) = m ((c : Thread nD τ).loc main_arg11) :=
  (step_main_arg11_9 m ρ c).trans (keep_main_arg11_8 m ρ c)
theorem keep_main_arg11_10 (c : Dev nD) : W10 m ρ c (Proc.devRef .tc main_arg11) = m ((c : Thread nD τ).loc main_arg11) :=
  (step_main_arg11_10 m ρ c).trans (keep_main_arg11_9 m ρ c)
theorem keep_main_arg11_11 (c : Dev nD) : W11 m ρ c (Proc.devRef .tc main_arg11) = m ((c : Thread nD τ).loc main_arg11) :=
  (step_main_arg11_11 m ρ c).trans (keep_main_arg11_10 m ρ c)
theorem keep_main_arg11_12 (c : Dev nD) : W12 m ρ c (Proc.devRef .tc main_arg11) = m ((c : Thread nD τ).loc main_arg11) :=
  (step_main_arg11_12 m ρ c).trans (keep_main_arg11_11 m ρ c)
theorem keep_main_arg11_13 (c : Dev nD) : W13 m ρ c (Proc.devRef .tc main_arg11) = m ((c : Thread nD τ).loc main_arg11) :=
  (step_main_arg11_13 m ρ c).trans (keep_main_arg11_12 m ρ c)
theorem keep_main_arg11_14 (c : Dev nD) : W14 m ρ c (Proc.devRef .tc main_arg11) = m ((c : Thread nD τ).loc main_arg11) :=
  (step_main_arg11_14 m ρ c).trans (keep_main_arg11_13 m ρ c)

theorem step_main_arg12_1 (c : Dev nD) : W1 m ρ c (Proc.devRef .tc main_arg12) = W0 m ρ c (Proc.devRef .tc main_arg12) :=
  StableHlo.after_of_forall_not_mem (b := Proc.devRef .tc main_arg12) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_2 (c : Dev nD) : W2 m ρ c (Proc.devRef .tc main_arg12) = W1 m ρ c (Proc.devRef .tc main_arg12) :=
  W2_of_ne m ρ c main_arg12 (by decide)
theorem step_main_arg12_3 (c : Dev nD) : W3 m ρ c (Proc.devRef .tc main_arg12) = W2 m ρ c (Proc.devRef .tc main_arg12) :=
  StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_4 (c : Dev nD) : W4 m ρ c (Proc.devRef .tc main_arg12) = W3 m ρ c (Proc.devRef .tc main_arg12) :=
  W4_of_ne m ρ c main_arg12 (by decide)
theorem step_main_arg12_5 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_6 (c : Dev nD) : W6 m ρ c (Proc.devRef .tc main_arg12) = W5 m ρ c (Proc.devRef .tc main_arg12) :=
  W6_of_ne m ρ c main_arg12 (by decide)
theorem step_main_arg12_7 (c : Dev nD) : W7 m ρ c (Proc.devRef .tc main_arg12) = W6 m ρ c (Proc.devRef .tc main_arg12) :=
  StableHlo.after_of_forall_not_mem (b := Proc.devRef .tc main_arg12) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_8 (c : Dev nD) : W8 m ρ c (Proc.devRef .tc main_arg12) = W7 m ρ c (Proc.devRef .tc main_arg12) :=
  W8_of_ne m ρ c main_arg12 (by decide)
theorem step_main_arg12_9 (c : Dev nD) : W9 m ρ c (Proc.devRef .tc main_arg12) = W8 m ρ c (Proc.devRef .tc main_arg12) :=
  StableHlo.after_of_forall_not_mem (b := Proc.devRef .tc main_arg12) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_10 (c : Dev nD) : W10 m ρ c (Proc.devRef .tc main_arg12) = W9 m ρ c (Proc.devRef .tc main_arg12) :=
  W10_of_ne m ρ c main_arg12 (by decide)
theorem step_main_arg12_11 (c : Dev nD) : W11 m ρ c (Proc.devRef .tc main_arg12) = W10 m ρ c (Proc.devRef .tc main_arg12) :=
  StableHlo.after_of_forall_not_mem (b := Proc.devRef .tc main_arg12) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_12 (c : Dev nD) : W12 m ρ c (Proc.devRef .tc main_arg12) = W11 m ρ c (Proc.devRef .tc main_arg12) :=
  W12_of_ne m ρ c main_arg12 (by decide)
theorem step_main_arg12_13 (c : Dev nD) : W13 m ρ c (Proc.devRef .tc main_arg12) = W12 m ρ c (Proc.devRef .tc main_arg12) :=
  StableHlo.after_of_forall_not_mem (b := Proc.devRef .tc main_arg12) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg12_14 (c : Dev nD) : W14 m ρ c (Proc.devRef .tc main_arg12) = W13 m ρ c (Proc.devRef .tc main_arg12) :=
  W14_of_ne m ρ c main_arg12 (by decide)
theorem keep_main_arg12_1 (c : Dev nD) : W1 m ρ c (Proc.devRef .tc main_arg12) = m ((c : Thread nD τ).loc main_arg12) :=
  (step_main_arg12_1 m ρ c).trans rfl
theorem keep_main_arg12_2 (c : Dev nD) : W2 m ρ c (Proc.devRef .tc main_arg12) = m ((c : Thread nD τ).loc main_arg12) :=
  (step_main_arg12_2 m ρ c).trans (keep_main_arg12_1 m ρ c)
theorem keep_main_arg12_3 (c : Dev nD) : W3 m ρ c (Proc.devRef .tc main_arg12) = m ((c : Thread nD τ).loc main_arg12) :=
  (step_main_arg12_3 m ρ c).trans (keep_main_arg12_2 m ρ c)
theorem keep_main_arg12_4 (c : Dev nD) : W4 m ρ c (Proc.devRef .tc main_arg12) = m ((c : Thread nD τ).loc main_arg12) :=
  (step_main_arg12_4 m ρ c).trans (keep_main_arg12_3 m ρ c)
theorem keep_main_arg12_5 (c : Dev nD) : W5 m ρ c (Proc.devRef .tc main_arg12) = m ((c : Thread nD τ).loc main_arg12) :=
  (step_main_arg12_5 m ρ c).trans (keep_main_arg12_4 m ρ c)
theorem keep_main_arg12_6 (c : Dev nD) : W6 m ρ c (Proc.devRef .tc main_arg12) = m ((c : Thread nD τ).loc main_arg12) :=
  (step_main_arg12_6 m ρ c).trans (keep_main_arg12_5 m ρ c)
theorem keep_main_arg12_7 (c : Dev nD) : W7 m ρ c (Proc.devRef .tc main_arg12) = m ((c : Thread nD τ).loc main_arg12) :=
  (step_main_arg12_7 m ρ c).trans (keep_main_arg12_6 m ρ c)
theorem keep_main_arg12_8 (c : Dev nD) : W8 m ρ c (Proc.devRef .tc main_arg12) = m ((c : Thread nD τ).loc main_arg12) :=
  (step_main_arg12_8 m ρ c).trans (keep_main_arg12_7 m ρ c)
theorem keep_main_arg12_9 (c : Dev nD) : W9 m ρ c (Proc.devRef .tc main_arg12) = m ((c : Thread nD τ).loc main_arg12) :=
  (step_main_arg12_9 m ρ c).trans (keep_main_arg12_8 m ρ c)
theorem keep_main_arg12_10 (c : Dev nD) : W10 m ρ c (Proc.devRef .tc main_arg12) = m ((c : Thread nD τ).loc main_arg12) :=
  (step_main_arg12_10 m ρ c).trans (keep_main_arg12_9 m ρ c)
theorem keep_main_arg12_11 (c : Dev nD) : W11 m ρ c (Proc.devRef .tc main_arg12) = m ((c : Thread nD τ).loc main_arg12) :=
  (step_main_arg12_11 m ρ c).trans (keep_main_arg12_10 m ρ c)
theorem keep_main_arg12_12 (c : Dev nD) : W12 m ρ c (Proc.devRef .tc main_arg12) = m ((c : Thread nD τ).loc main_arg12) :=
  (step_main_arg12_12 m ρ c).trans (keep_main_arg12_11 m ρ c)
theorem keep_main_arg12_13 (c : Dev nD) : W13 m ρ c (Proc.devRef .tc main_arg12) = m ((c : Thread nD τ).loc main_arg12) :=
  (step_main_arg12_13 m ρ c).trans (keep_main_arg12_12 m ρ c)
theorem keep_main_arg12_14 (c : Dev nD) : W14 m ρ c (Proc.devRef .tc main_arg12) = m ((c : Thread nD τ).loc main_arg12) :=
  (step_main_arg12_14 m ρ c).trans (keep_main_arg12_13 m ρ c)

theorem step_main_arg4_1 (c : Dev nD) : W1 m ρ c (Proc.devRef .tc main_arg4) = W0 m ρ c (Proc.devRef .tc main_arg4) :=
  StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_2 (c : Dev nD) : W2 m ρ c (Proc.devRef .tc main_arg4) = W1 m ρ c (Proc.devRef .tc main_arg4) :=
  W2_of_ne m ρ c main_arg4 (by decide)
theorem step_main_arg4_3 (c : Dev nD) : W3 m ρ c (Proc.devRef .tc main_arg4) = W2 m ρ c (Proc.devRef .tc main_arg4) :=
  StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_4 (c : Dev nD) : W4 m ρ c (Proc.devRef .tc main_arg4) = W3 m ρ c (Proc.devRef .tc main_arg4) :=
  W4_of_ne m ρ c main_arg4 (by decide)
theorem step_main_arg4_5 (c : Dev nD) : W5 m ρ c (Proc.devRef .tc main_arg4) = W4 m ρ c (Proc.devRef .tc main_arg4) :=
  StableHlo.after_of_forall_not_mem (b := Proc.devRef .tc main_arg4) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_6 (c : Dev nD) : W6 m ρ c (Proc.devRef .tc main_arg4) = W5 m ρ c (Proc.devRef .tc main_arg4) :=
  W6_of_ne m ρ c main_arg4 (by decide)
theorem step_main_arg4_7 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_8 (c : Dev nD) : W8 m ρ c (Proc.devRef .tc main_arg4) = W7 m ρ c (Proc.devRef .tc main_arg4) :=
  W8_of_ne m ρ c main_arg4 (by decide)
theorem step_main_arg4_9 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_10 (c : Dev nD) : W10 m ρ c (Proc.devRef .tc main_arg4) = W9 m ρ c (Proc.devRef .tc main_arg4) :=
  W10_of_ne m ρ c main_arg4 (by decide)
theorem step_main_arg4_11 (c : Dev nD) : W11 m ρ c (Proc.devRef .tc main_arg4) = W10 m ρ c (Proc.devRef .tc main_arg4) :=
  StableHlo.after_of_forall_not_mem (b := Proc.devRef .tc main_arg4) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg4_12 (c : Dev nD) : W12 m ρ c (Proc.devRef .tc main_arg4) = W11 m ρ c (Proc.devRef .tc main_arg4) :=
  W12_of_ne m ρ c main_arg4 (by decide)
theorem keep_main_arg4_1 (c : Dev nD) : W1 m ρ c (Proc.devRef .tc main_arg4) = m ((c : Thread nD τ).loc main_arg4) :=
  (step_main_arg4_1 m ρ c).trans rfl
theorem keep_main_arg4_2 (c : Dev nD) : W2 m ρ c (Proc.devRef .tc main_arg4) = m ((c : Thread nD τ).loc main_arg4) :=
  (step_main_arg4_2 m ρ c).trans (keep_main_arg4_1 m ρ c)
theorem keep_main_arg4_3 (c : Dev nD) : W3 m ρ c (Proc.devRef .tc main_arg4) = m ((c : Thread nD τ).loc main_arg4) :=
  (step_main_arg4_3 m ρ c).trans (keep_main_arg4_2 m ρ c)
theorem keep_main_arg4_4 (c : Dev nD) : W4 m ρ c (Proc.devRef .tc main_arg4) = m ((c : Thread nD τ).loc main_arg4) :=
  (step_main_arg4_4 m ρ c).trans (keep_main_arg4_3 m ρ c)
theorem keep_main_arg4_5 (c : Dev nD) : W5 m ρ c (Proc.devRef .tc main_arg4) = m ((c : Thread nD τ).loc main_arg4) :=
  (step_main_arg4_5 m ρ c).trans (keep_main_arg4_4 m ρ c)
theorem keep_main_arg4_6 (c : Dev nD) : W6 m ρ c (Proc.devRef .tc main_arg4) = m ((c : Thread nD τ).loc main_arg4) :=
  (step_main_arg4_6 m ρ c).trans (keep_main_arg4_5 m ρ c)
theorem keep_main_arg4_7 (c : Dev nD) : W7 m ρ c (Proc.devRef .tc main_arg4) = m ((c : Thread nD τ).loc main_arg4) :=
  (step_main_arg4_7 m ρ c).trans (keep_main_arg4_6 m ρ c)
theorem keep_main_arg4_8 (c : Dev nD) : W8 m ρ c (Proc.devRef .tc main_arg4) = m ((c : Thread nD τ).loc main_arg4) :=
  (step_main_arg4_8 m ρ c).trans (keep_main_arg4_7 m ρ c)
theorem keep_main_arg4_9 (c : Dev nD) : W9 m ρ c (Proc.devRef .tc main_arg4) = m ((c : Thread nD τ).loc main_arg4) :=
  (step_main_arg4_9 m ρ c).trans (keep_main_arg4_8 m ρ c)
theorem keep_main_arg4_10 (c : Dev nD) : W10 m ρ c (Proc.devRef .tc main_arg4) = m ((c : Thread nD τ).loc main_arg4) :=
  (step_main_arg4_10 m ρ c).trans (keep_main_arg4_9 m ρ c)
theorem keep_main_arg4_11 (c : Dev nD) : W11 m ρ c (Proc.devRef .tc main_arg4) = m ((c : Thread nD τ).loc main_arg4) :=
  (step_main_arg4_11 m ρ c).trans (keep_main_arg4_10 m ρ c)
theorem keep_main_arg4_12 (c : Dev nD) : W12 m ρ c (Proc.devRef .tc main_arg4) = m ((c : Thread nD τ).loc main_arg4) :=
  (step_main_arg4_12 m ρ c).trans (keep_main_arg4_11 m ρ c)

theorem step_main_arg6_1 (c : Dev nD) : W1 m ρ c (Proc.devRef .tc main_arg6) = W0 m ρ c (Proc.devRef .tc main_arg6) :=
  StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_2 (c : Dev nD) : W2 m ρ c (Proc.devRef .tc main_arg6) = W1 m ρ c (Proc.devRef .tc main_arg6) :=
  W2_of_ne m ρ c main_arg6 (by decide)
theorem step_main_arg6_3 (c : Dev nD) : W3 m ρ c (Proc.devRef .tc main_arg6) = W2 m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_4 (c : Dev nD) : W4 m ρ c (Proc.devRef .tc main_arg6) = W3 m ρ c (Proc.devRef .tc main_arg6) :=
  W4_of_ne m ρ c main_arg6 (by decide)
theorem step_main_arg6_5 (c : Dev nD) : W5 m ρ c (Proc.devRef .tc main_arg6) = W4 m ρ c (Proc.devRef .tc main_arg6) :=
  StableHlo.after_of_forall_not_mem (b := Proc.devRef .tc main_arg6) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_6 (c : Dev nD) : W6 m ρ c (Proc.devRef .tc main_arg6) = W5 m ρ c (Proc.devRef .tc main_arg6) :=
  W6_of_ne m ρ c main_arg6 (by decide)
theorem step_main_arg6_7 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_8 (c : Dev nD) : W8 m ρ c (Proc.devRef .tc main_arg6) = W7 m ρ c (Proc.devRef .tc main_arg6) :=
  W8_of_ne m ρ c main_arg6 (by decide)
theorem step_main_arg6_9 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_10 (c : Dev nD) : W10 m ρ c (Proc.devRef .tc main_arg6) = W9 m ρ c (Proc.devRef .tc main_arg6) :=
  W10_of_ne m ρ c main_arg6 (by decide)
theorem step_main_arg6_11 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg6_12 (c : Dev nD) : W12 m ρ c (Proc.devRef .tc main_arg6) = W11 m ρ c (Proc.devRef .tc main_arg6) :=
  W12_of_ne m ρ c main_arg6 (by decide)
theorem keep_main_arg6_1 (c : Dev nD) : W1 m ρ c (Proc.devRef .tc main_arg6) = m ((c : Thread nD τ).loc main_arg6) :=
  (step_main_arg6_1 m ρ c).trans rfl
theorem keep_main_arg6_2 (c : Dev nD) : W2 m ρ c (Proc.devRef .tc main_arg6) = m ((c : Thread nD τ).loc main_arg6) :=
  (step_main_arg6_2 m ρ c).trans (keep_main_arg6_1 m ρ c)
theorem keep_main_arg6_3 (c : Dev nD) : W3 m ρ c (Proc.devRef .tc main_arg6) = m ((c : Thread nD τ).loc main_arg6) :=
  (step_main_arg6_3 m ρ c).trans (keep_main_arg6_2 m ρ c)
theorem keep_main_arg6_4 (c : Dev nD) : W4 m ρ c (Proc.devRef .tc main_arg6) = m ((c : Thread nD τ).loc main_arg6) :=
  (step_main_arg6_4 m ρ c).trans (keep_main_arg6_3 m ρ c)
theorem keep_main_arg6_5 (c : Dev nD) : W5 m ρ c (Proc.devRef .tc main_arg6) = m ((c : Thread nD τ).loc main_arg6) :=
  (step_main_arg6_5 m ρ c).trans (keep_main_arg6_4 m ρ c)
theorem keep_main_arg6_6 (c : Dev nD) : W6 m ρ c (Proc.devRef .tc main_arg6) = m ((c : Thread nD τ).loc main_arg6) :=
  (step_main_arg6_6 m ρ c).trans (keep_main_arg6_5 m ρ c)
theorem keep_main_arg6_7 (c : Dev nD) : W7 m ρ c (Proc.devRef .tc main_arg6) = m ((c : Thread nD τ).loc main_arg6) :=
  (step_main_arg6_7 m ρ c).trans (keep_main_arg6_6 m ρ c)
theorem keep_main_arg6_8 (c : Dev nD) : W8 m ρ c (Proc.devRef .tc main_arg6) = m ((c : Thread nD τ).loc main_arg6) :=
  (step_main_arg6_8 m ρ c).trans (keep_main_arg6_7 m ρ c)
theorem keep_main_arg6_9 (c : Dev nD) : W9 m ρ c (Proc.devRef .tc main_arg6) = m ((c : Thread nD τ).loc main_arg6) :=
  (step_main_arg6_9 m ρ c).trans (keep_main_arg6_8 m ρ c)
theorem keep_main_arg6_10 (c : Dev nD) : W10 m ρ c (Proc.devRef .tc main_arg6) = m ((c : Thread nD τ).loc main_arg6) :=
  (step_main_arg6_10 m ρ c).trans (keep_main_arg6_9 m ρ c)
theorem keep_main_arg6_11 (c : Dev nD) : W11 m ρ c (Proc.devRef .tc main_arg6) = m ((c : Thread nD τ).loc main_arg6) :=
  (step_main_arg6_11 m ρ c).trans (keep_main_arg6_10 m ρ c)
theorem keep_main_arg6_12 (c : Dev nD) : W12 m ρ c (Proc.devRef .tc main_arg6) = m ((c : Thread nD τ).loc main_arg6) :=
  (step_main_arg6_12 m ρ c).trans (keep_main_arg6_11 m ρ c)

theorem step_main_arg5_1 (c : Dev nD) : W1 m ρ c (Proc.devRef .tc main_arg5) = W0 m ρ c (Proc.devRef .tc main_arg5) :=
  StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_2 (c : Dev nD) : W2 m ρ c (Proc.devRef .tc main_arg5) = W1 m ρ c (Proc.devRef .tc main_arg5) :=
  W2_of_ne m ρ c main_arg5 (by decide)
theorem step_main_arg5_3 (c : Dev nD) : W3 m ρ c (Proc.devRef .tc main_arg5) = W2 m ρ c (Proc.devRef .tc main_arg5) :=
  StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_4 (c : Dev nD) : W4 m ρ c (Proc.devRef .tc main_arg5) = W3 m ρ c (Proc.devRef .tc main_arg5) :=
  W4_of_ne m ρ c main_arg5 (by decide)
theorem step_main_arg5_5 (c : Dev nD) : W5 m ρ c (Proc.devRef .tc main_arg5) = W4 m ρ c (Proc.devRef .tc main_arg5) :=
  StableHlo.after_of_forall_not_mem (b := Proc.devRef .tc main_arg5) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_6 (c : Dev nD) : W6 m ρ c (Proc.devRef .tc main_arg5) = W5 m ρ c (Proc.devRef .tc main_arg5) :=
  W6_of_ne m ρ c main_arg5 (by decide)
theorem step_main_arg5_7 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_8 (c : Dev nD) : W8 m ρ c (Proc.devRef .tc main_arg5) = W7 m ρ c (Proc.devRef .tc main_arg5) :=
  W8_of_ne m ρ c main_arg5 (by decide)
theorem step_main_arg5_9 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_10 (c : Dev nD) : W10 m ρ c (Proc.devRef .tc main_arg5) = W9 m ρ c (Proc.devRef .tc main_arg5) :=
  W10_of_ne m ρ c main_arg5 (by decide)
theorem step_main_arg5_11 (c : Dev nD) : W11 m ρ c (Proc.devRef .tc main_arg5) = W10 m ρ c (Proc.devRef .tc main_arg5) :=
  StableHlo.after_of_forall_not_mem (b := Proc.devRef .tc main_arg5) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_12 (c : Dev nD) : W12 m ρ c (Proc.devRef .tc main_arg5) = W11 m ρ c (Proc.devRef .tc main_arg5) :=
  W12_of_ne m ρ c main_arg5 (by decide)
theorem step_main_arg5_13 (c : Dev nD) : W13 m ρ c (Proc.devRef .tc main_arg5) = W12 m ρ c (Proc.devRef .tc main_arg5) :=
  StableHlo.after_of_forall_not_mem (b := Proc.devRef .tc main_arg5) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg5_14 (c : Dev nD) : W14 m ρ c (Proc.devRef .tc main_arg5) = W13 m ρ c (Proc.devRef .tc main_arg5) :=
  W14_of_ne m ρ c main_arg5 (by decide)
theorem keep_main_arg5_1 (c : Dev nD) : W1 m ρ c (Proc.devRef .tc main_arg5) = m ((c : Thread nD τ).loc main_arg5) :=
  (step_main_arg5_1 m ρ c).trans rfl
theorem keep_main_arg5_2 (c : Dev nD) : W2 m ρ c (Proc.devRef .tc main_arg5) = m ((c : Thread nD τ).loc main_arg5) :=
  (step_main_arg5_2 m ρ c).trans (keep_main_arg5_1 m ρ c)
theorem keep_main_arg5_3 (c : Dev nD) : W3 m ρ c (Proc.devRef .tc main_arg5) = m ((c : Thread nD τ).loc main_arg5) :=
  (step_main_arg5_3 m ρ c).trans (keep_main_arg5_2 m ρ c)
theorem keep_main_arg5_4 (c : Dev nD) : W4 m ρ c (Proc.devRef .tc main_arg5) = m ((c : Thread nD τ).loc main_arg5) :=
  (step_main_arg5_4 m ρ c).trans (keep_main_arg5_3 m ρ c)
theorem keep_main_arg5_5 (c : Dev nD) : W5 m ρ c (Proc.devRef .tc main_arg5) = m ((c : Thread nD τ).loc main_arg5) :=
  (step_main_arg5_5 m ρ c).trans (keep_main_arg5_4 m ρ c)
theorem keep_main_arg5_6 (c : Dev nD) : W6 m ρ c (Proc.devRef .tc main_arg5) = m ((c : Thread nD τ).loc main_arg5) :=
  (step_main_arg5_6 m ρ c).trans (keep_main_arg5_5 m ρ c)
theorem keep_main_arg5_7 (c : Dev nD) : W7 m ρ c (Proc.devRef .tc main_arg5) = m ((c : Thread nD τ).loc main_arg5) :=
  (step_main_arg5_7 m ρ c).trans (keep_main_arg5_6 m ρ c)
theorem keep_main_arg5_8 (c : Dev nD) : W8 m ρ c (Proc.devRef .tc main_arg5) = m ((c : Thread nD τ).loc main_arg5) :=
  (step_main_arg5_8 m ρ c).trans (keep_main_arg5_7 m ρ c)
theorem keep_main_arg5_9 (c : Dev nD) : W9 m ρ c (Proc.devRef .tc main_arg5) = m ((c : Thread nD τ).loc main_arg5) :=
  (step_main_arg5_9 m ρ c).trans (keep_main_arg5_8 m ρ c)
theorem keep_main_arg5_10 (c : Dev nD) : W10 m ρ c (Proc.devRef .tc main_arg5) = m ((c : Thread nD τ).loc main_arg5) :=
  (step_main_arg5_10 m ρ c).trans (keep_main_arg5_9 m ρ c)
theorem keep_main_arg5_11 (c : Dev nD) : W11 m ρ c (Proc.devRef .tc main_arg5) = m ((c : Thread nD τ).loc main_arg5) :=
  (step_main_arg5_11 m ρ c).trans (keep_main_arg5_10 m ρ c)
theorem keep_main_arg5_12 (c : Dev nD) : W12 m ρ c (Proc.devRef .tc main_arg5) = m ((c : Thread nD τ).loc main_arg5) :=
  (step_main_arg5_12 m ρ c).trans (keep_main_arg5_11 m ρ c)
theorem keep_main_arg5_13 (c : Dev nD) : W13 m ρ c (Proc.devRef .tc main_arg5) = m ((c : Thread nD τ).loc main_arg5) :=
  (step_main_arg5_13 m ρ c).trans (keep_main_arg5_12 m ρ c)
theorem keep_main_arg5_14 (c : Dev nD) : W14 m ρ c (Proc.devRef .tc main_arg5) = m ((c : Thread nD τ).loc main_arg5) :=
  (step_main_arg5_14 m ρ c).trans (keep_main_arg5_13 m ρ c)

theorem step_main_arg8_1 (c : Dev nD) : W1 m ρ c (Proc.devRef .tc main_arg8) = W0 m ρ c (Proc.devRef .tc main_arg8) :=
  StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_2 (c : Dev nD) : W2 m ρ c (Proc.devRef .tc main_arg8) = W1 m ρ c (Proc.devRef .tc main_arg8) :=
  W2_of_ne m ρ c main_arg8 (by decide)
theorem step_main_arg8_3 (c : Dev nD) : W3 m ρ c (Proc.devRef .tc main_arg8) = W2 m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_4 (c : Dev nD) : W4 m ρ c (Proc.devRef .tc main_arg8) = W3 m ρ c (Proc.devRef .tc main_arg8) :=
  W4_of_ne m ρ c main_arg8 (by decide)
theorem step_main_arg8_5 (c : Dev nD) : W5 m ρ c (Proc.devRef .tc main_arg8) = W4 m ρ c (Proc.devRef .tc main_arg8) :=
  StableHlo.after_of_forall_not_mem (b := Proc.devRef .tc main_arg8) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_6 (c : Dev nD) : W6 m ρ c (Proc.devRef .tc main_arg8) = W5 m ρ c (Proc.devRef .tc main_arg8) :=
  W6_of_ne m ρ c main_arg8 (by decide)
theorem step_main_arg8_7 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_8 (c : Dev nD) : W8 m ρ c (Proc.devRef .tc main_arg8) = W7 m ρ c (Proc.devRef .tc main_arg8) :=
  W8_of_ne m ρ c main_arg8 (by decide)
theorem step_main_arg8_9 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_10 (c : Dev nD) : W10 m ρ c (Proc.devRef .tc main_arg8) = W9 m ρ c (Proc.devRef .tc main_arg8) :=
  W10_of_ne m ρ c main_arg8 (by decide)
theorem step_main_arg8_11 (c : Dev nD) : W11 m ρ c (Proc.devRef .tc main_arg8) = W10 m ρ c (Proc.devRef .tc main_arg8) :=
  StableHlo.after_of_forall_not_mem (b := Proc.devRef .tc main_arg8) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_12 (c : Dev nD) : W12 m ρ c (Proc.devRef .tc main_arg8) = W11 m ρ c (Proc.devRef .tc main_arg8) :=
  W12_of_ne m ρ c main_arg8 (by decide)
theorem step_main_arg8_13 (c : Dev nD) : W13 m ρ c (Proc.devRef .tc main_arg8) = W12 m ρ c (Proc.devRef .tc main_arg8) :=
  StableHlo.after_of_forall_not_mem (b := Proc.devRef .tc main_arg8) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_14 (c : Dev nD) : W14 m ρ c (Proc.devRef .tc main_arg8) = W13 m ρ c (Proc.devRef .tc main_arg8) :=
  W14_of_ne m ρ c main_arg8 (by decide)
theorem step_main_arg8_15 (c : Dev nD) : W15 m ρ c (Proc.devRef .tc main_arg8) = W14 m ρ c (Proc.devRef .tc main_arg8) :=
  StableHlo.after_of_forall_not_mem (b := Proc.devRef .tc main_arg8) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg8_16 (c : Dev nD) : W16 m ρ c (Proc.devRef .tc main_arg8) = W15 m ρ c (Proc.devRef .tc main_arg8) :=
  W16_of_ne m ρ c main_arg8 (by decide)
theorem step_main_arg8_17 (c : Dev nD) : W17 m ρ c (Proc.devRef .tc main_arg8) = W16 m ρ c (Proc.devRef .tc main_arg8) :=
  W17_of_ne m ρ c main_arg8 (by decide)
theorem keep_main_arg8_1 (c : Dev nD) : W1 m ρ c (Proc.devRef .tc main_arg8) = m ((c : Thread nD τ).loc main_arg8) :=
  (step_main_arg8_1 m ρ c).trans rfl
theorem keep_main_arg8_2 (c : Dev nD) : W2 m ρ c (Proc.devRef .tc main_arg8) = m ((c : Thread nD τ).loc main_arg8) :=
  (step_main_arg8_2 m ρ c).trans (keep_main_arg8_1 m ρ c)
theorem keep_main_arg8_3 (c : Dev nD) : W3 m ρ c (Proc.devRef .tc main_arg8) = m ((c : Thread nD τ).loc main_arg8) :=
  (step_main_arg8_3 m ρ c).trans (keep_main_arg8_2 m ρ c)
theorem keep_main_arg8_4 (c : Dev nD) : W4 m ρ c (Proc.devRef .tc main_arg8) = m ((c : Thread nD τ).loc main_arg8) :=
  (step_main_arg8_4 m ρ c).trans (keep_main_arg8_3 m ρ c)
theorem keep_main_arg8_5 (c : Dev nD) : W5 m ρ c (Proc.devRef .tc main_arg8) = m ((c : Thread nD τ).loc main_arg8) :=
  (step_main_arg8_5 m ρ c).trans (keep_main_arg8_4 m ρ c)
theorem keep_main_arg8_6 (c : Dev nD) : W6 m ρ c (Proc.devRef .tc main_arg8) = m ((c : Thread nD τ).loc main_arg8) :=
  (step_main_arg8_6 m ρ c).trans (keep_main_arg8_5 m ρ c)
theorem keep_main_arg8_7 (c : Dev nD) : W7 m ρ c (Proc.devRef .tc main_arg8) = m ((c : Thread nD τ).loc main_arg8) :=
  (step_main_arg8_7 m ρ c).trans (keep_main_arg8_6 m ρ c)
theorem keep_main_arg8_8 (c : Dev nD) : W8 m ρ c (Proc.devRef .tc main_arg8) = m ((c : Thread nD τ).loc main_arg8) :=
  (step_main_arg8_8 m ρ c).trans (keep_main_arg8_7 m ρ c)
theorem keep_main_arg8_9 (c : Dev nD) : W9 m ρ c (Proc.devRef .tc main_arg8) = m ((c : Thread nD τ).loc main_arg8) :=
  (step_main_arg8_9 m ρ c).trans (keep_main_arg8_8 m ρ c)
theorem keep_main_arg8_10 (c : Dev nD) : W10 m ρ c (Proc.devRef .tc main_arg8) = m ((c : Thread nD τ).loc main_arg8) :=
  (step_main_arg8_10 m ρ c).trans (keep_main_arg8_9 m ρ c)
theorem keep_main_arg8_11 (c : Dev nD) : W11 m ρ c (Proc.devRef .tc main_arg8) = m ((c : Thread nD τ).loc main_arg8) :=
  (step_main_arg8_11 m ρ c).trans (keep_main_arg8_10 m ρ c)
theorem keep_main_arg8_12 (c : Dev nD) : W12 m ρ c (Proc.devRef .tc main_arg8) = m ((c : Thread nD τ).loc main_arg8) :=
  (step_main_arg8_12 m ρ c).trans (keep_main_arg8_11 m ρ c)
theorem keep_main_arg8_13 (c : Dev nD) : W13 m ρ c (Proc.devRef .tc main_arg8) = m ((c : Thread nD τ).loc main_arg8) :=
  (step_main_arg8_13 m ρ c).trans (keep_main_arg8_12 m ρ c)
theorem keep_main_arg8_14 (c : Dev nD) : W14 m ρ c (Proc.devRef .tc main_arg8) = m ((c : Thread nD τ).loc main_arg8) :=
  (step_main_arg8_14 m ρ c).trans (keep_main_arg8_13 m ρ c)
theorem keep_main_arg8_15 (c : Dev nD) : W15 m ρ c (Proc.devRef .tc main_arg8) = m ((c : Thread nD τ).loc main_arg8) :=
  (step_main_arg8_15 m ρ c).trans (keep_main_arg8_14 m ρ c)
theorem keep_main_arg8_16 (c : Dev nD) : W16 m ρ c (Proc.devRef .tc main_arg8) = m ((c : Thread nD τ).loc main_arg8) :=
  (step_main_arg8_16 m ρ c).trans (keep_main_arg8_15 m ρ c)
theorem keep_main_arg8_17 (c : Dev nD) : W17 m ρ c (Proc.devRef .tc main_arg8) = m ((c : Thread nD τ).loc main_arg8) :=
  (step_main_arg8_17 m ρ c).trans (keep_main_arg8_16 m ρ c)

theorem step_main_arg10_1 (c : Dev nD) : W1 m ρ c (Proc.devRef .tc main_arg10) = W0 m ρ c (Proc.devRef .tc main_arg10) :=
  StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_2 (c : Dev nD) : W2 m ρ c (Proc.devRef .tc main_arg10) = W1 m ρ c (Proc.devRef .tc main_arg10) :=
  W2_of_ne m ρ c main_arg10 (by decide)
theorem step_main_arg10_3 (c : Dev nD) : W3 m ρ c (Proc.devRef .tc main_arg10) = W2 m ρ c (Proc.devRef .tc main_arg10) :=
  StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_4 (c : Dev nD) : W4 m ρ c (Proc.devRef .tc main_arg10) = W3 m ρ c (Proc.devRef .tc main_arg10) :=
  W4_of_ne m ρ c main_arg10 (by decide)
theorem step_main_arg10_5 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_6 (c : Dev nD) : W6 m ρ c (Proc.devRef .tc main_arg10) = W5 m ρ c (Proc.devRef .tc main_arg10) :=
  W6_of_ne m ρ c main_arg10 (by decide)
theorem step_main_arg10_7 (c : Dev nD) : W7 m ρ c (Proc.devRef .tc main_arg10) = W6 m ρ c (Proc.devRef .tc main_arg10) :=
  StableHlo.after_of_forall_not_mem (b := Proc.devRef .tc main_arg10) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_8 (c : Dev nD) : W8 m ρ c (Proc.devRef .tc main_arg10) = W7 m ρ c (Proc.devRef .tc main_arg10) :=
  W8_of_ne m ρ c main_arg10 (by decide)
theorem step_main_arg10_9 (c : Dev nD) : W9 m ρ c (Proc.devRef .tc main_arg10) = W8 m ρ c (Proc.devRef .tc main_arg10) :=
  StableHlo.after_of_forall_not_mem (b := Proc.devRef .tc main_arg10) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_10 (c : Dev nD) : W10 m ρ c (Proc.devRef .tc main_arg10) = W9 m ρ c (Proc.devRef .tc main_arg10) :=
  W10_of_ne m ρ c main_arg10 (by decide)
theorem step_main_arg10_11 (c : Dev nD) : W11 m ρ c (Proc.devRef .tc main_arg10) = W10 m ρ c (Proc.devRef .tc main_arg10) :=
  StableHlo.after_of_forall_not_mem (b := Proc.devRef .tc main_arg10) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_12 (c : Dev nD) : W12 m ρ c (Proc.devRef .tc main_arg10) = W11 m ρ c (Proc.devRef .tc main_arg10) :=
  W12_of_ne m ρ c main_arg10 (by decide)
theorem step_main_arg10_13 (c : Dev nD) : W13 m ρ c (Proc.devRef .tc main_arg10) = W12 m ρ c (Proc.devRef .tc main_arg10) :=
  StableHlo.after_of_forall_not_mem (b := Proc.devRef .tc main_arg10) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_14 (c : Dev nD) : W14 m ρ c (Proc.devRef .tc main_arg10) = W13 m ρ c (Proc.devRef .tc main_arg10) :=
  W14_of_ne m ρ c main_arg10 (by decide)
theorem step_main_arg10_15 (c : Dev nD) : W15 m ρ c (Proc.devRef .tc main_arg10) = W14 m ρ c (Proc.devRef .tc main_arg10) :=
  StableHlo.after_of_forall_not_mem (b := Proc.devRef .tc main_arg10) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg10_16 (c : Dev nD) : W16 m ρ c (Proc.devRef .tc main_arg10) = W15 m ρ c (Proc.devRef .tc main_arg10) :=
  W16_of_ne m ρ c main_arg10 (by decide)
theorem step_main_arg10_17 (c : Dev nD) : W17 m ρ c (Proc.devRef .tc main_arg10) = W16 m ρ c (Proc.devRef .tc main_arg10) :=
  W17_of_ne m ρ c main_arg10 (by decide)
theorem keep_main_arg10_1 (c : Dev nD) : W1 m ρ c (Proc.devRef .tc main_arg10) = m ((c : Thread nD τ).loc main_arg10) :=
  (step_main_arg10_1 m ρ c).trans rfl
theorem keep_main_arg10_2 (c : Dev nD) : W2 m ρ c (Proc.devRef .tc main_arg10) = m ((c : Thread nD τ).loc main_arg10) :=
  (step_main_arg10_2 m ρ c).trans (keep_main_arg10_1 m ρ c)
theorem keep_main_arg10_3 (c : Dev nD) : W3 m ρ c (Proc.devRef .tc main_arg10) = m ((c : Thread nD τ).loc main_arg10) :=
  (step_main_arg10_3 m ρ c).trans (keep_main_arg10_2 m ρ c)
theorem keep_main_arg10_4 (c : Dev nD) : W4 m ρ c (Proc.devRef .tc main_arg10) = m ((c : Thread nD τ).loc main_arg10) :=
  (step_main_arg10_4 m ρ c).trans (keep_main_arg10_3 m ρ c)
theorem keep_main_arg10_5 (c : Dev nD) : W5 m ρ c (Proc.devRef .tc main_arg10) = m ((c : Thread nD τ).loc main_arg10) :=
  (step_main_arg10_5 m ρ c).trans (keep_main_arg10_4 m ρ c)
theorem keep_main_arg10_6 (c : Dev nD) : W6 m ρ c (Proc.devRef .tc main_arg10) = m ((c : Thread nD τ).loc main_arg10) :=
  (step_main_arg10_6 m ρ c).trans (keep_main_arg10_5 m ρ c)
theorem keep_main_arg10_7 (c : Dev nD) : W7 m ρ c (Proc.devRef .tc main_arg10) = m ((c : Thread nD τ).loc main_arg10) :=
  (step_main_arg10_7 m ρ c).trans (keep_main_arg10_6 m ρ c)
theorem keep_main_arg10_8 (c : Dev nD) : W8 m ρ c (Proc.devRef .tc main_arg10) = m ((c : Thread nD τ).loc main_arg10) :=
  (step_main_arg10_8 m ρ c).trans (keep_main_arg10_7 m ρ c)
theorem keep_main_arg10_9 (c : Dev nD) : W9 m ρ c (Proc.devRef .tc main_arg10) = m ((c : Thread nD τ).loc main_arg10) :=
  (step_main_arg10_9 m ρ c).trans (keep_main_arg10_8 m ρ c)
theorem keep_main_arg10_10 (c : Dev nD) : W10 m ρ c (Proc.devRef .tc main_arg10) = m ((c : Thread nD τ).loc main_arg10) :=
  (step_main_arg10_10 m ρ c).trans (keep_main_arg10_9 m ρ c)
theorem keep_main_arg10_11 (c : Dev nD) : W11 m ρ c (Proc.devRef .tc main_arg10) = m ((c : Thread nD τ).loc main_arg10) :=
  (step_main_arg10_11 m ρ c).trans (keep_main_arg10_10 m ρ c)
theorem keep_main_arg10_12 (c : Dev nD) : W12 m ρ c (Proc.devRef .tc main_arg10) = m ((c : Thread nD τ).loc main_arg10) :=
  (step_main_arg10_12 m ρ c).trans (keep_main_arg10_11 m ρ c)
theorem keep_main_arg10_13 (c : Dev nD) : W13 m ρ c (Proc.devRef .tc main_arg10) = m ((c : Thread nD τ).loc main_arg10) :=
  (step_main_arg10_13 m ρ c).trans (keep_main_arg10_12 m ρ c)
theorem keep_main_arg10_14 (c : Dev nD) : W14 m ρ c (Proc.devRef .tc main_arg10) = m ((c : Thread nD τ).loc main_arg10) :=
  (step_main_arg10_14 m ρ c).trans (keep_main_arg10_13 m ρ c)
theorem keep_main_arg10_15 (c : Dev nD) : W15 m ρ c (Proc.devRef .tc main_arg10) = m ((c : Thread nD τ).loc main_arg10) :=
  (step_main_arg10_15 m ρ c).trans (keep_main_arg10_14 m ρ c)
theorem keep_main_arg10_16 (c : Dev nD) : W16 m ρ c (Proc.devRef .tc main_arg10) = m ((c : Thread nD τ).loc main_arg10) :=
  (step_main_arg10_16 m ρ c).trans (keep_main_arg10_15 m ρ c)
theorem keep_main_arg10_17 (c : Dev nD) : W17 m ρ c (Proc.devRef .tc main_arg10) = m ((c : Thread nD τ).loc main_arg10) :=
  (step_main_arg10_17 m ρ c).trans (keep_main_arg10_16 m ρ c)

theorem step_main_arg7_1 (c : Dev nD) : W1 m ρ c (Proc.devRef .tc main_arg7) = W0 m ρ c (Proc.devRef .tc main_arg7) :=
  StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_2 (c : Dev nD) : W2 m ρ c (Proc.devRef .tc main_arg7) = W1 m ρ c (Proc.devRef .tc main_arg7) :=
  W2_of_ne m ρ c main_arg7 (by decide)
theorem step_main_arg7_3 (c : Dev nD) : W3 m ρ c (Proc.devRef .tc main_arg7) = W2 m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_4 (c : Dev nD) : W4 m ρ c (Proc.devRef .tc main_arg7) = W3 m ρ c (Proc.devRef .tc main_arg7) :=
  W4_of_ne m ρ c main_arg7 (by decide)
theorem step_main_arg7_5 (c : Dev nD) : W5 m ρ c (Proc.devRef .tc main_arg7) = W4 m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_6 (c : Dev nD) : W6 m ρ c (Proc.devRef .tc main_arg7) = W5 m ρ c (Proc.devRef .tc main_arg7) :=
  W6_of_ne m ρ c main_arg7 (by decide)
theorem step_main_arg7_7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_8 (c : Dev nD) : W8 m ρ c (Proc.devRef .tc main_arg7) = W7 m ρ c (Proc.devRef .tc main_arg7) :=
  W8_of_ne m ρ c main_arg7 (by decide)
theorem step_main_arg7_9 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_10 (c : Dev nD) : W10 m ρ c (Proc.devRef .tc main_arg7) = W9 m ρ c (Proc.devRef .tc main_arg7) :=
  W10_of_ne m ρ c main_arg7 (by decide)
theorem step_main_arg7_11 (c : Dev nD) : W11 m ρ c (Proc.devRef .tc main_arg7) = W10 m ρ c (Proc.devRef .tc main_arg7) :=
  StableHlo.after_of_forall_not_mem (b := Proc.devRef .tc main_arg7) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_12 (c : Dev nD) : W12 m ρ c (Proc.devRef .tc main_arg7) = W11 m ρ c (Proc.devRef .tc main_arg7) :=
  W12_of_ne m ρ c main_arg7 (by decide)
theorem step_main_arg7_13 (c : Dev nD) : W13 m ρ c (Proc.devRef .tc main_arg7) = W12 m ρ c (Proc.devRef .tc main_arg7) :=
  StableHlo.after_of_forall_not_mem (b := Proc.devRef .tc main_arg7) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_14 (c : Dev nD) : W14 m ρ c (Proc.devRef .tc main_arg7) = W13 m ρ c (Proc.devRef .tc main_arg7) :=
  W14_of_ne m ρ c main_arg7 (by decide)
theorem step_main_arg7_15 (c : Dev nD) : W15 m ρ c (Proc.devRef .tc main_arg7) = W14 m ρ c (Proc.devRef .tc main_arg7) :=
  StableHlo.after_of_forall_not_mem (b := Proc.devRef .tc main_arg7) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg7_16 (c : Dev nD) : W16 m ρ c (Proc.devRef .tc main_arg7) = W15 m ρ c (Proc.devRef .tc main_arg7) :=
  W16_of_ne m ρ c main_arg7 (by decide)
theorem step_main_arg7_17 (c : Dev nD) : W17 m ρ c (Proc.devRef .tc main_arg7) = W16 m ρ c (Proc.devRef .tc main_arg7) :=
  W17_of_ne m ρ c main_arg7 (by decide)
theorem step_main_arg7_18 (c : Dev nD) : W18 m ρ c (Proc.devRef .tc main_arg7) = W17 m ρ c (Proc.devRef .tc main_arg7) :=
  StableHlo.after_of_forall_not_mem (b := Proc.devRef .tc main_arg7) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg7_1 (c : Dev nD) : W1 m ρ c (Proc.devRef .tc main_arg7) = m ((c : Thread nD τ).loc main_arg7) :=
  (step_main_arg7_1 m ρ c).trans rfl
theorem keep_main_arg7_2 (c : Dev nD) : W2 m ρ c (Proc.devRef .tc main_arg7) = m ((c : Thread nD τ).loc main_arg7) :=
  (step_main_arg7_2 m ρ c).trans (keep_main_arg7_1 m ρ c)
theorem keep_main_arg7_3 (c : Dev nD) : W3 m ρ c (Proc.devRef .tc main_arg7) = m ((c : Thread nD τ).loc main_arg7) :=
  (step_main_arg7_3 m ρ c).trans (keep_main_arg7_2 m ρ c)
theorem keep_main_arg7_4 (c : Dev nD) : W4 m ρ c (Proc.devRef .tc main_arg7) = m ((c : Thread nD τ).loc main_arg7) :=
  (step_main_arg7_4 m ρ c).trans (keep_main_arg7_3 m ρ c)
theorem keep_main_arg7_5 (c : Dev nD) : W5 m ρ c (Proc.devRef .tc main_arg7) = m ((c : Thread nD τ).loc main_arg7) :=
  (step_main_arg7_5 m ρ c).trans (keep_main_arg7_4 m ρ c)
theorem keep_main_arg7_6 (c : Dev nD) : W6 m ρ c (Proc.devRef .tc main_arg7) = m ((c : Thread nD τ).loc main_arg7) :=
  (step_main_arg7_6 m ρ c).trans (keep_main_arg7_5 m ρ c)
theorem keep_main_arg7_7 (c : Dev nD) : W7 m ρ c (Proc.devRef .tc main_arg7) = m ((c : Thread nD τ).loc main_arg7) :=
  (step_main_arg7_7 m ρ c).trans (keep_main_arg7_6 m ρ c)
theorem keep_main_arg7_8 (c : Dev nD) : W8 m ρ c (Proc.devRef .tc main_arg7) = m ((c : Thread nD τ).loc main_arg7) :=
  (step_main_arg7_8 m ρ c).trans (keep_main_arg7_7 m ρ c)
theorem keep_main_arg7_9 (c : Dev nD) : W9 m ρ c (Proc.devRef .tc main_arg7) = m ((c : Thread nD τ).loc main_arg7) :=
  (step_main_arg7_9 m ρ c).trans (keep_main_arg7_8 m ρ c)
theorem keep_main_arg7_10 (c : Dev nD) : W10 m ρ c (Proc.devRef .tc main_arg7) = m ((c : Thread nD τ).loc main_arg7) :=
  (step_main_arg7_10 m ρ c).trans (keep_main_arg7_9 m ρ c)
theorem keep_main_arg7_11 (c : Dev nD) : W11 m ρ c (Proc.devRef .tc main_arg7) = m ((c : Thread nD τ).loc main_arg7) :=
  (step_main_arg7_11 m ρ c).trans (keep_main_arg7_10 m ρ c)
theorem keep_main_arg7_12 (c : Dev nD) : W12 m ρ c (Proc.devRef .tc main_arg7) = m ((c : Thread nD τ).loc main_arg7) :=
  (step_main_arg7_12 m ρ c).trans (keep_main_arg7_11 m ρ c)
theorem keep_main_arg7_13 (c : Dev nD) : W13 m ρ c (Proc.devRef .tc main_arg7) = m ((c : Thread nD τ).loc main_arg7) :=
  (step_main_arg7_13 m ρ c).trans (keep_main_arg7_12 m ρ c)
theorem keep_main_arg7_14 (c : Dev nD) : W14 m ρ c (Proc.devRef .tc main_arg7) = m ((c : Thread nD τ).loc main_arg7) :=
  (step_main_arg7_14 m ρ c).trans (keep_main_arg7_13 m ρ c)
theorem keep_main_arg7_15 (c : Dev nD) : W15 m ρ c (Proc.devRef .tc main_arg7) = m ((c : Thread nD τ).loc main_arg7) :=
  (step_main_arg7_15 m ρ c).trans (keep_main_arg7_14 m ρ c)
theorem keep_main_arg7_16 (c : Dev nD) : W16 m ρ c (Proc.devRef .tc main_arg7) = m ((c : Thread nD τ).loc main_arg7) :=
  (step_main_arg7_16 m ρ c).trans (keep_main_arg7_15 m ρ c)
theorem keep_main_arg7_17 (c : Dev nD) : W17 m ρ c (Proc.devRef .tc main_arg7) = m ((c : Thread nD τ).loc main_arg7) :=
  (step_main_arg7_17 m ρ c).trans (keep_main_arg7_16 m ρ c)
theorem keep_main_arg7_18 (c : Dev nD) : W18 m ρ c (Proc.devRef .tc main_arg7) = m ((c : Thread nD τ).loc main_arg7) :=
  (step_main_arg7_18 m ρ c).trans (keep_main_arg7_17 m ρ c)

theorem step_main_arg9_1 (c : Dev nD) : W1 m ρ c (Proc.devRef .tc main_arg9) = W0 m ρ c (Proc.devRef .tc main_arg9) :=
  StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_2 (c : Dev nD) : W2 m ρ c (Proc.devRef .tc main_arg9) = W1 m ρ c (Proc.devRef .tc main_arg9) :=
  W2_of_ne m ρ c main_arg9 (by decide)
theorem step_main_arg9_3 (c : Dev nD) : W3 m ρ c (Proc.devRef .tc main_arg9) = W2 m ρ c (Proc.devRef .tc main_arg9) :=
  StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_4 (c : Dev nD) : W4 m ρ c (Proc.devRef .tc main_arg9) = W3 m ρ c (Proc.devRef .tc main_arg9) :=
  W4_of_ne m ρ c main_arg9 (by decide)
theorem step_main_arg9_5 (c : Dev nD) : W5 m ρ c (Proc.devRef .tc main_arg9) = W4 m ρ c (Proc.devRef .tc main_arg9) :=
  StableHlo.after_of_forall_not_mem (b := Proc.devRef .tc main_arg9) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_6 (c : Dev nD) : W6 m ρ c (Proc.devRef .tc main_arg9) = W5 m ρ c (Proc.devRef .tc main_arg9) :=
  W6_of_ne m ρ c main_arg9 (by decide)
theorem step_main_arg9_7 (c : Dev nD) : W7 m ρ c (Proc.devRef .tc main_arg9) = W6 m ρ c (Proc.devRef .tc main_arg9) :=
  StableHlo.after_of_forall_not_mem (b := Proc.devRef .tc main_arg9) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_8 (c : Dev nD) : W8 m ρ c (Proc.devRef .tc main_arg9) = W7 m ρ c (Proc.devRef .tc main_arg9) :=
  W8_of_ne m ρ c main_arg9 (by decide)
theorem step_main_arg9_9 (c : Dev nD) : W9 m ρ c (Proc.devRef .tc main_arg9) = W8 m ρ c (Proc.devRef .tc main_arg9) :=
  StableHlo.after_of_forall_not_mem (b := Proc.devRef .tc main_arg9) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_10 (c : Dev nD) : W10 m ρ c (Proc.devRef .tc main_arg9) = W9 m ρ c (Proc.devRef .tc main_arg9) :=
  W10_of_ne m ρ c main_arg9 (by decide)
theorem step_main_arg9_11 (c : Dev nD) : W11 m ρ c (Proc.devRef .tc main_arg9) = W10 m ρ c (Proc.devRef .tc main_arg9) :=
  StableHlo.after_of_forall_not_mem (b := Proc.devRef .tc main_arg9) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_12 (c : Dev nD) : W12 m ρ c (Proc.devRef .tc main_arg9) = W11 m ρ c (Proc.devRef .tc main_arg9) :=
  W12_of_ne m ρ c main_arg9 (by decide)
theorem step_main_arg9_13 (c : Dev nD) : W13 m ρ c (Proc.devRef .tc main_arg9) = W12 m ρ c (Proc.devRef .tc main_arg9) :=
  StableHlo.after_of_forall_not_mem (b := Proc.devRef .tc main_arg9) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_14 (c : Dev nD) : W14 m ρ c (Proc.devRef .tc main_arg9) = W13 m ρ c (Proc.devRef .tc main_arg9) :=
  W14_of_ne m ρ c main_arg9 (by decide)
theorem step_main_arg9_15 (c : Dev nD) : W15 m ρ c (Proc.devRef .tc main_arg9) = W14 m ρ c (Proc.devRef .tc main_arg9) :=
  StableHlo.after_of_forall_not_mem (b := Proc.devRef .tc main_arg9) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_arg9_16 (c : Dev nD) : W16 m ρ c (Proc.devRef .tc main_arg9) = W15 m ρ c (Proc.devRef .tc main_arg9) :=
  W16_of_ne m ρ c main_arg9 (by decide)
theorem step_main_arg9_17 (c : Dev nD) : W17 m ρ c (Proc.devRef .tc main_arg9) = W16 m ρ c (Proc.devRef .tc main_arg9) :=
  W17_of_ne m ρ c main_arg9 (by decide)
theorem step_main_arg9_18 (c : Dev nD) : W18 m ρ c (Proc.devRef .tc main_arg9) = W17 m ρ c (Proc.devRef .tc main_arg9) :=
  StableHlo.after_of_forall_not_mem (b := Proc.devRef .tc main_arg9) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_arg9_1 (c : Dev nD) : W1 m ρ c (Proc.devRef .tc main_arg9) = m ((c : Thread nD τ).loc main_arg9) :=
  (step_main_arg9_1 m ρ c).trans rfl
theorem keep_main_arg9_2 (c : Dev nD) : W2 m ρ c (Proc.devRef .tc main_arg9) = m ((c : Thread nD τ).loc main_arg9) :=
  (step_main_arg9_2 m ρ c).trans (keep_main_arg9_1 m ρ c)
theorem keep_main_arg9_3 (c : Dev nD) : W3 m ρ c (Proc.devRef .tc main_arg9) = m ((c : Thread nD τ).loc main_arg9) :=
  (step_main_arg9_3 m ρ c).trans (keep_main_arg9_2 m ρ c)
theorem keep_main_arg9_4 (c : Dev nD) : W4 m ρ c (Proc.devRef .tc main_arg9) = m ((c : Thread nD τ).loc main_arg9) :=
  (step_main_arg9_4 m ρ c).trans (keep_main_arg9_3 m ρ c)
theorem keep_main_arg9_5 (c : Dev nD) : W5 m ρ c (Proc.devRef .tc main_arg9) = m ((c : Thread nD τ).loc main_arg9) :=
  (step_main_arg9_5 m ρ c).trans (keep_main_arg9_4 m ρ c)
theorem keep_main_arg9_6 (c : Dev nD) : W6 m ρ c (Proc.devRef .tc main_arg9) = m ((c : Thread nD τ).loc main_arg9) :=
  (step_main_arg9_6 m ρ c).trans (keep_main_arg9_5 m ρ c)
theorem keep_main_arg9_7 (c : Dev nD) : W7 m ρ c (Proc.devRef .tc main_arg9) = m ((c : Thread nD τ).loc main_arg9) :=
  (step_main_arg9_7 m ρ c).trans (keep_main_arg9_6 m ρ c)
theorem keep_main_arg9_8 (c : Dev nD) : W8 m ρ c (Proc.devRef .tc main_arg9) = m ((c : Thread nD τ).loc main_arg9) :=
  (step_main_arg9_8 m ρ c).trans (keep_main_arg9_7 m ρ c)
theorem keep_main_arg9_9 (c : Dev nD) : W9 m ρ c (Proc.devRef .tc main_arg9) = m ((c : Thread nD τ).loc main_arg9) :=
  (step_main_arg9_9 m ρ c).trans (keep_main_arg9_8 m ρ c)
theorem keep_main_arg9_10 (c : Dev nD) : W10 m ρ c (Proc.devRef .tc main_arg9) = m ((c : Thread nD τ).loc main_arg9) :=
  (step_main_arg9_10 m ρ c).trans (keep_main_arg9_9 m ρ c)
theorem keep_main_arg9_11 (c : Dev nD) : W11 m ρ c (Proc.devRef .tc main_arg9) = m ((c : Thread nD τ).loc main_arg9) :=
  (step_main_arg9_11 m ρ c).trans (keep_main_arg9_10 m ρ c)
theorem keep_main_arg9_12 (c : Dev nD) : W12 m ρ c (Proc.devRef .tc main_arg9) = m ((c : Thread nD τ).loc main_arg9) :=
  (step_main_arg9_12 m ρ c).trans (keep_main_arg9_11 m ρ c)
theorem keep_main_arg9_13 (c : Dev nD) : W13 m ρ c (Proc.devRef .tc main_arg9) = m ((c : Thread nD τ).loc main_arg9) :=
  (step_main_arg9_13 m ρ c).trans (keep_main_arg9_12 m ρ c)
theorem keep_main_arg9_14 (c : Dev nD) : W14 m ρ c (Proc.devRef .tc main_arg9) = m ((c : Thread nD τ).loc main_arg9) :=
  (step_main_arg9_14 m ρ c).trans (keep_main_arg9_13 m ρ c)
theorem keep_main_arg9_15 (c : Dev nD) : W15 m ρ c (Proc.devRef .tc main_arg9) = m ((c : Thread nD τ).loc main_arg9) :=
  (step_main_arg9_15 m ρ c).trans (keep_main_arg9_14 m ρ c)
theorem keep_main_arg9_16 (c : Dev nD) : W16 m ρ c (Proc.devRef .tc main_arg9) = m ((c : Thread nD τ).loc main_arg9) :=
  (step_main_arg9_16 m ρ c).trans (keep_main_arg9_15 m ρ c)
theorem keep_main_arg9_17 (c : Dev nD) : W17 m ρ c (Proc.devRef .tc main_arg9) = m ((c : Thread nD τ).loc main_arg9) :=
  (step_main_arg9_17 m ρ c).trans (keep_main_arg9_16 m ρ c)
theorem keep_main_arg9_18 (c : Dev nD) : W18 m ρ c (Proc.devRef .tc main_arg9) = m ((c : Thread nD τ).loc main_arg9) :=
  (step_main_arg9_18 m ρ c).trans (keep_main_arg9_17 m ρ c)

theorem step_main_v0_2 (c : Dev nD) : W2 m ρ c (Proc.devRef .tc main_v0) = W1 m ρ c (Proc.devRef .tc main_v0) :=
  W2_of_ne m ρ c main_v0 (by decide)
theorem step_main_v0_3 (c : Dev nD) : W3 m ρ c (Proc.devRef .tc main_v0) = W2 m ρ c (Proc.devRef .tc main_v0) :=
  StableHlo.after_of_forall_not_mem (b := Proc.devRef .tc main_v0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_4 (c : Dev nD) : W4 m ρ c (Proc.devRef .tc main_v0) = W3 m ρ c (Proc.devRef .tc main_v0) :=
  W4_of_ne m ρ c main_v0 (by decide)
theorem step_main_v0_5 (c : Dev nD) : W5 m ρ c (Proc.devRef .tc main_v0) = W4 m ρ c (Proc.devRef .tc main_v0) :=
  StableHlo.after_of_forall_not_mem (b := Proc.devRef .tc main_v0) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_6 (c : Dev nD) : W6 m ρ c (Proc.devRef .tc main_v0) = W5 m ρ c (Proc.devRef .tc main_v0) :=
  W6_of_ne m ρ c main_v0 (by decide)
theorem step_main_v0_7 (c : Dev nD) : W7 m ρ c (Proc.devRef .tc main_v0) = W6 m ρ c (Proc.devRef .tc main_v0) :=
  StableHlo.after_of_forall_not_mem (b := Proc.devRef .tc main_v0) _ _ (List.forall_iff_forall_mem.mp (by
      simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_8 (c : Dev nD) : W8 m ρ c (Proc.devRef .tc main_v0) = W7 m ρ c (Proc.devRef .tc main_v0) :=
  W8_of_ne m ρ c main_v0 (by decide)
theorem step_main_v0_9 (c : Dev nD) : W9 m ρ c (Proc.devRef .tc main_v0) = W8 m ρ c (Proc.devRef .tc main_v0) :=
  StableHlo.after_of_forall_not_mem (b := Proc.devRef .tc main_v0) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_10 (c : Dev nD) : W10 m ρ c (Proc.devRef .tc main_v0) = W9 m ρ c (Proc.devRef .tc main_v0) :=
  W10_of_ne m ρ c main_v0 (by decide)
theorem step_main_v0_11 (c : Dev nD) : W11 m ρ c (Proc.devRef .tc main_v0) = W10 m ρ c (Proc.devRef .tc main_v0) :=
  StableHlo.after_of_forall_not_mem (b := Proc.devRef .tc main_v0) _ _ (List.forall_iff_forall_mem.mp (by
      simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_12 (c : Dev nD) : W12 m ρ c (Proc.devRef .tc main_v0) = W11 m ρ c (Proc.devRef .tc main_v0) :=
  W12_of_ne m ρ c main_v0 (by decide)
theorem step_main_v0_13 (c : Dev nD) : W13 m ρ c (Proc.devRef .tc main_v0) = W12 m ρ c (Proc.devRef .tc main_v0) :=
  StableHlo.after_of_forall_not_mem (b := Proc.devRef .tc main_v0) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_14 (c : Dev nD) : W14 m ρ c (Proc.devRef .tc main_v0) = W13 m ρ c (Proc.devRef .tc main_v0) :=
  W14_of_ne m ρ c main_v0 (by decide)
theorem step_main_v0_15 (c : Dev nD) : W15 m ρ c (Proc.devRef .tc main_v0) = W14 m ρ c (Proc.devRef .tc main_v0) :=
  StableHlo.after_of_forall_not_mem (b := Proc.devRef .tc main_v0) _ _ (List.forall_iff_forall_mem.mp (by
      simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem step_main_v0_16 (c : Dev nD) : W16 m ρ c (Proc.devRef .tc main_v0) = W15 m ρ c (Proc.devRef .tc main_v0) :=
  W16_of_ne m ρ c main_v0 (by decide)
theorem keep_main_v0_2 (c : Dev nD) : W2 m ρ c (Proc.devRef .tc main_v0) = W1 m ρ c (Proc.devRef .tc main_v0) :=
  step_main_v0_2 m ρ c
theorem keep_main_v0_3 (c : Dev nD) : W3 m ρ c (Proc.devRef .tc main_v0) = W1 m ρ c (Proc.devRef .tc main_v0) :=
  (step_main_v0_3 m ρ c).trans (keep_main_v0_2 m ρ c)
theorem keep_main_v0_4 (c : Dev nD) : W4 m ρ c (Proc.devRef .tc main_v0) = W1 m ρ c (Proc.devRef .tc main_v0) :=
  (step_main_v0_4 m ρ c).trans (keep_main_v0_3 m ρ c)
theorem keep_main_v0_5 (c : Dev nD) : W5 m ρ c (Proc.devRef .tc main_v0) = W1 m ρ c (Proc.devRef .tc main_v0) :=
  (step_main_v0_5 m ρ c).trans (keep_main_v0_4 m ρ c)
theorem keep_main_v0_6 (c : Dev nD) : W6 m ρ c (Proc.devRef .tc main_v0) = W1 m ρ c (Proc.devRef .tc main_v0) :=
  (step_main_v0_6 m ρ c).trans (keep_main_v0_5 m ρ c)
theorem keep_main_v0_7 (c : Dev nD) : W7 m ρ c (Proc.devRef .tc main_v0) = W1 m ρ c (Proc.devRef .tc main_v0) :=
  (step_main_v0_7 m ρ c).trans (keep_main_v0_6 m ρ c)
theorem keep_main_v0_8 (c : Dev nD) : W8 m ρ c (Proc.devRef .tc main_v0) = W1 m ρ c (Proc.devRef .tc main_v0) :=
  (step_main_v0_8 m ρ c).trans (keep_main_v0_7 m ρ c)
theorem keep_main_v0_9 (c : Dev nD) : W9 m ρ c (Proc.devRef .tc main_v0) = W1 m ρ c (Proc.devRef .tc main_v0) :=
  (step_main_v0_9 m ρ c).trans (keep_main_v0_8 m ρ c)
theorem keep_main_v0_10 (c : Dev nD) : W10 m ρ c (Proc.devRef .tc main_v0) = W1 m ρ c (Proc.devRef .tc main_v0) :=
  (step_main_v0_10 m ρ c).trans (keep_main_v0_9 m ρ c)
theorem keep_main_v0_11 (c : Dev nD) : W11 m ρ c (Proc.devRef .tc main_v0) = W1 m ρ c (Proc.devRef .tc main_v0) :=
  (step_main_v0_11 m ρ c).trans (keep_main_v0_10 m ρ c)
theorem keep_main_v0_12 (c : Dev nD) : W12 m ρ c (Proc.devRef .tc main_v0) = W1 m ρ c (Proc.devRef .tc main_v0) :=
  (step_main_v0_12 m ρ c).trans (keep_main_v0_11 m ρ c)
theorem keep_main_v0_13 (c : Dev nD) : W13 m ρ c (Proc.devRef .tc main_v0) = W1 m ρ c (Proc.devRef .tc main_v0) :=
  (step_main_v0_13 m ρ c).trans (keep_main_v0_12 m ρ c)
theorem keep_main_v0_14 (c : Dev nD) : W14 m ρ c (Proc.devRef .tc main_v0) = W1 m ρ c (Proc.devRef .tc main_v0) :=
  (step_main_v0_14 m ρ c).trans (keep_main_v0_13 m ρ c)
theorem keep_main_v0_15 (c : Dev nD) : W15 m ρ c (Proc.devRef .tc main_v0) = W1 m ρ c (Proc.devRef .tc main_v0) :=
  (step_main_v0_15 m ρ c).trans (keep_main_v0_14 m ρ c)
theorem keep_main_v0_16 (c : Dev nD) : W16 m ρ c (Proc.devRef .tc main_v0) = W1 m ρ c (Proc.devRef .tc main_v0) :=
  (step_main_v0_16 m ρ c).trans (keep_main_v0_15 m ρ c)

theorem step_main_v16_5 (c : Dev nD) : W5 m ρ c (Proc.devRef .tc main_v16) = W4 m ρ c (Proc.devRef .tc main_v16) :=
  StableHlo.after_of_forall_not_mem (b := Proc.devRef .tc main_v16) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v16_5 (c : Dev nD) : W5 m ρ c (Proc.devRef .tc main_v16) = W4 m ρ c (Proc.devRef .tc main_v16) :=
  step_main_v16_5 m ρ c

theorem step_main_v38_9 (c : Dev nD) : W9 m ρ c (Proc.devRef .tc main_v38) = W8 m ρ c (Proc.devRef .tc main_v38) :=
  StableHlo.after_of_forall_not_mem (b := Proc.devRef .tc main_v38) _ _ (List.forall_iff_forall_mem.mp (by
      simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v38_9 (c : Dev nD) : W9 m ρ c (Proc.devRef .tc main_v38) = W8 m ρ c (Proc.devRef .tc main_v38) :=
  step_main_v38_9 m ρ c

theorem step_main_v60_13 (c : Dev nD) : W13 m ρ c (Proc.devRef .tc main_v60) = W12 m ρ c (Proc.devRef .tc main_v60) :=
  StableHlo.after_of_forall_not_mem (b := Proc.devRef .tc main_v60) _ _ (List.forall_iff_forall_mem.mp (by
      simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v60_13 (c : Dev nD) : W13 m ρ c (Proc.devRef .tc main_v60) = W12 m ρ c (Proc.devRef .tc main_v60) :=
  step_main_v60_13 m ρ c

theorem step_main_v83_18 (c : Dev nD) : W18 m ρ c (Proc.devRef .tc main_v83) = W17 m ρ c (Proc.devRef .tc main_v83) :=
  StableHlo.after_of_forall_not_mem (b := Proc.devRef .tc main_v83) _ _ (List.forall_iff_forall_mem.mp (by
      simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem keep_main_v83_18 (c : Dev nD) : W18 m ρ c (Proc.devRef .tc main_v83) = W17 m ρ c (Proc.devRef .tc main_v83) :=
  step_main_v83_18 m ρ c

end Cert.KernelIdeal.KV

end
-- ==== Proof.Fns.lean ====
/-
  The whole-array functions the kernel's ten regions compute at the ideal instance, each stated index by index over
  the extended reals: a dense layer's two products at once (a row of the features against a column of the two weight
  matrices laid side by side), the combination of a node's aggregated messages with its own transformed features and a
  bias under the positive part, and the sum of the node features of each graph.
-/
import proofs.«412697_j56040733278666_2_alg».proof.KernelIdeal
import Idealize.ShloMosaic.PureOps.Ideal
import Idealize.ShloMosaic.Lib.ValueIdx

noncomputable section

namespace Cert.KernelIdeal.Fns

open Idealize.ShloMosaic Idealize.ShloMosaic.ValueIdx Cert.KernelIdeal

/-- Row `r` of `X` (128 features) against column `j` of `W`: entry `(r, j)` is `∑ k, X r k · W k j`. -/
def lin128 (X : Vec Ideal S100000x128 .f32) (W : Vec Ideal S128x64 .f32) : Vec Ideal S100000x64 .f32 :=
  fun i => ∑ k : Fin 128, X (ix2 (i 0) k) * W (ix2 k (i 1))

/-- Row `r` of `X` (32 features) against column `j` of `W`: entry `(r, j)` is `∑ k, X r k · W k j`. -/
def lin32 (X : Vec Ideal S100000x32 .f32) (W : Vec Ideal S32x64 .f32) : Vec Ideal S100000x64 .f32 :=
  fun i => ∑ k : Fin 32, X (ix2 (i 0) k) * W (ix2 k (i 1))

/-- The positive part of "messages plus own features plus bias": entry `(r, j)` is `max (N r j + S r j + B 0 j) 0`. -/
def comb (N S : Vec Ideal S100000x32 .f32) (B : Vec Ideal S1x32 .f32) : Vec Ideal S100000x32 .f32 :=
  fun i => max (N i + S i + B (ix2 0 (i 1))) 0

/-- The sum of the features of the nodes of graph `g`: entry `(g, j)` is `∑ n, [gid n = g] · H n j`, the indicator a
    `1` or a `0` of the extended reals (so a node of another graph adds `0 · H n j = 0`, whatever `H n j` is). -/
def pool (H : Vec Ideal S100000x32 .f32) (gid : Vec Ideal S100000x1 .i32) : Vec Ideal S64x32 .f32 :=
  fun i => ∑ n : Fin 100000, (if gid (ix2 n 0) = BitVec.ofNat 32 (i 0).val then (1 : EReal) else 0) * H (ix2 n (i 1))

end Cert.KernelIdeal.Fns

end
-- ==== Proof.KFns.lean ====
/-
  The functions the kernel's host stretches compute between its regions, at the ideal instance: the two weight matrices
  laid side by side, the two halves of the double product, the messages summed along the edges (rows gathered at the
  edges' sources and added into the rows of their destinations), one matrix or one bias row out of a stack of three,
  and a whole layer after its double product.
-/
import proofs.«412697_j56040733278666_2_alg».proof.Proof.Gen.KernelIdeal.Skeleton
import proofs.«412697_j56040733278666_2_alg».proof.Proof.Fns

noncomputable section

namespace Cert.KernelIdeal.KV

open Cert.KernelIdeal Cert.KernelIdeal.Gen Idealize.ShloMosaic

/-! ## The host stretches' functions -/

/-- Two 128×32 weight matrices side by side. -/
def wcat128 (A B : Vec Ideal S128x32 .f32) : Vec Ideal S128x64 .f32 :=
  concatenate S128x64 1 [⟨S128x32, A⟩, ⟨S128x32, B⟩] concatenates_S128x32_S128x32_S128x64_d1
/-- Two 32×32 weight matrices side by side. -/
def wcat32 (A B : Vec Ideal S32x32 .f32) : Vec Ideal S32x64 .f32 :=
  concatenate S32x64 1 [⟨S32x32, A⟩, ⟨S32x32, B⟩] concatenates_S32x32_S32x32_S32x64_d1
/-- The left half (columns 0 to 31) of the two products. -/
def halfL (X : Vec Ideal S100000x64 .f32) : Vec Ideal S100000x32 .f32 :=
  extractStridedSlice S100000x32 ![0, 0] X slices_S100000x64_S100000x32_0_0
/-- The right half (columns 32 to 63) of the two products. -/
def halfR (X : Vec Ideal S100000x64 .f32) : Vec Ideal S100000x32 .f32 :=
  extractStridedSlice S100000x32 ![0, 32] X slices_S100000x64_S100000x32_0_32
/-- The messages summed at each node: row `src e` of `rhs` (a negative source counted from the end) added into row
    `dst e`, over all edges `e`. -/
def agg (rhs : Vec Ideal S100000x32 .f32) (src dst : Vec Ideal S3200000 .i32) : Vec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (Host.gather gather_S100000x32_S3200000x1_S3200000x32_1_0_n_n_0_1_132 rhs
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))
/-- Matrix `l` of a stack of three 32×32 matrices. -/
def wsl (st : Fin 3 → Nat) (h : S3x32x32.Slices st S1x32x32) (Wt : Vec Ideal S3x32x32 .f32) : Vec Ideal S32x32 .f32 :=
  shapeCast S32x32 (extractStridedSlice S1x32x32 st Wt h) shapeCasts_S1x32x32_S32x32
/-- Row `l` of a stack of three bias rows, as a 1×32 array. -/
def bsl (st : Fin 2 → Nat) (h : S3x32.Slices st S1x32) (Bt : Vec Ideal S3x32 .f32) : Vec Ideal S1x32 .f32 :=
  shapeCast S1x32 (shapeCast S32 (extractStridedSlice S1x32 st Bt h) shapeCasts_S1x32_S32) shapeCasts_S32_S1x32
/-- One layer after its two products `P`: the left half's messages, the right half and the bias, positive part. -/
def layer (P : Vec Ideal S100000x64 .f32) (b : Vec Ideal S1x32 .f32) (src dst : Vec Ideal S3200000 .i32) : Vec Ideal S100000x32 .f32 :=
  Fns.comb (agg (halfL P) src dst) (halfR P) b

/-! ## The whole program as a function of its fourteen argument arrays -/

section Whole
variable (x0 : Vec Ideal S100000x128 .f32) (x1 : Vec Ideal S128x32 .f32) (x2 : Vec Ideal S32 .f32) (x3 : Vec Ideal S128x32 .f32)
  (x4 : Vec Ideal S3x32x32 .f32) (x5 : Vec Ideal S3x32 .f32) (x6 : Vec Ideal S3x32x32 .f32) (x7 : Vec Ideal S32x8 .f32)
  (x8 : Vec Ideal S8 .f32) (x9 : Vec Ideal S8x4 .f32) (x10 : Vec Ideal S4 .f32) (x11 x12 : Vec Ideal S3200000 .i32)
  (x13 : Vec Ideal S100000 .i32)

/-- The features after layer 0. -/
def feat1 : Vec Ideal S100000x32 .f32 :=
  layer (Fns.lin128 x0 (wcat128 x1 x3)) (shapeCast S1x32 x2 shapeCasts_S32_S1x32) x11 x12
/-- The features after a later layer, from the features `h` before it, with matrix and bias row `l` of the stacks. -/
def featNext (h : Vec Ideal S100000x32 .f32) (st3 : Fin 3 → Nat) (h3 : S3x32x32.Slices st3 S1x32x32) (st2 : Fin 2 → Nat)
    (h2 : S3x32.Slices st2 S1x32) : Vec Ideal S100000x32 .f32 :=
  layer (Fns.lin32 h (wcat32 (wsl st3 h3 x4) (wsl st3 h3 x6))) (bsl st2 h2 x5) x11 x12
def feat2 : Vec Ideal S100000x32 .f32 :=
  featNext x4 x5 x6 x11 x12 (feat1 x0 x1 x2 x3 x11 x12) ![0, 0, 0] slices_S3x32x32_S1x32x32_0_0_0 ![0, 0] slices_S3x32_S1x32_0_0
def feat3 : Vec Ideal S100000x32 .f32 :=
  featNext x4 x5 x6 x11 x12 (feat2 x0 x1 x2 x3 x4 x5 x6 x11 x12) ![1, 0, 0] slices_S3x32x32_S1x32x32_1_0_0 ![1, 0] slices_S3x32_S1x32_1_0
def feat4 : Vec Ideal S100000x32 .f32 :=
  featNext x4 x5 x6 x11 x12 (feat3 x0 x1 x2 x3 x4 x5 x6 x11 x12) ![2, 0, 0] slices_S3x32x32_S1x32x32_2_0_0 ![2, 0] slices_S3x32_S1x32_2_0
/-- The graph ids as a column. -/
def gidCol : Vec Ideal S100000x1 .i32 := shapeCast S100000x1 x13 shapeCasts_S100000_S100000x1
/-- The per-graph sums. -/
def graphSums : Vec Ideal S64x32 .f32 := Fns.pool (feat4 x0 x1 x2 x3 x4 x5 x6 x11 x12) (gidCol x13)
/-- The kernel's result. -/
def result : Vec Ideal S64x4 .f32 :=
  k9_pay1 (F := Ideal) (graphSums x0 x1 x2 x3 x4 x5 x6 x11 x12 x13) x7 (shapeCast S1x8 x8 shapeCasts_S8_S1x8) x9
    (shapeCast S1x4 x10 shapeCasts_S4_S1x4)

end Whole

end Cert.KernelIdeal.KV

end
-- ==== Proof.KChain.lean ====
/-
  The kernel's result as one term of the launch memory. @main is ten regions among stretches of host operations; the
  buffer contents at each boundary are a fold from the launch memory. Here that fold is read at the buffers the next
  segment reads: a host stretch's results are its operations' functions of what the stretch found, a region's output
  array is its whole-array function of the region's input arrays, and a buffer nothing in between writes keeps its
  contents. The layers are: two products at once (features against the two weight matrices side by side), the halves
  of that product sliced apart, the left half gathered along the edges' sources and summed at their destinations, the
  sum combined with the right half and the bias under the positive part; after four layers the per-graph sums and the
  two small dense layers with the softmax.
-/
import proofs.«412697_j56040733278666_2_alg».proof.Proof.KKeep
import proofs.«412697_j56040733278666_2_alg».proof.Proof.KFns
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo (after_cons after_nil)

/-- What each region's output array holds after the region, as one function of the region's input arrays as it finds
    them (`V`: the core's buffer contents at the region's entry): the ten facts the fold below is read with. -/
structure RegionVals : Prop where
  arr0 : ∀ (V : (c : Dev nD) → (b : Ref sig .tc) → Buf (Elt Ideal) ((c : Thread nD τ).loc b)) (c : Dev nD),
    (dat0 V c).arrAt 2 cfg0.N = Fns.lin128 (V c main_arg0) (V c main_v1)
  arr1 : ∀ (V : (c : Dev nD) → (b : Ref sig .tc) → Buf (Elt Ideal) ((c : Thread nD τ).loc b)) (c : Dev nD),
    (dat1 V c).arrAt 3 cfg1.N = Fns.comb (V c main_v14) (V c main_v4) (V c main_v15)
  arr2 : ∀ (V : (c : Dev nD) → (b : Ref sig .tc) → Buf (Elt Ideal) ((c : Thread nD τ).loc b)) (c : Dev nD),
    (dat2 V c).arrAt 2 cfg2.N = Fns.lin32 (V c main_v16) (V c main_v21)
  arr3 : ∀ (V : (c : Dev nD) → (b : Ref sig .tc) → Buf (Elt Ideal) ((c : Thread nD τ).loc b)) (c : Dev nD),
    (dat3 V c).arrAt 3 cfg3.N = Fns.comb (V c main_v34) (V c main_v24) (V c main_v37)
  arr4 : ∀ (V : (c : Dev nD) → (b : Ref sig .tc) → Buf (Elt Ideal) ((c : Thread nD τ).loc b)) (c : Dev nD),
    (dat4 V c).arrAt 2 cfg4.N = Fns.lin32 (V c main_v38) (V c main_v43)
  arr5 : ∀ (V : (c : Dev nD) → (b : Ref sig .tc) → Buf (Elt Ideal) ((c : Thread nD τ).loc b)) (c : Dev nD),
    (dat5 V c).arrAt 3 cfg5.N = Fns.comb (V c main_v56) (V c main_v46) (V c main_v59)
  arr6 : ∀ (V : (c : Dev nD) → (b : Ref sig .tc) → Buf (Elt Ideal) ((c : Thread nD τ).loc b)) (c : Dev nD),
    (dat6 V c).arrAt 2 cfg6.N = Fns.lin32 (V c main_v60) (V c main_v65)
  arr7 : ∀ (V : (c : Dev nD) → (b : Ref sig .tc) → Buf (Elt Ideal) ((c : Thread nD τ).loc b)) (c : Dev nD),
    (dat7 V c).arrAt 3 cfg7.N = Fns.comb (V c main_v78) (V c main_v68) (V c main_v81)
  arr8 : ∀ (V : (c : Dev nD) → (b : Ref sig .tc) → Buf (Elt Ideal) ((c : Thread nD τ).loc b)) (c : Dev nD),
    (dat8 V c).arrAt 2 cfg8.N = Fns.pool (V c main_v82) (V c main_v0)
  arr9 : ∀ (V : (c : Dev nD) → (b : Ref sig .tc) → Buf (Elt Ideal) ((c : Thread nD τ).loc b)) (c : Dev nD),
    (dat9 V c).arrAt 5 cfg9.N
      = k9_pay1 (F := Ideal) (V c main_v83) (V c main_arg7) (V c main_v84) (V c main_arg9) (V c main_v85)

variable (m : (ℓ : Loc nD τ sig) → Buf (Elt Ideal) ℓ) (ρ : Dev nD → PrngReg) (c : Dev nD)

/-! ## The named values, from the launch memory -/

/-- The graph ids as a column. -/
abbrev kgid : Vec Ideal S100000x1 .i32 := gidCol (m ((c : Thread nD τ).loc main_arg13))
/-- The features after layers 0 to 3. -/
abbrev kh1 : Vec Ideal S100000x32 .f32 := feat1 (m ((c : Thread nD τ).loc main_arg0)) (m ((c : Thread nD τ).loc main_arg1)) (m ((c : Thread nD τ).loc main_arg2)) (m ((c : Thread nD τ).loc main_arg3)) (m ((c : Thread nD τ).loc main_arg11)) (m ((c : Thread nD τ).loc main_arg12))
abbrev kh2 : Vec Ideal S100000x32 .f32 := feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))
abbrev kh3 : Vec Ideal S100000x32 .f32 := feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))
abbrev kh4 : Vec Ideal S100000x32 .f32 := feat4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))
/-- The per-graph sums. -/
abbrev khg : Vec Ideal S64x32 .f32 := graphSums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13))
/-- The result. -/
abbrev kout : Vec Ideal S64x4 .f32 := result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-! ## The host stretches, from any contents `W` -/

section Host
variable (W : Valuation τ sig (Elt Ideal))

theorem h0_v0 : StableHlo.after hostOps0 W (Proc.devRef .tc main_v0)
    = shapeCast S100000x1 (W (Proc.devRef .tc main_arg13)) shapeCasts_S100000_S100000x1 := by
  after_results; rfl
theorem h0_v1 : StableHlo.after hostOps0 W (Proc.devRef .tc main_v1)
    = wcat128 (W (Proc.devRef .tc main_arg1)) (W (Proc.devRef .tc main_arg3)) := by
  after_results; rfl

theorem h1_v14 : StableHlo.after hostOps1 W (Proc.devRef .tc main_v14)
    = agg (halfL (W (Proc.devRef .tc main_v2))) (W (Proc.devRef .tc main_arg11)) (W (Proc.devRef .tc main_arg12)) := by
  after_results_simp
  rfl
theorem h1_v4 : StableHlo.after hostOps1 W (Proc.devRef .tc main_v4) = halfR (W (Proc.devRef .tc main_v2)) := by
  after_results; rfl
theorem h1_v15 : StableHlo.after hostOps1 W (Proc.devRef .tc main_v15)
    = shapeCast S1x32 (W (Proc.devRef .tc main_arg2)) shapeCasts_S32_S1x32 := by
  after_results; rfl

theorem hw1 : StableHlo.after hostOps2 W (Proc.devRef .tc main_v21)
    = wcat32 (wsl ![0, 0, 0] slices_S3x32x32_S1x32x32_0_0_0 (W (Proc.devRef .tc main_arg4))) (wsl ![0, 0, 0] slices_S3x32x32_S1x32x32_0_0_0 (W (Proc.devRef .tc main_arg6))) := by
  after_results; rfl
theorem hh1_n : StableHlo.after hostOps3 W (Proc.devRef .tc main_v34)
    = agg (halfL (W (Proc.devRef .tc main_v22))) (W (Proc.devRef .tc main_arg11)) (W (Proc.devRef .tc main_arg12)) := by
  after_results_simp
  rfl
theorem hh1_s : StableHlo.after hostOps3 W (Proc.devRef .tc main_v24) = halfR (W (Proc.devRef .tc main_v22)) := by
  after_results; rfl
theorem hh1_b : StableHlo.after hostOps3 W (Proc.devRef .tc main_v37) = bsl ![0, 0] slices_S3x32_S1x32_0_0 (W (Proc.devRef .tc main_arg5)) := by
  after_results; rfl

theorem hw2 : StableHlo.after hostOps4 W (Proc.devRef .tc main_v43)
    = wcat32 (wsl ![1, 0, 0] slices_S3x32x32_S1x32x32_1_0_0 (W (Proc.devRef .tc main_arg4))) (wsl ![1, 0, 0] slices_S3x32x32_S1x32x32_1_0_0 (W (Proc.devRef .tc main_arg6))) := by
  after_results; rfl
theorem hh2_n : StableHlo.after hostOps5 W (Proc.devRef .tc main_v56)
    = agg (halfL (W (Proc.devRef .tc main_v44))) (W (Proc.devRef .tc main_arg11)) (W (Proc.devRef .tc main_arg12)) := by
  after_results_simp
  rfl
theorem hh2_s : StableHlo.after hostOps5 W (Proc.devRef .tc main_v46) = halfR (W (Proc.devRef .tc main_v44)) := by
  after_results; rfl
theorem hh2_b : StableHlo.after hostOps5 W (Proc.devRef .tc main_v59) = bsl ![1, 0] slices_S3x32_S1x32_1_0 (W (Proc.devRef .tc main_arg5)) := by
  after_results; rfl

theorem hw3 : StableHlo.after hostOps6 W (Proc.devRef .tc main_v65)
    = wcat32 (wsl ![2, 0, 0] slices_S3x32x32_S1x32x32_2_0_0 (W (Proc.devRef .tc main_arg4))) (wsl ![2, 0, 0] slices_S3x32x32_S1x32x32_2_0_0 (W (Proc.devRef .tc main_arg6))) := by
  after_results; rfl
theorem hh3_n : StableHlo.after hostOps7 W (Proc.devRef .tc main_v78)
    = agg (halfL (W (Proc.devRef .tc main_v66))) (W (Proc.devRef .tc main_arg11)) (W (Proc.devRef .tc main_arg12)) := by
  after_results_simp
  rfl
theorem hh3_s : StableHlo.after hostOps7 W (Proc.devRef .tc main_v68) = halfR (W (Proc.devRef .tc main_v66)) := by
  after_results; rfl
theorem hh3_b : StableHlo.after hostOps7 W (Proc.devRef .tc main_v81) = bsl ![2, 0] slices_S3x32_S1x32_2_0 (W (Proc.devRef .tc main_arg5)) := by
  after_results; rfl

theorem h9_v84 : StableHlo.after hostOps9 W (Proc.devRef .tc main_v84) = shapeCast S1x8 (W (Proc.devRef .tc main_arg8)) shapeCasts_S8_S1x8 := by
  after_results; rfl
theorem h9_v85 : StableHlo.after hostOps9 W (Proc.devRef .tc main_v85) = shapeCast S1x4 (W (Proc.devRef .tc main_arg10)) shapeCasts_S4_S1x4 := by
  after_results; rfl

end Host

/-! ## The boundaries of @main, in order -/

variable (R : RegionVals)

theorem b1_v1 : W1 m ρ c (Proc.devRef .tc main_v1) = wcat128 (m ((c : Thread nD τ).loc main_arg1)) (m ((c : Thread nD τ).loc main_arg3)) :=
  h0_v1 (W0 m ρ c)
theorem b1_v0 : W1 m ρ c (Proc.devRef .tc main_v0) = kgid m c :=
  h0_v0 (W0 m ρ c)
include R

theorem b2_v2 : W2 m ρ c (Proc.devRef .tc main_v2) = Fns.lin128 (m ((c : Thread nD τ).loc main_arg0)) (wcat128 (m ((c : Thread nD τ).loc main_arg1)) (m ((c : Thread nD τ).loc main_arg3))) := by
  rw [show W2 m ρ c (Proc.devRef .tc main_v2) = (dat0 (V1 m ρ) c).arrAt 2 cfg0.N from W2_arr m ρ c 2, R.arr0 (V1 m ρ) c]
  show Fns.lin128 (W1 m ρ c (Proc.devRef .tc main_arg0)) (W1 m ρ c (Proc.devRef .tc main_v1)) = _
  rw [keep_main_arg0_1 m ρ c, b1_v1 m ρ c]
theorem b3_v14 : W3 m ρ c (Proc.devRef .tc main_v14) = agg (halfL (W2 m ρ c (Proc.devRef .tc main_v2))) (m ((c : Thread nD τ).loc main_arg11)) (m ((c : Thread nD τ).loc main_arg12)) := by
  rw [show W3 m ρ c (Proc.devRef .tc main_v14) = _ from h1_v14 (W2 m ρ c), keep_main_arg11_2 m ρ c, keep_main_arg12_2 m ρ c]
theorem b3_v4 : W3 m ρ c (Proc.devRef .tc main_v4) = halfR (W2 m ρ c (Proc.devRef .tc main_v2)) :=
  h1_v4 (W2 m ρ c)
theorem b3_v15 : W3 m ρ c (Proc.devRef .tc main_v15) = shapeCast S1x32 (m ((c : Thread nD τ).loc main_arg2)) shapeCasts_S32_S1x32 := by
  rw [show W3 m ρ c (Proc.devRef .tc main_v15) = _ from h1_v15 (W2 m ρ c), keep_main_arg2_2 m ρ c]
theorem b4_v16 : W4 m ρ c (Proc.devRef .tc main_v16) = kh1 m c := by
  rw [show W4 m ρ c (Proc.devRef .tc main_v16) = (dat1 (V3 m ρ) c).arrAt 3 cfg1.N from W4_arr m ρ c 3, R.arr1 (V3 m ρ) c]
  show Fns.comb (W3 m ρ c (Proc.devRef .tc main_v14)) (W3 m ρ c (Proc.devRef .tc main_v4)) (W3 m ρ c (Proc.devRef .tc main_v15)) = _
  rw [b3_v14 m ρ c R, b3_v4 m ρ c R, b3_v15 m ρ c R, b2_v2 m ρ c R]
  rfl

theorem b5_w : W5 m ρ c (Proc.devRef .tc main_v21)
    = wcat32 (wsl ![0, 0, 0] slices_S3x32x32_S1x32x32_0_0_0 (m ((c : Thread nD τ).loc main_arg4))) (wsl ![0, 0, 0] slices_S3x32x32_S1x32x32_0_0_0 (m ((c : Thread nD τ).loc main_arg6))) := by
  rw [show W5 m ρ c (Proc.devRef .tc main_v21) = _ from hw1 (W4 m ρ c), keep_main_arg4_4 m ρ c, keep_main_arg6_4 m ρ c]
theorem b5_h : W5 m ρ c (Proc.devRef .tc main_v16) = kh1 m c :=
  (keep_main_v16_5 m ρ c).trans (b4_v16 m ρ c R)
theorem b6_P : W6 m ρ c (Proc.devRef .tc main_v22)
    = Fns.lin32 (kh1 m c) (wcat32 (wsl ![0, 0, 0] slices_S3x32x32_S1x32x32_0_0_0 (m ((c : Thread nD τ).loc main_arg4))) (wsl ![0, 0, 0] slices_S3x32x32_S1x32x32_0_0_0 (m ((c : Thread nD τ).loc main_arg6)))) := by
  rw [show W6 m ρ c (Proc.devRef .tc main_v22) = (dat2 (V5 m ρ) c).arrAt 2 cfg2.N from W6_arr m ρ c 2, R.arr2 (V5 m ρ) c]
  show Fns.lin32 (W5 m ρ c (Proc.devRef .tc main_v16)) (W5 m ρ c (Proc.devRef .tc main_v21)) = _
  rw [b5_h m ρ c R, b5_w m ρ c R]
theorem b7_n : W7 m ρ c (Proc.devRef .tc main_v34) = agg (halfL (W6 m ρ c (Proc.devRef .tc main_v22))) (m ((c : Thread nD τ).loc main_arg11)) (m ((c : Thread nD τ).loc main_arg12)) := by
  rw [show W7 m ρ c (Proc.devRef .tc main_v34) = _ from hh1_n (W6 m ρ c), keep_main_arg11_6 m ρ c, keep_main_arg12_6 m ρ c]
theorem b7_s : W7 m ρ c (Proc.devRef .tc main_v24) = halfR (W6 m ρ c (Proc.devRef .tc main_v22)) :=
  hh1_s (W6 m ρ c)
theorem b7_b : W7 m ρ c (Proc.devRef .tc main_v37) = bsl ![0, 0] slices_S3x32_S1x32_0_0 (m ((c : Thread nD τ).loc main_arg5)) := by
  rw [show W7 m ρ c (Proc.devRef .tc main_v37) = _ from hh1_b (W6 m ρ c), keep_main_arg5_6 m ρ c]
theorem b8_v38 : W8 m ρ c (Proc.devRef .tc main_v38) = kh2 m c := by
  rw [show W8 m ρ c (Proc.devRef .tc main_v38) = (dat3 (V7 m ρ) c).arrAt 3 cfg3.N from W8_arr m ρ c 3, R.arr3 (V7 m ρ) c]
  show Fns.comb (W7 m ρ c (Proc.devRef .tc main_v34)) (W7 m ρ c (Proc.devRef .tc main_v24)) (W7 m ρ c (Proc.devRef .tc main_v37)) = _
  rw [b7_n m ρ c R, b7_s m ρ c R, b7_b m ρ c R, b6_P m ρ c R]
  rfl

theorem b9_w : W9 m ρ c (Proc.devRef .tc main_v43)
    = wcat32 (wsl ![1, 0, 0] slices_S3x32x32_S1x32x32_1_0_0 (m ((c : Thread nD τ).loc main_arg4))) (wsl ![1, 0, 0] slices_S3x32x32_S1x32x32_1_0_0 (m ((c : Thread nD τ).loc main_arg6))) := by
  rw [show W9 m ρ c (Proc.devRef .tc main_v43) = _ from hw2 (W8 m ρ c), keep_main_arg4_8 m ρ c, keep_main_arg6_8 m ρ c]
theorem b9_h : W9 m ρ c (Proc.devRef .tc main_v38) = kh2 m c :=
  (keep_main_v38_9 m ρ c).trans (b8_v38 m ρ c R)
theorem b10_P : W10 m ρ c (Proc.devRef .tc main_v44)
    = Fns.lin32 (kh2 m c) (wcat32 (wsl ![1, 0, 0] slices_S3x32x32_S1x32x32_1_0_0 (m ((c : Thread nD τ).loc main_arg4))) (wsl ![1, 0, 0] slices_S3x32x32_S1x32x32_1_0_0 (m ((c : Thread nD τ).loc main_arg6)))) := by
  rw [show W10 m ρ c (Proc.devRef .tc main_v44) = (dat4 (V9 m ρ) c).arrAt 2 cfg4.N from W10_arr m ρ c 2, R.arr4 (V9 m ρ) c]
  show Fns.lin32 (W9 m ρ c (Proc.devRef .tc main_v38)) (W9 m ρ c (Proc.devRef .tc main_v43)) = _
  rw [b9_h m ρ c R, b9_w m ρ c R]
theorem b11_n : W11 m ρ c (Proc.devRef .tc main_v56) = agg (halfL (W10 m ρ c (Proc.devRef .tc main_v44))) (m ((c : Thread nD τ).loc main_arg11)) (m ((c : Thread nD τ).loc main_arg12)) := by
  rw [show W11 m ρ c (Proc.devRef .tc main_v56) = _ from hh2_n (W10 m ρ c), keep_main_arg11_10 m ρ c, keep_main_arg12_10 m ρ c]
theorem b11_s : W11 m ρ c (Proc.devRef .tc main_v46) = halfR (W10 m ρ c (Proc.devRef .tc main_v44)) :=
  hh2_s (W10 m ρ c)
theorem b11_b : W11 m ρ c (Proc.devRef .tc main_v59) = bsl ![1, 0] slices_S3x32_S1x32_1_0 (m ((c : Thread nD τ).loc main_arg5)) := by
  rw [show W11 m ρ c (Proc.devRef .tc main_v59) = _ from hh2_b (W10 m ρ c), keep_main_arg5_10 m ρ c]
theorem b12_v60 : W12 m ρ c (Proc.devRef .tc main_v60) = kh3 m c := by
  rw [show W12 m ρ c (Proc.devRef .tc main_v60) = (dat5 (V11 m ρ) c).arrAt 3 cfg5.N from W12_arr m ρ c 3, R.arr5 (V11 m ρ) c]
  show Fns.comb (W11 m ρ c (Proc.devRef .tc main_v56)) (W11 m ρ c (Proc.devRef .tc main_v46)) (W11 m ρ c (Proc.devRef .tc main_v59)) = _
  rw [b11_n m ρ c R, b11_s m ρ c R, b11_b m ρ c R, b10_P m ρ c R]
  rfl

theorem b13_w : W13 m ρ c (Proc.devRef .tc main_v65)
    = wcat32 (wsl ![2, 0, 0] slices_S3x32x32_S1x32x32_2_0_0 (m ((c : Thread nD τ).loc main_arg4))) (wsl ![2, 0, 0] slices_S3x32x32_S1x32x32_2_0_0 (m ((c : Thread nD τ).loc main_arg6))) := by
  rw [show W13 m ρ c (Proc.devRef .tc main_v65) = _ from hw3 (W12 m ρ c), keep_main_arg4_12 m ρ c, keep_main_arg6_12 m ρ c]
theorem b13_h : W13 m ρ c (Proc.devRef .tc main_v60) = kh3 m c :=
  (keep_main_v60_13 m ρ c).trans (b12_v60 m ρ c R)
theorem b14_P : W14 m ρ c (Proc.devRef .tc main_v66)
    = Fns.lin32 (kh3 m c) (wcat32 (wsl ![2, 0, 0] slices_S3x32x32_S1x32x32_2_0_0 (m ((c : Thread nD τ).loc main_arg4))) (wsl ![2, 0, 0] slices_S3x32x32_S1x32x32_2_0_0 (m ((c : Thread nD τ).loc main_arg6)))) := by
  rw [show W14 m ρ c (Proc.devRef .tc main_v66) = (dat6 (V13 m ρ) c).arrAt 2 cfg6.N from W14_arr m ρ c 2, R.arr6 (V13 m ρ) c]
  show Fns.lin32 (W13 m ρ c (Proc.devRef .tc main_v60)) (W13 m ρ c (Proc.devRef .tc main_v65)) = _
  rw [b13_h m ρ c R, b13_w m ρ c R]
theorem b15_n : W15 m ρ c (Proc.devRef .tc main_v78) = agg (halfL (W14 m ρ c (Proc.devRef .tc main_v66))) (m ((c : Thread nD τ).loc main_arg11)) (m ((c : Thread nD τ).loc main_arg12)) := by
  rw [show W15 m ρ c (Proc.devRef .tc main_v78) = _ from hh3_n (W14 m ρ c), keep_main_arg11_14 m ρ c, keep_main_arg12_14 m ρ c]
theorem b15_s : W15 m ρ c (Proc.devRef .tc main_v68) = halfR (W14 m ρ c (Proc.devRef .tc main_v66)) :=
  hh3_s (W14 m ρ c)
theorem b15_b : W15 m ρ c (Proc.devRef .tc main_v81) = bsl ![2, 0] slices_S3x32_S1x32_2_0 (m ((c : Thread nD τ).loc main_arg5)) := by
  rw [show W15 m ρ c (Proc.devRef .tc main_v81) = _ from hh3_b (W14 m ρ c), keep_main_arg5_14 m ρ c]
theorem b16_v82 : W16 m ρ c (Proc.devRef .tc main_v82) = kh4 m c := by
  rw [show W16 m ρ c (Proc.devRef .tc main_v82) = (dat7 (V15 m ρ) c).arrAt 3 cfg7.N from W16_arr m ρ c 3, R.arr7 (V15 m ρ) c]
  show Fns.comb (W15 m ρ c (Proc.devRef .tc main_v78)) (W15 m ρ c (Proc.devRef .tc main_v68)) (W15 m ρ c (Proc.devRef .tc main_v81)) = _
  rw [b15_n m ρ c R, b15_s m ρ c R, b15_b m ρ c R, b14_P m ρ c R]
  rfl

theorem b17_v83 : W17 m ρ c (Proc.devRef .tc main_v83) = khg m c := by
  rw [show W17 m ρ c (Proc.devRef .tc main_v83) = (dat8 (V16 m ρ) c).arrAt 2 cfg8.N from W17_arr m ρ c 2, R.arr8 (V16 m ρ) c]
  show Fns.pool (W16 m ρ c (Proc.devRef .tc main_v82)) (W16 m ρ c (Proc.devRef .tc main_v0)) = _
  rw [b16_v82 m ρ c R, keep_main_v0_16 m ρ c, b1_v0 m ρ c]
  rfl
theorem b18_v84 : W18 m ρ c (Proc.devRef .tc main_v84) = shapeCast S1x8 (m ((c : Thread nD τ).loc main_arg8)) shapeCasts_S8_S1x8 := by
  rw [show W18 m ρ c (Proc.devRef .tc main_v84) = _ from h9_v84 (W17 m ρ c), keep_main_arg8_17 m ρ c]
theorem b18_v85 : W18 m ρ c (Proc.devRef .tc main_v85) = shapeCast S1x4 (m ((c : Thread nD τ).loc main_arg10)) shapeCasts_S4_S1x4 := by
  rw [show W18 m ρ c (Proc.devRef .tc main_v85) = _ from h9_v85 (W17 m ρ c), keep_main_arg10_17 m ρ c]
theorem b18_v83 : W18 m ρ c (Proc.devRef .tc main_v83) = khg m c :=
  (keep_main_v83_18 m ρ c).trans (b17_v83 m ρ c R)

/-- What the fold leaves in the result buffer: the kernel's value of the launch memory. -/
theorem result_eq : W19 m ρ c (Proc.devRef .tc main_v86) = kout m c := by
  rw [show W19 m ρ c (Proc.devRef .tc main_v86) = (dat9 (V18 m ρ) c).arrAt 5 cfg9.N from W19_arr m ρ c 5, R.arr9 (V18 m ρ) c]
  show k9_pay1 (F := Ideal) (W18 m ρ c (Proc.devRef .tc main_v83)) (W18 m ρ c (Proc.devRef .tc main_arg7)) (W18 m ρ c (Proc.devRef .tc main_v84))
    (W18 m ρ c (Proc.devRef .tc main_arg9)) (W18 m ρ c (Proc.devRef .tc main_v85)) = _
  rw [b18_v83 m ρ c R, keep_main_arg7_18 m ρ c, b18_v84 m ρ c R, keep_main_arg9_18 m ρ c, b18_v85 m ρ c R]
  rfl

end Cert.KernelIdeal.KV

end
-- ==== Proof.KReg0.lean ====
/-
  Region 0 (a dense layer's two products at once): after its twenty grid points the output array holds, row by row,
  the products of the feature rows with the columns of the weight matrix.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product of a block of feature rows (128 features) with the weight matrix, entry by entry -/

/-- Along the rows, the left factor is read at the row of the result's entry. -/
theorem lhs_row0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- Along the columns, the left factor is read at the summation position. -/
theorem lhs_col0 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- Along the rows, the right factor is read at the summation position. -/
theorem rhs_row0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- Along the columns, the right factor is read at the column of the result's entry. -/
theorem rhs_col0 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- Entry (p, q) of what the body stores is the inner product of row p of the feature block with column q of the weights,
    a sum of 128 products: the narrowing of the factors is the identity on extended reals, and the accumulator starts at zero. -/
theorem rowsTimesWeights0_at (x : Vec Ideal S5000x128 .f32) (w : Vec Ideal S128x64 .f32) (p : Fin 5000) (q : Fin 64) :
    k0_pay1 x w (ix2 p q) = ∑ k : Fin 128, x (ix2 p k) * w (ix2 k q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_row0 _ _
      | ⟨1, _⟩ => exact (lhs_col0 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs_row0 _ _).trans hk
      | ⟨1, _⟩ => exact rhs_col0 _ _)
  rw [el, er]
  rw [truncf_apply, truncf_apply, shapeCast_self]

/-- The same at any entry of the stored block, named by its two coordinates. -/
theorem rowsTimesWeights0 (x : Vec Ideal S5000x128 .f32) (w : Vec Ideal S128x64 .f32) (j : S5000x64.Idx) :
    k0_pay1 x w j = ∑ k : Fin 128, x (ix2 (j 0) k) * w (ix2 k (j 1)) := by
  obtain ⟨p, q, rfl⟩ : ∃ (p : Fin 5000) (q : Fin 64), j = ix2 p q := ⟨j 0, j 1, eq_ix2 j⟩
  exact rowsTimesWeights0_at x w p q

/-- A block of the product from a block of the rows: if row (j 0) of the block `x` is row (i 0) of the array `X`, and column
    (j 1) of `w` is column (i 1) of `W`, then entry j of what the body stores is entry i of the product of `X` with `W`. -/
theorem blockOfProduct0 (X : Vec Ideal S100000x128 .f32) (W : Vec Ideal S128x64 .f32)
    (x : Vec Ideal S5000x128 .f32) (w : Vec Ideal S128x64 .f32) (j : S5000x64.Idx) (i : S100000x64.Idx)
    (hx : ∀ k : Fin 128, x (ix2 (j 0) k) = X (ix2 (i 0) k))
    (hw : ∀ k : Fin 128, w (ix2 k (j 1)) = W (ix2 k (i 1))) :
    k0_pay1 x w j = Fns.lin128 X W i := by
  rw [rowsTimesWeights0]
  show _ = ∑ k : Fin 128, X (ix2 (i 0) k) * W (ix2 k (i 1))
  exact Finset.sum_congr rfl fun k _ => by rw [hx k, hw k]

/-! ## From the twenty blocks of rows to the whole array -/

/-- Every load and the store of the body start at the origin of their buffers. -/
theorem origin0 : (![0, 0] : Fin 2 → Nat) = fun _ => 0 := funext fun a => by fin_cases a <;> rfl

/-- Where the three windows sit at each of the twenty grid points: the block of feature rows is the one with the number of
    the output's block of rows and spans all 128 columns; the weight matrix is taken whole; the output's block of rows has
    one of the twenty numbers and spans all 64 columns. -/
theorem blockIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Each of the twenty blocks of 5000 rows is some grid point's. -/
theorem rowBlock_onto0 : ∀ b : Fin 20, ∃ t : Fin cfg0.N, win0_2.index t = ![b.val, 0] :=
  (by decide +kernel : ∀ b : Fin 20, ∃ t : Fin grid0.N, win0_2.index t = ![b.val, 0])

/-- WHAT POINT `t` WRITES BACK is its block of rows of the product of the whole feature array with the weight matrix:
    entry (r, q) of the block is the inner product of row r of the loaded feature block, which is row
    (block number · 5000 + r) of the feature array, with column q of the weight matrix. -/
theorem flushed0_eq (c : Dev nD) (t : Fin cfg0.N) :
    (dat0 V c).flushed 2 t = ((cfg0.win 2).blk t).view.read (Elt Ideal) (Fns.lin128 (V c main_arg0) (V c main_v1)) := by
  show (cfg0.win 2).cut (grid0.coords t) ((dat0 V c).after 2 t) = _
  rw [after0_2]
  unfold out0_2
  rw [View.canon_unit_zero origin0]
  simp only [View.ld_unit_zero (S := S5000x128) origin0, View.ld_unit_zero (S := S128x64) origin0]
  obtain ⟨e0, e1, e2, e3, e4, e5⟩ := blockIndex0 t
  funext j
  show k0_pay1 (iblk0 V c 0 t) (iblk0 V c 1 t) j
    = Fns.lin128 (V c main_arg0) (V c main_v1) (((cfg0.win 2).blk t).view.emb j)
  refine blockOfProduct0 (V c main_arg0) (V c main_v1) (iblk0 V c 0 t) (iblk0 V c 1 t) j
    (((cfg0.win 2).blk t).view.emb j) (fun k => ?_) (fun k => ?_)
  · show V c main_arg0 (((cfg0.win 0).blk t).view.emb _) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_v1 (((cfg0.win 1).blk t).view.emb _) = _
    refine congrArg (V c main_v1) ?_
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An entry of the output array lies in point `t`'s block iff each of its coordinates lies in the block's range on its axis. -/
theorem mem_outBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v2).slice (win0_2.rect t)).set ↔ _
  rw [View.set_slice_whole, Rect.mem_set_unit]
  exact Iff.rfl

/-- Every entry (r, q) of the output array is written back by the point whose block of rows has the number r / 5000. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := rowBlock_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_outBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array of region 0 after the run, as one function of the two input arrays as the region finds them. -/
theorem arr0 (c : Dev nD) : (dat0 V c).arrAt 2 cfg0.N = Fns.lin128 (V c main_arg0) (V c main_v1) :=
  (dat0 V c).arrAt_eq_of_cover 2 (Fns.lin128 (V c main_arg0) (V c main_v1)) (fun t _ => flushed0_eq V c t) covered0

end Cert.KernelIdeal.KV

end
-- ==== Proof.KReg1.lean ====
/-
  Region 1 (messages plus own features plus bias, positive part): after its twenty grid points the output array holds
  that combination entry by entry.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Combine1

/-! ## The body's arithmetic at one entry -/

/-- The store's rectangle starts at the origin of the block: both offsets are zero. -/
theorem origin : (![0, 0] : Fin 2 → Nat) = fun _ => 0 :=
  funext fun a => match a with | ⟨0, _⟩ => rfl | ⟨1, _⟩ => rfl

/-- Entry `(p, q)` of what the body stores: the two node blocks added, the bias row's entry `q` added to every row,
    and the positive part taken against the zero word, which is the number `0`. -/
theorem relu_sum_at (x0 x1 : Vec Ideal S5000x32 .f32) (x2 : Vec Ideal S1x32 .f32) (p : Fin 5000) (q : Fin 32) :
    k1_pay1 (F := Ideal) x0 x1 x2 (ix2 p q) = max (x0 (ix2 p q) + x1 (ix2 p q) + x2 (ix2 0 q)) 0 := by
  have e0 : shapeCast S5000x32 x0 shapeCasts_S5000x32_S5000x32 = x0 := shapeCast_self _ _
  have e1 : shapeCast S5000x32 x1 shapeCasts_S5000x32_S5000x32 = x1 := shapeCast_self _ _
  have e2 : shapeCast S1x32 x2 shapeCasts_S1x32_S1x32 = x2 := shapeCast_self _ _
  have eb : broadcastTo S5000x32 x2 broadcasts_S1x32_S5000x32 (ix2 p q) = x2 (ix2 0 q) :=
    broadcastTo_1b_ab_apply x2 broadcasts_S1x32_S5000x32 p q
  unfold k1_pay1
  show max (shapeCast S5000x32 x0 shapeCasts_S5000x32_S5000x32 (ix2 p q)
        + shapeCast S5000x32 x1 shapeCasts_S5000x32_S5000x32 (ix2 p q)
        + broadcastTo S5000x32 (shapeCast S1x32 x2 shapeCasts_S1x32_S1x32) broadcasts_S1x32_S5000x32 (ix2 p q))
      (Ideal.ofBits .f32 0x00000000#32) = _
  rw [e0, e1, e2, eb, Ideal.ofBits_zero_f32]

/-! ## The blocks of the grid -/

/-- The index maps, decided once over the twenty points: the two node windows sit on the output's block, the bias
    window stays on its one block, and point `t` works on block row `t`, block column `0`. -/
theorem blocks_agree : ∀ t : Fin cfg1.N,
    win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- An entry of the output array lies in point `t`'s block iff each coordinate lies in the block's range on its axis. -/
theorem mem_block (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v16).slice (win1_3.rect t)).set ↔ _
  rw [View.set_slice_whole, Rect.mem_set_unit]
  exact Iff.rfl

/-- Every entry `(r, j)` of the output array is written back by the point `r / 5000`: the twenty blocks of 5000 rows
    tile the 100000 rows, and each block holds all 32 columns. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hlt : (i 0).val / 5000 < cfg1.N := by rw [show cfg1.N = 20 from N_1]; omega
  obtain ⟨-, -, -, -, -, -, r0, r1⟩ := blocks_agree ⟨(i 0).val / 5000, hlt⟩
  have r0' : win1_3.index ⟨(i 0).val / 5000, hlt⟩ (0 : Fin 2) = (i 0).val / 5000 := r0
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [r0']; omega
  | ⟨1, _⟩ =>
    show win1_3.index ⟨(i 0).val / 5000, hlt⟩ (1 : Fin 2) * 32 ≤ (i 1).val ∧ (i 1).val < win1_3.index ⟨(i 0).val / 5000, hlt⟩ (1 : Fin 2) * 32 + 32
    rw [r1]; omega

/-! ## One point's block -/

/-- Where the two node blocks' entries at `j` are the node arrays' entries at `i`, and the bias block's entry in
    `j`'s column is the bias array's entry in `i`'s column, the stored entry at `j` is the combination at `i`. -/
theorem entry_of_blocks (N S : Vec Ideal S100000x32 .f32) (B : Vec Ideal S1x32 .f32)
    (x0 x1 : Vec Ideal S5000x32 .f32) (x2 : Vec Ideal S1x32 .f32) (j : S5000x32.Idx) (i : S100000x32.Idx)
    (h0 : x0 j = N i) (h1 : x1 j = S i) (h2 : x2 (ix2 0 (j 1)) = B (ix2 0 (i 1))) :
    k1_pay1 (F := Ideal) x0 x1 x2 j = Fns.comb N S B i := by
  obtain ⟨p, q, rfl⟩ : ∃ (p : Fin 5000) (q : Fin 32), j = ix2 p q := ⟨j 0, j 1, eq_ix2 j⟩
  rw [relu_sum_at, h0, h1]
  exact congrArg (fun z => max (N i + S i + z) 0) h2

/-- WHAT POINT `t` WRITES BACK is block `t` of the combination of the three arrays as the region finds them: the two
    node windows' blocks are read where the output's block lies, and the bias window's block is the bias row itself. -/
theorem writes_back (c : Dev nD) (t : Fin cfg1.N) :
    (dat1 V c).flushed 3 t = ((cfg1.win 3).blk t).view.read (Elt Ideal) (Fns.comb (V c main_v14) (V c main_v4) (V c main_v15)) := by
  show (cfg1.win 3).cut (grid1.coords t) ((dat1 V c).after 3 t) = _
  rw [after1_3]
  unfold out1_3
  rw [View.canon_unit_zero origin]
  simp only [View.ld_unit_zero (S := S5000x32) origin, View.ld_unit_zero (S := S1x32) origin]
  obtain ⟨e00, e01, e10, e11, e20, e21, -, e31⟩ := blocks_agree t
  funext j
  show k1_pay1 (F := Ideal) (iblk1 V c 0 t) (iblk1 V c 1 t) (iblk1 V c 2 t) j
    = Fns.comb (V c main_v14) (V c main_v4) (V c main_v15) (((cfg1.win 3).blk t).view.emb j)
  refine entry_of_blocks (V c main_v14) (V c main_v4) (V c main_v15) (iblk1 V c 0 t) (iblk1 V c 1 t) (iblk1 V c 2 t) j
    (((cfg1.win 3).blk t).view.emb j) ?_ ?_ ?_
  · show V c main_v14 (((cfg1.win 0).blk t).view.emb j) = V c main_v14 (((cfg1.win 3).blk t).view.emb j)
    refine congrArg (V c main_v14) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * (j 1).val = win1_3.index t (1 : Fin 2) * 32 + 1 * (j 1).val; omega
  · show V c main_v4 (((cfg1.win 1).blk t).view.emb j) = V c main_v4 (((cfg1.win 3).blk t).view.emb j)
    refine congrArg (V c main_v4) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 32 + 1 * (j 1).val = win1_3.index t (1 : Fin 2) * 32 + 1 * (j 1).val; omega
  · show V c main_v15 (((cfg1.win 2).blk t).view.emb (ix2 0 (j 1))) = V c main_v15 (ix2 0 ((((cfg1.win 3).blk t).view.emb j) 1))
    refine congrArg (V c main_v15) (funext fun a => Fin.ext ?_)
    match a with
    | ⟨0, _⟩ => show win1_2.index t (0 : Fin 2) * 1 + 1 * 0 = 0; omega
    | ⟨1, _⟩ => show win1_2.index t (1 : Fin 2) * 32 + 1 * (j 1).val = win1_3.index t (1 : Fin 2) * 32 + 1 * (j 1).val; omega

end Combine1

/-! ## The array after the run -/

/-- The output array of region 1 after the run, as one function of the three input arrays as the region finds them. -/
theorem arr1 (c : Dev nD) : (dat1 V c).arrAt 3 cfg1.N = Fns.comb (V c main_v14) (V c main_v4) (V c main_v15) :=
  (dat1 V c).arrAt_eq_of_cover 3 (Fns.comb (V c main_v14) (V c main_v4) (V c main_v15))
    (fun t _ => Combine1.writes_back V c t) Combine1.covered

end Cert.KernelIdeal.KV

end
-- ==== Proof.KReg2.lean ====
/-
  Region 2 (a dense layer's two products at once): after its twenty grid points the output array holds, row by row,
  the products of the feature rows with the columns of the weight matrix.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product of a block of feature rows with the weight matrix, entry by entry -/

/-- Along the rows, the left factor is read at the row of the result's entry. -/
theorem lhs_row2 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

/-- Along the columns, the left factor is read at the summation position. -/
theorem lhs_col2 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q

/-- Along the rows, the right factor is read at the summation position. -/
theorem rhs_row2 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q

/-- Along the columns, the right factor is read at the column of the result's entry. -/
theorem rhs_col2 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- Entry (p, q) of what the body stores is the inner product of row p of the feature block with column q of the weights:
    the narrowing of the factors is the identity on extended reals, and the accumulator starts at zero. -/
theorem rowsTimesWeights2_at (x : Vec Ideal S5000x32 .f32) (w : Vec Ideal S32x64 .f32) (p : Fin 5000) (q : Fin 64) :
    k2_pay1 x w (ix2 p q) = ∑ k : Fin 32, x (ix2 p k) * w (ix2 k q) := by
  unfold k2_pay1
  refine (Ideal.matmul_constant_zero_apply dot_S5000x32_S32x64_S5000x64_1_0_0_1_n_n none _ _ (ix2 p q)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun a => Fin.ext (by
      match a with
      | ⟨0, _⟩ => exact lhs_row2 _ _
      | ⟨1, _⟩ => exact (lhs_col2 _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun a => Fin.ext (by
      match a with
      | ⟨0, _⟩ => exact (rhs_row2 _ _).trans hk
      | ⟨1, _⟩ => exact rhs_col2 _ _)
  rw [el, er]
  rw [truncf_apply, truncf_apply, shapeCast_self, shapeCast_self]

/-- The same at any entry of the stored block, named by its two coordinates. -/
theorem rowsTimesWeights2 (x : Vec Ideal S5000x32 .f32) (w : Vec Ideal S32x64 .f32) (j : S5000x64.Idx) :
    k2_pay1 x w j = ∑ k : Fin 32, x (ix2 (j 0) k) * w (ix2 k (j 1)) := by
  obtain ⟨p, q, rfl⟩ : ∃ (p : Fin 5000) (q : Fin 64), j = ix2 p q := ⟨j 0, j 1, eq_ix2 j⟩
  exact rowsTimesWeights2_at x w p q

/-- A block of the product from a block of the rows: if row (j 0) of the block `x` is row (i 0) of the array `X`, and column
    (j 1) of `w` is column (i 1) of `W`, then entry j of what the body stores is entry i of the product of `X` with `W`. -/
theorem blockOfProduct2 (X : Vec Ideal S100000x32 .f32) (W : Vec Ideal S32x64 .f32)
    (x : Vec Ideal S5000x32 .f32) (w : Vec Ideal S32x64 .f32) (j : S5000x64.Idx) (i : S100000x64.Idx)
    (hx : ∀ k : Fin 32, x (ix2 (j 0) k) = X (ix2 (i 0) k))
    (hw : ∀ k : Fin 32, w (ix2 k (j 1)) = W (ix2 k (i 1))) :
    k2_pay1 x w j = Fns.lin32 X W i := by
  rw [rowsTimesWeights2]
  show _ = ∑ k : Fin 32, X (ix2 (i 0) k) * W (ix2 k (i 1))
  exact Finset.sum_congr rfl fun k _ => by rw [hx k, hw k]

/-! ## From the twenty blocks of rows to the whole array -/

/-- Every load and the store of the body start at the origin of their buffers. -/
theorem origin2 : (![0, 0] : Fin 2 → Nat) = fun _ => 0 := funext fun a => by fin_cases a <;> rfl

/-- Where the three windows sit at each of the twenty grid points: the block of feature rows is the one with the number of
    the output's block of rows and spans all 32 columns; the weight matrix is taken whole; the output's block of rows has
    one of the twenty numbers and spans all 64 columns. -/
theorem blockIndex2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 19
    ∧ win2_2.index t (1 : Fin 2) = 0 :=
  (by decide +kernel : ∀ t : Fin grid2.N, _)

/-- Each of the twenty blocks of 5000 rows is some grid point's. -/
theorem rowBlock_onto2 : ∀ b : Fin 20, ∃ t : Fin cfg2.N, win2_2.index t = ![b.val, 0] :=
  (by decide +kernel : ∀ b : Fin 20, ∃ t : Fin grid2.N, win2_2.index t = ![b.val, 0])

/-- WHAT POINT `t` WRITES BACK is its block of rows of the product of the whole feature array with the weight matrix:
    entry (r, q) of the block is the inner product of row r of the loaded feature block, which is row
    (block number · 5000 + r) of the feature array, with column q of the weight matrix. -/
theorem flushed2_eq (c : Dev nD) (t : Fin cfg2.N) :
    (dat2 V c).flushed 2 t = ((cfg2.win 2).blk t).view.read (Elt Ideal) (Fns.lin32 (V c main_v16) (V c main_v21)) := by
  show (cfg2.win 2).cut (grid2.coords t) ((dat2 V c).after 2 t) = _
  rw [after2_2]
  unfold out2_2
  rw [View.canon_unit_zero origin2]
  simp only [View.ld_unit_zero (S := S5000x32) origin2, View.ld_unit_zero (S := S32x64) origin2]
  obtain ⟨e0, e1, e2, e3, e4, e5⟩ := blockIndex2 t
  funext j
  show k2_pay1 (iblk2 V c 0 t) (iblk2 V c 1 t) j
    = Fns.lin32 (V c main_v16) (V c main_v21) (((cfg2.win 2).blk t).view.emb j)
  refine blockOfProduct2 (V c main_v16) (V c main_v21) (iblk2 V c 0 t) (iblk2 V c 1 t) j
    (((cfg2.win 2).blk t).view.emb j) (fun k => ?_) (fun k => ?_)
  · show V c main_v16 (((cfg2.win 0).blk t).view.emb _) = _
    refine congrArg (V c main_v16) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * k.val = k.val; omega
  · show V c main_v21 (((cfg2.win 1).blk t).view.emb _) = _
    refine congrArg (V c main_v21) ?_
    funext a; apply Fin.ext
    match a with
    | ⟨0, _⟩ => show win2_1.index t (0 : Fin 2) * 32 + 1 * k.val = k.val; omega
    | ⟨1, _⟩ => show win2_1.index t (1 : Fin 2) * 64 + 1 * (j 1).val = win2_2.index t (1 : Fin 2) * 64 + 1 * (j 1).val; omega

/-- An entry of the output array lies in point `t`'s block iff each of its coordinates lies in the block's range on its axis. -/
theorem mem_outBlock2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v22).slice (win2_2.rect t)).set ↔ _
  rw [View.set_slice_whole, Rect.mem_set_unit]
  exact Iff.rfl

/-- Every entry (r, q) of the output array is written back by the point whose block of rows has the number r / 5000. -/
theorem covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := rowBlock_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_outBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array of region 2 after the run, as one function of the two input arrays as the region finds them. -/
theorem arr2 (c : Dev nD) : (dat2 V c).arrAt 2 cfg2.N = Fns.lin32 (V c main_v16) (V c main_v21) :=
  (dat2 V c).arrAt_eq_of_cover 2 (Fns.lin32 (V c main_v16) (V c main_v21)) (fun t _ => flushed2_eq V c t) covered2

end Cert.KernelIdeal.KV

end
-- ==== Proof.KReg3.lean ====
/-
  Region 3 (messages plus own features plus bias, positive part): after its twenty grid points the output array holds
  that combination entry by entry.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Combine3

/-! ## The body's arithmetic at one entry -/

/-- The store's rectangle starts at the origin of the block: both offsets are zero. -/
theorem origin : (![0, 0] : Fin 2 → Nat) = fun _ => 0 :=
  funext fun a => match a with | ⟨0, _⟩ => rfl | ⟨1, _⟩ => rfl

/-- Entry `(p, q)` of what the body stores: the two node blocks added, the bias row's entry `q` added to every row,
    and the positive part taken against the zero word, which is the number `0`. -/
theorem relu_sum_at (x0 x1 : Vec Ideal S5000x32 .f32) (x2 : Vec Ideal S1x32 .f32) (p : Fin 5000) (q : Fin 32) :
    k3_pay1 (F := Ideal) x0 x1 x2 (ix2 p q) = max (x0 (ix2 p q) + x1 (ix2 p q) + x2 (ix2 0 q)) 0 := by
  have e0 : shapeCast S5000x32 x0 shapeCasts_S5000x32_S5000x32 = x0 := shapeCast_self _ _
  have e1 : shapeCast S5000x32 x1 shapeCasts_S5000x32_S5000x32 = x1 := shapeCast_self _ _
  have e2 : shapeCast S1x32 x2 shapeCasts_S1x32_S1x32 = x2 := shapeCast_self _ _
  have eb : broadcastTo S5000x32 x2 broadcasts_S1x32_S5000x32 (ix2 p q) = x2 (ix2 0 q) :=
    broadcastTo_1b_ab_apply x2 broadcasts_S1x32_S5000x32 p q
  unfold k3_pay1
  show max (shapeCast S5000x32 x0 shapeCasts_S5000x32_S5000x32 (ix2 p q)
        + shapeCast S5000x32 x1 shapeCasts_S5000x32_S5000x32 (ix2 p q)
        + broadcastTo S5000x32 (shapeCast S1x32 x2 shapeCasts_S1x32_S1x32) broadcasts_S1x32_S5000x32 (ix2 p q))
      (Ideal.ofBits .f32 0x00000000#32) = _
  rw [e0, e1, e2, eb, Ideal.ofBits_zero_f32]

/-! ## The blocks of the grid -/

/-- The index maps, decided once over the twenty points: the two node windows sit on the output's block, the bias
    window stays on its one block, and point `t` works on block row `t`, block column `0`. -/
theorem blocks_agree : ∀ t : Fin cfg3.N,
    win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = win3_3.index t (1 : Fin 2)
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- An entry of the output array lies in point `t`'s block iff each coordinate lies in the block's range on its axis. -/
theorem mem_block (t : Fin cfg3.N) (i : S100000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v38).slice (win3_3.rect t)).set ↔ _
  rw [View.set_slice_whole, Rect.mem_set_unit]
  exact Iff.rfl

/-- Every entry `(r, j)` of the output array is written back by the point `r / 5000`: the twenty blocks of 5000 rows
    tile the 100000 rows, and each block holds all 32 columns. -/
theorem covered (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hlt : (i 0).val / 5000 < cfg3.N := by rw [show cfg3.N = 20 from N_3]; omega
  obtain ⟨-, -, -, -, -, -, r0, r1⟩ := blocks_agree ⟨(i 0).val / 5000, hlt⟩
  have r0' : win3_3.index ⟨(i 0).val / 5000, hlt⟩ (0 : Fin 2) = (i 0).val / 5000 := r0
  refine ⟨⟨(i 0).val / 5000, hlt⟩, flush3_3 _, ?_⟩
  rw [mem_block]
  intro a
  match a with
  | ⟨0, _⟩ =>
    show win3_3.index ⟨(i 0).val / 5000, hlt⟩ (0 : Fin 2) * 5000 ≤ (i 0).val ∧ (i 0).val < win3_3.index ⟨(i 0).val / 5000, hlt⟩ (0 : Fin 2) * 5000 + 5000
    rw [r0']; omega
  | ⟨1, _⟩ =>
    show win3_3.index ⟨(i 0).val / 5000, hlt⟩ (1 : Fin 2) * 32 ≤ (i 1).val ∧ (i 1).val < win3_3.index ⟨(i 0).val / 5000, hlt⟩ (1 : Fin 2) * 32 + 32
    rw [r1]; omega

/-! ## One point's block -/

/-- Where the two node blocks' entries at `j` are the node arrays' entries at `i`, and the bias block's entry in
    `j`'s column is the bias array's entry in `i`'s column, the stored entry at `j` is the combination at `i`. -/
theorem entry_of_blocks (N S : Vec Ideal S100000x32 .f32) (B : Vec Ideal S1x32 .f32)
    (x0 x1 : Vec Ideal S5000x32 .f32) (x2 : Vec Ideal S1x32 .f32) (j : S5000x32.Idx) (i : S100000x32.Idx)
    (h0 : x0 j = N i) (h1 : x1 j = S i) (h2 : x2 (ix2 0 (j 1)) = B (ix2 0 (i 1))) :
    k3_pay1 (F := Ideal) x0 x1 x2 j = Fns.comb N S B i := by
  obtain ⟨p, q, rfl⟩ : ∃ (p : Fin 5000) (q : Fin 32), j = ix2 p q := ⟨j 0, j 1, eq_ix2 j⟩
  rw [relu_sum_at, h0, h1]
  exact congrArg (fun z => max (N i + S i + z) 0) h2

/-- WHAT POINT `t` WRITES BACK is block `t` of the combination of the three arrays as the region finds them: the two
    node windows' blocks are read where the output's block lies, and the bias window's block is the bias row itself. -/
theorem writes_back (c : Dev nD) (t : Fin cfg3.N) :
    (dat3 V c).flushed 3 t = ((cfg3.win 3).blk t).view.read (Elt Ideal) (Fns.comb (V c main_v34) (V c main_v24) (V c main_v37)) := by
  show (cfg3.win 3).cut (grid3.coords t) ((dat3 V c).after 3 t) = _
  rw [after3_3]
  unfold out3_3
  rw [View.canon_unit_zero origin]
  simp only [View.ld_unit_zero (S := S5000x32) origin, View.ld_unit_zero (S := S1x32) origin]
  obtain ⟨e00, e01, e10, e11, e20, e21, -, e31⟩ := blocks_agree t
  funext j
  show k3_pay1 (F := Ideal) (iblk3 V c 0 t) (iblk3 V c 1 t) (iblk3 V c 2 t) j
    = Fns.comb (V c main_v34) (V c main_v24) (V c main_v37) (((cfg3.win 3).blk t).view.emb j)
  refine entry_of_blocks (V c main_v34) (V c main_v24) (V c main_v37) (iblk3 V c 0 t) (iblk3 V c 1 t) (iblk3 V c 2 t) j
    (((cfg3.win 3).blk t).view.emb j) ?_ ?_ ?_
  · show V c main_v34 (((cfg3.win 0).blk t).view.emb j) = V c main_v34 (((cfg3.win 3).blk t).view.emb j)
    refine congrArg (V c main_v34) (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 32 + 1 * (j 1).val = win3_3.index t (1 : Fin 2) * 32 + 1 * (j 1).val; omega
  · show V c main_v24 (((cfg3.win 1).blk t).view.emb j) = V c main_v24 (((cfg3.win 3).blk t).view.emb j)
    refine congrArg (V c main_v24) (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 32 + 1 * (j 1).val = win3_3.index t (1 : Fin 2) * 32 + 1 * (j 1).val; omega
  · show V c main_v37 (((cfg3.win 2).blk t).view.emb (ix2 0 (j 1))) = V c main_v37 (ix2 0 ((((cfg3.win 3).blk t).view.emb j) 1))
    refine congrArg (V c main_v37) (funext fun a => Fin.ext ?_)
    match a with
    | ⟨0, _⟩ => show win3_2.index t (0 : Fin 2) * 1 + 1 * 0 = 0; omega
    | ⟨1, _⟩ => show win3_2.index t (1 : Fin 2) * 32 + 1 * (j 1).val = win3_3.index t (1 : Fin 2) * 32 + 1 * (j 1).val; omega

end Combine3

/-! ## The array after the run -/

/-- The output array of region 3 after the run, as one function of the three input arrays as the region finds them. -/
theorem arr3 (c : Dev nD) : (dat3 V c).arrAt 3 cfg3.N = Fns.comb (V c main_v34) (V c main_v24) (V c main_v37) :=
  (dat3 V c).arrAt_eq_of_cover 3 (Fns.comb (V c main_v34) (V c main_v24) (V c main_v37))
    (fun t _ => Combine3.writes_back V c t) Combine3.covered

end Cert.KernelIdeal.KV

end
-- ==== Proof.KReg4.lean ====
/-
  Region 4 (a dense layer's two products at once): after its twenty grid points the output array holds, row by row,
  the products of the feature rows with the columns of the weight matrix.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product of a block of feature rows with the weight matrix, entry by entry -/

/-- Along the rows, the left factor is read at the row of the result's entry. -/
theorem lhs_row4 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

/-- Along the columns, the left factor is read at the summation position. -/
theorem lhs_col4 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q

/-- Along the rows, the right factor is read at the summation position. -/
theorem rhs_row4 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q

/-- Along the columns, the right factor is read at the column of the result's entry. -/
theorem rhs_col4 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- Entry (p, q) of what the body stores is the inner product of row p of the feature block with column q of the weights:
    the narrowing of the factors is the identity on extended reals, and the accumulator starts at zero. -/
theorem rowsTimesWeights4_at (x : Vec Ideal S5000x32 .f32) (w : Vec Ideal S32x64 .f32) (p : Fin 5000) (q : Fin 64) :
    k4_pay1 x w (ix2 p q) = ∑ k : Fin 32, x (ix2 p k) * w (ix2 k q) := by
  unfold k4_pay1
  refine (Ideal.matmul_constant_zero_apply dot_S5000x32_S32x64_S5000x64_1_0_0_1_n_n none _ _ (ix2 p q)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun a => Fin.ext (by
      match a with
      | ⟨0, _⟩ => exact lhs_row4 _ _
      | ⟨1, _⟩ => exact (lhs_col4 _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun a => Fin.ext (by
      match a with
      | ⟨0, _⟩ => exact (rhs_row4 _ _).trans hk
      | ⟨1, _⟩ => exact rhs_col4 _ _)
  rw [el, er]
  rw [truncf_apply, truncf_apply, shapeCast_self, shapeCast_self]

/-- The same at any entry of the stored block, named by its two coordinates. -/
theorem rowsTimesWeights4 (x : Vec Ideal S5000x32 .f32) (w : Vec Ideal S32x64 .f32) (j : S5000x64.Idx) :
    k4_pay1 x w j = ∑ k : Fin 32, x (ix2 (j 0) k) * w (ix2 k (j 1)) := by
  obtain ⟨p, q, rfl⟩ : ∃ (p : Fin 5000) (q : Fin 64), j = ix2 p q := ⟨j 0, j 1, eq_ix2 j⟩
  exact rowsTimesWeights4_at x w p q

/-- A block of the product from a block of the rows: if row (j 0) of the block `x` is row (i 0) of the array `X`, and column
    (j 1) of `w` is column (i 1) of `W`, then entry j of what the body stores is entry i of the product of `X` with `W`. -/
theorem blockOfProduct4 (X : Vec Ideal S100000x32 .f32) (W : Vec Ideal S32x64 .f32)
    (x : Vec Ideal S5000x32 .f32) (w : Vec Ideal S32x64 .f32) (j : S5000x64.Idx) (i : S100000x64.Idx)
    (hx : ∀ k : Fin 32, x (ix2 (j 0) k) = X (ix2 (i 0) k))
    (hw : ∀ k : Fin 32, w (ix2 k (j 1)) = W (ix2 k (i 1))) :
    k4_pay1 x w j = Fns.lin32 X W i := by
  rw [rowsTimesWeights4]
  show _ = ∑ k : Fin 32, X (ix2 (i 0) k) * W (ix2 k (i 1))
  exact Finset.sum_congr rfl fun k _ => by rw [hx k, hw k]

/-! ## From the twenty blocks of rows to the whole array -/

/-- Every load and the store of the body start at the origin of their buffers. -/
theorem origin4 : (![0, 0] : Fin 2 → Nat) = fun _ => 0 := funext fun a => by fin_cases a <;> rfl

/-- Where the three windows sit at each of the twenty grid points: the block of feature rows is the one with the number of
    the output's block of rows and spans all 32 columns; the weight matrix is taken whole; the output's block of rows has
    one of the twenty numbers and spans all 64 columns. -/
theorem blockIndex4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 19
    ∧ win4_2.index t (1 : Fin 2) = 0 :=
  (by decide +kernel : ∀ t : Fin grid4.N, _)

/-- Each of the twenty blocks of 5000 rows is some grid point's. -/
theorem rowBlock_onto4 : ∀ b : Fin 20, ∃ t : Fin cfg4.N, win4_2.index t = ![b.val, 0] :=
  (by decide +kernel : ∀ b : Fin 20, ∃ t : Fin grid4.N, win4_2.index t = ![b.val, 0])

/-- WHAT POINT `t` WRITES BACK is its block of rows of the product of the whole feature array with the weight matrix:
    entry (r, q) of the block is the inner product of row r of the loaded feature block, which is row
    (block number · 5000 + r) of the feature array, with column q of the weight matrix. -/
theorem flushed4_eq (c : Dev nD) (t : Fin cfg4.N) :
    (dat4 V c).flushed 2 t = ((cfg4.win 2).blk t).view.read (Elt Ideal) (Fns.lin32 (V c main_v38) (V c main_v43)) := by
  show (cfg4.win 2).cut (grid4.coords t) ((dat4 V c).after 2 t) = _
  rw [after4_2]
  unfold out4_2
  rw [View.canon_unit_zero origin4]
  simp only [View.ld_unit_zero (S := S5000x32) origin4, View.ld_unit_zero (S := S32x64) origin4]
  obtain ⟨e0, e1, e2, e3, e4, e5⟩ := blockIndex4 t
  funext j
  show k4_pay1 (iblk4 V c 0 t) (iblk4 V c 1 t) j
    = Fns.lin32 (V c main_v38) (V c main_v43) (((cfg4.win 2).blk t).view.emb j)
  refine blockOfProduct4 (V c main_v38) (V c main_v43) (iblk4 V c 0 t) (iblk4 V c 1 t) j
    (((cfg4.win 2).blk t).view.emb j) (fun k => ?_) (fun k => ?_)
  · show V c main_v38 (((cfg4.win 0).blk t).view.emb _) = _
    refine congrArg (V c main_v38) ?_
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * k.val = k.val; omega
  · show V c main_v43 (((cfg4.win 1).blk t).view.emb _) = _
    refine congrArg (V c main_v43) ?_
    funext a; apply Fin.ext
    match a with
    | ⟨0, _⟩ => show win4_1.index t (0 : Fin 2) * 32 + 1 * k.val = k.val; omega
    | ⟨1, _⟩ => show win4_1.index t (1 : Fin 2) * 64 + 1 * (j 1).val = win4_2.index t (1 : Fin 2) * 64 + 1 * (j 1).val; omega

/-- An entry of the output array lies in point `t`'s block iff each of its coordinates lies in the block's range on its axis. -/
theorem mem_outBlock4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v44).slice (win4_2.rect t)).set ↔ _
  rw [View.set_slice_whole, Rect.mem_set_unit]
  exact Iff.rfl

/-- Every entry (r, q) of the output array is written back by the point whose block of rows has the number r / 5000. -/
theorem covered4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := rowBlock_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_outBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array of region 4 after the run, as one function of the two input arrays as the region finds them. -/
theorem arr4 (c : Dev nD) : (dat4 V c).arrAt 2 cfg4.N = Fns.lin32 (V c main_v38) (V c main_v43) :=
  (dat4 V c).arrAt_eq_of_cover 2 (Fns.lin32 (V c main_v38) (V c main_v43)) (fun t _ => flushed4_eq V c t) covered4

end Cert.KernelIdeal.KV

end
-- ==== Proof.KReg5.lean ====
/-
  Region 5 (messages plus own features plus bias, positive part): after its twenty grid points the output array holds
  that combination entry by entry.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Combine5

/-! ## The body's arithmetic at one entry -/

/-- The store's rectangle starts at the origin of the block: both offsets are zero. -/
theorem origin : (![0, 0] : Fin 2 → Nat) = fun _ => 0 :=
  funext fun a => match a with | ⟨0, _⟩ => rfl | ⟨1, _⟩ => rfl

/-- Entry `(p, q)` of what the body stores: the two node blocks added, the bias row's entry `q` added to every row,
    and the positive part taken against the zero word, which is the number `0`. -/
theorem relu_sum_at (x0 x1 : Vec Ideal S5000x32 .f32) (x2 : Vec Ideal S1x32 .f32) (p : Fin 5000) (q : Fin 32) :
    k5_pay1 (F := Ideal) x0 x1 x2 (ix2 p q) = max (x0 (ix2 p q) + x1 (ix2 p q) + x2 (ix2 0 q)) 0 := by
  have e0 : shapeCast S5000x32 x0 shapeCasts_S5000x32_S5000x32 = x0 := shapeCast_self _ _
  have e1 : shapeCast S5000x32 x1 shapeCasts_S5000x32_S5000x32 = x1 := shapeCast_self _ _
  have e2 : shapeCast S1x32 x2 shapeCasts_S1x32_S1x32 = x2 := shapeCast_self _ _
  have eb : broadcastTo S5000x32 x2 broadcasts_S1x32_S5000x32 (ix2 p q) = x2 (ix2 0 q) :=
    broadcastTo_1b_ab_apply x2 broadcasts_S1x32_S5000x32 p q
  unfold k5_pay1
  show max (shapeCast S5000x32 x0 shapeCasts_S5000x32_S5000x32 (ix2 p q)
        + shapeCast S5000x32 x1 shapeCasts_S5000x32_S5000x32 (ix2 p q)
        + broadcastTo S5000x32 (shapeCast S1x32 x2 shapeCasts_S1x32_S1x32) broadcasts_S1x32_S5000x32 (ix2 p q))
      (Ideal.ofBits .f32 0x00000000#32) = _
  rw [e0, e1, e2, eb, Ideal.ofBits_zero_f32]

/-! ## The blocks of the grid -/

/-- The index maps, decided once over the twenty points: the two node windows sit on the output's block, the bias
    window stays on its one block, and point `t` works on block row `t`, block column `0`. -/
theorem blocks_agree : ∀ t : Fin cfg5.N,
    win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- An entry of the output array lies in point `t`'s block iff each coordinate lies in the block's range on its axis. -/
theorem mem_block (t : Fin cfg5.N) (i : S100000x32.Idx) :
    i ∈ ((cfg5.win 3).blk t).view.set ↔ ∀ a : Fin 2, win5_3.index t a * S5000x32.size a ≤ (i a).val ∧ (i a).val < win5_3.index t a * S5000x32.size a + S5000x32.size a := by
  show i ∈ ((View.whole main_v60).slice (win5_3.rect t)).set ↔ _
  rw [View.set_slice_whole, Rect.mem_set_unit]
  exact Iff.rfl

/-- Every entry `(r, j)` of the output array is written back by the point `r / 5000`: the twenty blocks of 5000 rows
    tile the 100000 rows, and each block holds all 32 columns. -/
theorem covered (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  have hlt : (i 0).val / 5000 < cfg5.N := by rw [show cfg5.N = 20 from N_5]; omega
  obtain ⟨-, -, -, -, -, -, r0, r1⟩ := blocks_agree ⟨(i 0).val / 5000, hlt⟩
  have r0' : win5_3.index ⟨(i 0).val / 5000, hlt⟩ (0 : Fin 2) = (i 0).val / 5000 := r0
  refine ⟨⟨(i 0).val / 5000, hlt⟩, flush5_3 _, ?_⟩
  rw [mem_block]
  intro a
  match a with
  | ⟨0, _⟩ =>
    show win5_3.index ⟨(i 0).val / 5000, hlt⟩ (0 : Fin 2) * 5000 ≤ (i 0).val ∧ (i 0).val < win5_3.index ⟨(i 0).val / 5000, hlt⟩ (0 : Fin 2) * 5000 + 5000
    rw [r0']; omega
  | ⟨1, _⟩ =>
    show win5_3.index ⟨(i 0).val / 5000, hlt⟩ (1 : Fin 2) * 32 ≤ (i 1).val ∧ (i 1).val < win5_3.index ⟨(i 0).val / 5000, hlt⟩ (1 : Fin 2) * 32 + 32
    rw [r1]; omega

/-! ## One point's block -/

/-- Where the two node blocks' entries at `j` are the node arrays' entries at `i`, and the bias block's entry in
    `j`'s column is the bias array's entry in `i`'s column, the stored entry at `j` is the combination at `i`. -/
theorem entry_of_blocks (N S : Vec Ideal S100000x32 .f32) (B : Vec Ideal S1x32 .f32)
    (x0 x1 : Vec Ideal S5000x32 .f32) (x2 : Vec Ideal S1x32 .f32) (j : S5000x32.Idx) (i : S100000x32.Idx)
    (h0 : x0 j = N i) (h1 : x1 j = S i) (h2 : x2 (ix2 0 (j 1)) = B (ix2 0 (i 1))) :
    k5_pay1 (F := Ideal) x0 x1 x2 j = Fns.comb N S B i := by
  obtain ⟨p, q, rfl⟩ : ∃ (p : Fin 5000) (q : Fin 32), j = ix2 p q := ⟨j 0, j 1, eq_ix2 j⟩
  rw [relu_sum_at, h0, h1]
  exact congrArg (fun z => max (N i + S i + z) 0) h2

/-- WHAT POINT `t` WRITES BACK is block `t` of the combination of the three arrays as the region finds them: the two
    node windows' blocks are read where the output's block lies, and the bias window's block is the bias row itself. -/
theorem writes_back (c : Dev nD) (t : Fin cfg5.N) :
    (dat5 V c).flushed 3 t = ((cfg5.win 3).blk t).view.read (Elt Ideal) (Fns.comb (V c main_v56) (V c main_v46) (V c main_v59)) := by
  show (cfg5.win 3).cut (grid5.coords t) ((dat5 V c).after 3 t) = _
  rw [after5_3]
  unfold out5_3
  rw [View.canon_unit_zero origin]
  simp only [View.ld_unit_zero (S := S5000x32) origin, View.ld_unit_zero (S := S1x32) origin]
  obtain ⟨e00, e01, e10, e11, e20, e21, -, e31⟩ := blocks_agree t
  funext j
  show k5_pay1 (F := Ideal) (iblk5 V c 0 t) (iblk5 V c 1 t) (iblk5 V c 2 t) j
    = Fns.comb (V c main_v56) (V c main_v46) (V c main_v59) (((cfg5.win 3).blk t).view.emb j)
  refine entry_of_blocks (V c main_v56) (V c main_v46) (V c main_v59) (iblk5 V c 0 t) (iblk5 V c 1 t) (iblk5 V c 2 t) j
    (((cfg5.win 3).blk t).view.emb j) ?_ ?_ ?_
  · show V c main_v56 (((cfg5.win 0).blk t).view.emb j) = V c main_v56 (((cfg5.win 3).blk t).view.emb j)
    refine congrArg (V c main_v56) (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 32 + 1 * (j 1).val = win5_3.index t (1 : Fin 2) * 32 + 1 * (j 1).val; omega
  · show V c main_v46 (((cfg5.win 1).blk t).view.emb j) = V c main_v46 (((cfg5.win 3).blk t).view.emb j)
    refine congrArg (V c main_v46) (funext fun a => Fin.ext ?_)
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 32 + 1 * (j 1).val = win5_3.index t (1 : Fin 2) * 32 + 1 * (j 1).val; omega
  · show V c main_v59 (((cfg5.win 2).blk t).view.emb (ix2 0 (j 1))) = V c main_v59 (ix2 0 ((((cfg5.win 3).blk t).view.emb j) 1))
    refine congrArg (V c main_v59) (funext fun a => Fin.ext ?_)
    match a with
    | ⟨0, _⟩ => show win5_2.index t (0 : Fin 2) * 1 + 1 * 0 = 0; omega
    | ⟨1, _⟩ => show win5_2.index t (1 : Fin 2) * 32 + 1 * (j 1).val = win5_3.index t (1 : Fin 2) * 32 + 1 * (j 1).val; omega

end Combine5

/-! ## The array after the run -/

/-- The output array of region 5 after the run, as one function of the three input arrays as the region finds them. -/
theorem arr5 (c : Dev nD) : (dat5 V c).arrAt 3 cfg5.N = Fns.comb (V c main_v56) (V c main_v46) (V c main_v59) :=
  (dat5 V c).arrAt_eq_of_cover 3 (Fns.comb (V c main_v56) (V c main_v46) (V c main_v59))
    (fun t _ => Combine5.writes_back V c t) Combine5.covered

end Cert.KernelIdeal.KV

end
-- ==== Proof.KReg6.lean ====
/-
  Region 6 (a dense layer's two products at once): after its twenty grid points the output array holds, row by row,
  the products of the feature rows with the columns of the weight matrix.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The product of a block of feature rows with the weight matrix, entry by entry -/

/-- Along the rows, the left factor is read at the row of the result's entry. -/
theorem lhs_row6 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide),
    dif_pos (show (0 : Fin S5000x32.rank) ∈ dot_S5000x32_S32x64_S5000x64_1_0_0_1_n_n.lhsNonContracting by decide)]
  rfl

/-- Along the columns, the left factor is read at the summation position. -/
theorem lhs_col6 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q

/-- Along the rows, the right factor is read at the summation position. -/
theorem rhs_row6 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q

/-- Along the columns, the right factor is read at the column of the result's entry. -/
theorem rhs_col6 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide),
    dif_pos (show (1 : Fin S32x64.rank) ∈ dot_S5000x32_S32x64_S5000x64_1_0_0_1_n_n.rhsNonContracting by decide)]
  rfl

/-- Entry (p, q) of what the body stores is the inner product of row p of the feature block with column q of the weights:
    the narrowing of the factors is the identity on extended reals, and the accumulator starts at zero. -/
theorem rowsTimesWeights6_at (x : Vec Ideal S5000x32 .f32) (w : Vec Ideal S32x64 .f32) (p : Fin 5000) (q : Fin 64) :
    k6_pay1 x w (ix2 p q) = ∑ k : Fin 32, x (ix2 p k) * w (ix2 k q) := by
  unfold k6_pay1
  refine (Ideal.matmul_constant_zero_apply dot_S5000x32_S32x64_S5000x64_1_0_0_1_n_n none _ _ (ix2 p q)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k :=
    funext fun a => Fin.ext (by
      match a with
      | ⟨0, _⟩ => exact lhs_row6 _ _
      | ⟨1, _⟩ => exact (lhs_col6 _ _).trans hk)
  have er : dot_S5000x32_S32x64_S5000x64_1_0_0_1_n_n.rhsIdx (ix2 p q) ((contrEquiv1 dot_S5000x32_S32x64_S5000x64_1_0_0_1_n_n 32 rfl rfl).symm k) = ix2 k q :=
    funext fun a => Fin.ext (by
      match a with
      | ⟨0, _⟩ => exact (rhs_row6 _ _).trans hk
      | ⟨1, _⟩ => exact rhs_col6 _ _)
  rw [el, er]
  rw [truncf_apply, truncf_apply, shapeCast_self, shapeCast_self]

/-- The same at any entry of the stored block, named by its two coordinates. -/
theorem rowsTimesWeights6 (x : Vec Ideal S5000x32 .f32) (w : Vec Ideal S32x64 .f32) (j : S5000x64.Idx) :
    k6_pay1 x w j = ∑ k : Fin 32, x (ix2 (j 0) k) * w (ix2 k (j 1)) := by
  obtain ⟨p, q, rfl⟩ : ∃ (p : Fin 5000) (q : Fin 64), j = ix2 p q := ⟨j 0, j 1, eq_ix2 j⟩
  exact rowsTimesWeights6_at x w p q

/-- A block of the product from a block of the rows: if row (j 0) of the block `x` is row (i 0) of the array `X`, and column
    (j 1) of `w` is column (i 1) of `W`, then entry j of what the body stores is entry i of the product of `X` with `W`. -/
theorem blockOfProduct6 (X : Vec Ideal S100000x32 .f32) (W : Vec Ideal S32x64 .f32)
    (x : Vec Ideal S5000x32 .f32) (w : Vec Ideal S32x64 .f32) (j : S5000x64.Idx) (i : S100000x64.Idx)
    (hx : ∀ k : Fin 32, x (ix2 (j 0) k) = X (ix2 (i 0) k))
    (hw : ∀ k : Fin 32, w (ix2 k (j 1)) = W (ix2 k (i 1))) :
    k6_pay1 x w j = Fns.lin32 X W i := by
  rw [rowsTimesWeights6]
  show _ = ∑ k : Fin 32, X (ix2 (i 0) k) * W (ix2 k (i 1))
  exact Finset.sum_congr rfl fun k _ => by rw [hx k, hw k]

/-! ## From the twenty blocks of rows to the whole array -/

/-- Every load and the store of the body start at the origin of their buffers. -/
theorem origin6 : (![0, 0] : Fin 2 → Nat) = fun _ => 0 := funext fun a => by fin_cases a <;> rfl

/-- Where the three windows sit at each of the twenty grid points: the block of feature rows is the one with the number of
    the output's block of rows and spans all 32 columns; the weight matrix is taken whole; the output's block of rows has
    one of the twenty numbers and spans all 64 columns. -/
theorem blockIndex6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) ≤ 19
    ∧ win6_2.index t (1 : Fin 2) = 0 :=
  (by decide +kernel : ∀ t : Fin grid6.N, _)

/-- Each of the twenty blocks of 5000 rows is some grid point's. -/
theorem rowBlock_onto6 : ∀ b : Fin 20, ∃ t : Fin cfg6.N, win6_2.index t = ![b.val, 0] :=
  (by decide +kernel : ∀ b : Fin 20, ∃ t : Fin grid6.N, win6_2.index t = ![b.val, 0])

/-- WHAT POINT `t` WRITES BACK is its block of rows of the product of the whole feature array with the weight matrix:
    entry (r, q) of the block is the inner product of row r of the loaded feature block, which is row
    (block number · 5000 + r) of the feature array, with column q of the weight matrix. -/
theorem flushed6_eq (c : Dev nD) (t : Fin cfg6.N) :
    (dat6 V c).flushed 2 t = ((cfg6.win 2).blk t).view.read (Elt Ideal) (Fns.lin32 (V c main_v60) (V c main_v65)) := by
  show (cfg6.win 2).cut (grid6.coords t) ((dat6 V c).after 2 t) = _
  rw [after6_2]
  unfold out6_2
  rw [View.canon_unit_zero origin6]
  simp only [View.ld_unit_zero (S := S5000x32) origin6, View.ld_unit_zero (S := S32x64) origin6]
  obtain ⟨e0, e1, e2, e3, e4, e5⟩ := blockIndex6 t
  funext j
  show k6_pay1 (iblk6 V c 0 t) (iblk6 V c 1 t) j
    = Fns.lin32 (V c main_v60) (V c main_v65) (((cfg6.win 2).blk t).view.emb j)
  refine blockOfProduct6 (V c main_v60) (V c main_v65) (iblk6 V c 0 t) (iblk6 V c 1 t) j
    (((cfg6.win 2).blk t).view.emb j) (fun k => ?_) (fun k => ?_)
  · show V c main_v60 (((cfg6.win 0).blk t).view.emb _) = _
    refine congrArg (V c main_v60) ?_
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 32 + 1 * k.val = k.val; omega
  · show V c main_v65 (((cfg6.win 1).blk t).view.emb _) = _
    refine congrArg (V c main_v65) ?_
    funext a; apply Fin.ext
    match a with
    | ⟨0, _⟩ => show win6_1.index t (0 : Fin 2) * 32 + 1 * k.val = k.val; omega
    | ⟨1, _⟩ => show win6_1.index t (1 : Fin 2) * 64 + 1 * (j 1).val = win6_2.index t (1 : Fin 2) * 64 + 1 * (j 1).val; omega

/-- An entry of the output array lies in point `t`'s block iff each of its coordinates lies in the block's range on its axis. -/
theorem mem_outBlock6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v66).slice (win6_2.rect t)).set ↔ _
  rw [View.set_slice_whole, Rect.mem_set_unit]
  exact Iff.rfl

/-- Every entry (r, q) of the output array is written back by the point whose block of rows has the number r / 5000. -/
theorem covered6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ := rowBlock_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_outBlock6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The output array of region 6 after the run, as one function of the two input arrays as the region finds them. -/
theorem arr6 (c : Dev nD) : (dat6 V c).arrAt 2 cfg6.N = Fns.lin32 (V c main_v60) (V c main_v65) :=
  (dat6 V c).arrAt_eq_of_cover 2 (Fns.lin32 (V c main_v60) (V c main_v65)) (fun t _ => flushed6_eq V c t) covered6

end Cert.KernelIdeal.KV

end
-- ==== Proof.KReg7.lean ====
/-
  Region 7 (messages plus own features plus bias, positive part): after its twenty grid points the output array holds
  that combination entry by entry.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Combine7

/-! ## The body's arithmetic at one entry -/

/-- The store's rectangle starts at the origin of the block: both offsets are zero. -/
theorem origin : (![0, 0] : Fin 2 → Nat) = fun _ => 0 :=
  funext fun a => match a with | ⟨0, _⟩ => rfl | ⟨1, _⟩ => rfl

/-- Entry `(p, q)` of what the body stores: the two node blocks added, the bias row's entry `q` added to every row,
    and the positive part taken against the zero word, which is the number `0`. -/
theorem relu_sum_at (x0 x1 : Vec Ideal S5000x32 .f32) (x2 : Vec Ideal S1x32 .f32) (p : Fin 5000) (q : Fin 32) :
    k7_pay1 (F := Ideal) x0 x1 x2 (ix2 p q) = max (x0 (ix2 p q) + x1 (ix2 p q) + x2 (ix2 0 q)) 0 := by
  have e0 : shapeCast S5000x32 x0 shapeCasts_S5000x32_S5000x32 = x0 := shapeCast_self _ _
  have e1 : shapeCast S5000x32 x1 shapeCasts_S5000x32_S5000x32 = x1 := shapeCast_self _ _
  have e2 : shapeCast S1x32 x2 shapeCasts_S1x32_S1x32 = x2 := shapeCast_self _ _
  have eb : broadcastTo S5000x32 x2 broadcasts_S1x32_S5000x32 (ix2 p q) = x2 (ix2 0 q) :=
    broadcastTo_1b_ab_apply x2 broadcasts_S1x32_S5000x32 p q
  unfold k7_pay1
  show max (shapeCast S5000x32 x0 shapeCasts_S5000x32_S5000x32 (ix2 p q)
        + shapeCast S5000x32 x1 shapeCasts_S5000x32_S5000x32 (ix2 p q)
        + broadcastTo S5000x32 (shapeCast S1x32 x2 shapeCasts_S1x32_S1x32) broadcasts_S1x32_S5000x32 (ix2 p q))
      (Ideal.ofBits .f32 0x00000000#32) = _
  rw [e0, e1, e2, eb, Ideal.ofBits_zero_f32]

/-! ## The blocks of the grid -/

/-- The index maps, decided once over the twenty points: the two node windows sit on the output's block, the bias
    window stays on its one block, and point `t` works on block row `t`, block column `0`. -/
theorem blocks_agree : ∀ t : Fin cfg7.N,
    win7_0.index t (0 : Fin 2) = win7_3.index t (0 : Fin 2)
    ∧ win7_0.index t (1 : Fin 2) = win7_3.index t (1 : Fin 2)
    ∧ win7_1.index t (0 : Fin 2) = win7_3.index t (0 : Fin 2)
    ∧ win7_1.index t (1 : Fin 2) = win7_3.index t (1 : Fin 2)
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- An entry of the output array lies in point `t`'s block iff each coordinate lies in the block's range on its axis. -/
theorem mem_block (t : Fin cfg7.N) (i : S100000x32.Idx) :
    i ∈ ((cfg7.win 3).blk t).view.set ↔ ∀ a : Fin 2, win7_3.index t a * S5000x32.size a ≤ (i a).val ∧ (i a).val < win7_3.index t a * S5000x32.size a + S5000x32.size a := by
  show i ∈ ((View.whole main_v82).slice (win7_3.rect t)).set ↔ _
  rw [View.set_slice_whole, Rect.mem_set_unit]
  exact Iff.rfl

/-- Every entry `(r, j)` of the output array is written back by the point `r / 5000`: the twenty blocks of 5000 rows
    tile the 100000 rows, and each block holds all 32 columns. -/
theorem covered (i : S100000x32.Idx) :
    ∃ t : Fin cfg7.N, (cfg7.win 3).flush t = true ∧ i ∈ ((cfg7.win 3).blk t).view.set := by
  have hi0 : (i 0).val < 100000 := (i 0).isLt
  have hi1 : (i 1).val < 32 := (i 1).isLt
  have hlt : (i 0).val / 5000 < cfg7.N := by rw [show cfg7.N = 20 from N_7]; omega
  obtain ⟨-, -, -, -, -, -, r0, r1⟩ := blocks_agree ⟨(i 0).val / 5000, hlt⟩
  have r0' : win7_3.index ⟨(i 0).val / 5000, hlt⟩ (0 : Fin 2) = (i 0).val / 5000 := r0
  refine ⟨⟨(i 0).val / 5000, hlt⟩, flush7_3 _, ?_⟩
  rw [mem_block]
  intro a
  match a with
  | ⟨0, _⟩ =>
    show win7_3.index ⟨(i 0).val / 5000, hlt⟩ (0 : Fin 2) * 5000 ≤ (i 0).val ∧ (i 0).val < win7_3.index ⟨(i 0).val / 5000, hlt⟩ (0 : Fin 2) * 5000 + 5000
    rw [r0']; omega
  | ⟨1, _⟩ =>
    show win7_3.index ⟨(i 0).val / 5000, hlt⟩ (1 : Fin 2) * 32 ≤ (i 1).val ∧ (i 1).val < win7_3.index ⟨(i 0).val / 5000, hlt⟩ (1 : Fin 2) * 32 + 32
    rw [r1]; omega

/-! ## One point's block -/

/-- Where the two node blocks' entries at `j` are the node arrays' entries at `i`, and the bias block's entry in
    `j`'s column is the bias array's entry in `i`'s column, the stored entry at `j` is the combination at `i`. -/
theorem entry_of_blocks (N S : Vec Ideal S100000x32 .f32) (B : Vec Ideal S1x32 .f32)
    (x0 x1 : Vec Ideal S5000x32 .f32) (x2 : Vec Ideal S1x32 .f32) (j : S5000x32.Idx) (i : S100000x32.Idx)
    (h0 : x0 j = N i) (h1 : x1 j = S i) (h2 : x2 (ix2 0 (j 1)) = B (ix2 0 (i 1))) :
    k7_pay1 (F := Ideal) x0 x1 x2 j = Fns.comb N S B i := by
  obtain ⟨p, q, rfl⟩ : ∃ (p : Fin 5000) (q : Fin 32), j = ix2 p q := ⟨j 0, j 1, eq_ix2 j⟩
  rw [relu_sum_at, h0, h1]
  exact congrArg (fun z => max (N i + S i + z) 0) h2

/-- WHAT POINT `t` WRITES BACK is block `t` of the combination of the three arrays as the region finds them: the two
    node windows' blocks are read where the output's block lies, and the bias window's block is the bias row itself. -/
theorem writes_back (c : Dev nD) (t : Fin cfg7.N) :
    (dat7 V c).flushed 3 t = ((cfg7.win 3).blk t).view.read (Elt Ideal) (Fns.comb (V c main_v78) (V c main_v68) (V c main_v81)) := by
  show (cfg7.win 3).cut (grid7.coords t) ((dat7 V c).after 3 t) = _
  rw [after7_3]
  unfold out7_3
  rw [View.canon_unit_zero origin]
  simp only [View.ld_unit_zero (S := S5000x32) origin, View.ld_unit_zero (S := S1x32) origin]
  obtain ⟨e00, e01, e10, e11, e20, e21, -, e31⟩ := blocks_agree t
  funext j
  show k7_pay1 (F := Ideal) (iblk7 V c 0 t) (iblk7 V c 1 t) (iblk7 V c 2 t) j
    = Fns.comb (V c main_v78) (V c main_v68) (V c main_v81) (((cfg7.win 3).blk t).view.emb j)
  refine entry_of_blocks (V c main_v78) (V c main_v68) (V c main_v81) (iblk7 V c 0 t) (iblk7 V c 1 t) (iblk7 V c 2 t) j
    (((cfg7.win 3).blk t).view.emb j) ?_ ?_ ?_
  · show V c main_v78 (((cfg7.win 0).blk t).view.emb j) = V c main_v78 (((cfg7.win 3).blk t).view.emb j)
    refine congrArg (V c main_v78) (funext fun a => Fin.ext ?_)
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 32 + 1 * (j 1).val = win7_3.index t (1 : Fin 2) * 32 + 1 * (j 1).val; omega
  · show V c main_v68 (((cfg7.win 1).blk t).view.emb j) = V c main_v68 (((cfg7.win 3).blk t).view.emb j)
    refine congrArg (V c main_v68) (funext fun a => Fin.ext ?_)
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 32 + 1 * (j 1).val = win7_3.index t (1 : Fin 2) * 32 + 1 * (j 1).val; omega
  · show V c main_v81 (((cfg7.win 2).blk t).view.emb (ix2 0 (j 1))) = V c main_v81 (ix2 0 ((((cfg7.win 3).blk t).view.emb j) 1))
    refine congrArg (V c main_v81) (funext fun a => Fin.ext ?_)
    match a with
    | ⟨0, _⟩ => show win7_2.index t (0 : Fin 2) * 1 + 1 * 0 = 0; omega
    | ⟨1, _⟩ => show win7_2.index t (1 : Fin 2) * 32 + 1 * (j 1).val = win7_3.index t (1 : Fin 2) * 32 + 1 * (j 1).val; omega

end Combine7

/-! ## The array after the run -/

/-- The output array of region 7 after the run, as one function of the three input arrays as the region finds them. -/
theorem arr7 (c : Dev nD) : (dat7 V c).arrAt 3 cfg7.N = Fns.comb (V c main_v78) (V c main_v68) (V c main_v81) :=
  (dat7 V c).arrAt_eq_of_cover 3 (Fns.comb (V c main_v78) (V c main_v68) (V c main_v81))
    (fun t _ => Combine7.writes_back V c t) Combine7.covered

end Cert.KernelIdeal.KV

end
-- ==== Proof.KReg8.lean ====
/-
  Region 8 (the per-graph sums): the output block is carried over the twenty grid points, reset at the first and
  increased at each by the point's nodes' features against the indicator of their graph; after the last point the
  output array holds the sum over all nodes.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## What one grid point leaves in the carried block -/

/-- The two zero offsets every access of this body uses, as the constant function. -/
theorem poolOffsets : (![0, 0] : Fin 2 → Nat) = fun _ => 0 := funext fun a => by fin_cases a <;> rfl

/-- A later point leaves the carried block increased once: the body's one store covers the block, and its loads read
    the point's two input blocks and the carried block whole. -/
theorem poolLater (c : Dev nD) (i : grid8.Coords) (a1 : Memref sig .tc .vmem S5000x32 .f32) (h1 : a1.IsWhole)
    (a2 : Memref sig .tc .vmem S5000x1 .i32) (h2 : a2.IsWhole) (a3 : Memref sig .tc .vmem S64x32 .f32) (h3 : a3.IsWhole)
    (hc : ¬cond8_0 i) (x : Vec Ideal S5000x32 .f32) (gid : Vec Ideal S5000x1 .i32) (acc : Vec Ideal S64x32 .f32) :
    out8_B_2 c i a1 h1 a2 h2 a3 h3 hc x gid acc = k8_pay2 x gid acc := by
  unfold out8_B_2
  rw [View.read_writes_eq_canon _ _ _ (cover8_B_2 c i a1 h1 a2 h2 a3 h3 hc x gid acc)]
  unfold kernelRun8_B
  dsimp only
  sl_unfold_words
  rw [View.canon_unit_zero poolOffsets]
  simp only [View.readAt_eq_ld, h1.read_unread, h2.read_unread, h3.read_unread,
    View.ld_unit_zero (S := S5000x32) poolOffsets, View.ld_unit_zero (S := S5000x1) poolOffsets,
    View.ld_unit_zero (S := S64x32) poolOffsets]

/-- The first point stores the zero block, reads it back, and leaves it increased once. -/
theorem poolFirst (c : Dev nD) (i : grid8.Coords) (a1 : Memref sig .tc .vmem S5000x32 .f32) (h1 : a1.IsWhole)
    (a2 : Memref sig .tc .vmem S5000x1 .i32) (h2 : a2.IsWhole) (a3 : Memref sig .tc .vmem S64x32 .f32) (h3 : a3.IsWhole)
    (hc : cond8_0 i) (x : Vec Ideal S5000x32 .f32) (gid : Vec Ideal S5000x1 .i32) :
    out8_A_2 c i a1 h1 a2 h2 a3 h3 hc x gid = k8_pay2 x gid (k8_pay1 (F := Ideal)) := by
  unfold out8_A_2
  rw [View.read_writes_eq_canon _ _ _ (cover8_A_2 c i a1 h1 a2 h2 a3 h3 hc x gid)]
  unfold kernelRun8_A
  dsimp only
  sl_unfold_words
  rw [View.canon_cons_unit_zero (S := S64x32) poolOffsets]
  simp only [View.readAt_eq_ld, h1.read_unread, h2.read_unread,
    View.ld_unit_zero (S := S5000x32) poolOffsets, View.ld_unit_zero (S := S5000x1) poolOffsets,
    View.readCov_unit_zero (S := S64x32) _ poolOffsets]

/-! ## The increase at an index -/

/-- One column broadcast along the rows' other axis reads, at `(p, q)`, the column's entry `p`. -/
theorem columnBroadcast_apply {a b : ℕ} {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The word "these two words are equal", widened and read as a signed integer, is the indicator of their equality. -/
theorem sameWord (a b : BitVec 32) :
    ((((IntOp.cmpi .eq a b).setWidth 32).toInt : ℝ) : EReal) = if a = b then (1 : EReal) else 0 := by
  have key : ∀ p : Bool, ((BitVec.ofBool p).setWidth 32).toInt = if p then (1 : ℤ) else 0 := by
    intro p; cases p <;> decide
  show ((((BitVec.ofBool (a == b)).setWidth 32).toInt : ℝ) : EReal) = _
  rw [key]
  by_cases h : a = b <;> simp [h]

/-- Entry `(r, g)` of the membership matrix the body builds from a block of graph ids: `1` when row `r`'s id is `g`,
    else `0` (the ids broadcast along the columns against the column numbers broadcast along the rows). -/
theorem membership_apply (gid : Vec Ideal S5000x1 .i32) (r : Fin 5000) (g : Fin 64) :
    (truncf .bf16 (sitofp .f32 (extui 32 (cmpi .eq
        (broadcastTo S5000x64 (shapeCast S5000x1 gid shapeCasts_S5000x1_S5000x1) broadcasts_S5000x1_S5000x64)
        (broadcastTo S5000x64 (iota .tc S1x64 32 [1] iota_S1x64_d1_w32) broadcasts_S1x64_S5000x64)) natLt_1_32)
        : FVec Ideal S5000x64 .f32) bitsLt_bf16_f32 : FVec Ideal S5000x64 .bf16) (ix2 r g)
      = if gid (ix2 r 0) = BitVec.ofNat 32 g.val then (1 : EReal) else 0 := by
  have e1 : broadcastTo S5000x64 (shapeCast S5000x1 gid shapeCasts_S5000x1_S5000x1) broadcasts_S5000x1_S5000x64 (ix2 r g)
      = gid (ix2 r 0) :=
    (columnBroadcast_apply _ broadcasts_S5000x1_S5000x64 r g).trans (congrFun (shapeCast_self gid shapeCasts_S5000x1_S5000x1) _)
  have e2 : broadcastTo S5000x64 (iota .tc S1x64 32 [1] iota_S1x64_d1_w32) broadcasts_S1x64_S5000x64 (ix2 r g)
      = BitVec.ofNat 32 g.val :=
    (broadcastTo_1b_ab_apply _ broadcasts_S1x64_S5000x64 r g).trans (iota_single_apply .tc S1x64 32 1 iota_S1x64_d1_w32 _)
  show ((((IntOp.cmpi .eq
      (broadcastTo S5000x64 (shapeCast S5000x1 gid shapeCasts_S5000x1_S5000x1) broadcasts_S5000x1_S5000x64 (ix2 r g))
      (broadcastTo S5000x64 (iota .tc S1x64 32 [1] iota_S1x64_d1_w32) broadcasts_S1x64_S5000x64 (ix2 r g))).setWidth 32).toInt : ℝ) : EReal) = _
  rw [e1, e2]
  exact sameWord _ _

/-- The product's left operand (the membership matrix, contracted over its rows) is read at (row, graph) … -/
theorem lhs_pool_0 (i : S64x32.Idx) (q : dot_S5000x64_S5000x32_S64x32_0_0_1_1_n_n.contr.Idx) :
    (dot_S5000x64_S5000x32_S64x32_0_0_1_1_n_n.lhsIdx i q 0).val = (q ⟨0, by decide⟩).val :=
  dot_S5000x64_S5000x32_S64x32_0_0_1_1_n_n.lhsIdx_val_of_single rfl i q
theorem lhs_pool_1 (i : S64x32.Idx) (q : dot_S5000x64_S5000x32_S64x32_0_0_1_1_n_n.contr.Idx) :
    (dot_S5000x64_S5000x32_S64x32_0_0_1_1_n_n.lhsIdx i q 1).val = (i 0).val := by
  unfold DotDims.lhsIdx
  rw [dif_neg (show ¬(1 : Fin S5000x64.rank) ∈ dot_S5000x64_S5000x32_S64x32_0_0_1_1_n_n.lhsBatch by decide),
    dif_pos (show (1 : Fin S5000x64.rank) ∈ dot_S5000x64_S5000x32_S64x32_0_0_1_1_n_n.lhsNonContracting by decide)]
  rfl
/-- … and its right operand (the features, contracted over their rows) at (row, feature). -/
theorem rhs_pool_0 (i : S64x32.Idx) (q : dot_S5000x64_S5000x32_S64x32_0_0_1_1_n_n.contr.Idx) :
    (dot_S5000x64_S5000x32_S64x32_0_0_1_1_n_n.rhsIdx i q 0).val = (q ⟨0, by decide⟩).val :=
  dot_S5000x64_S5000x32_S64x32_0_0_1_1_n_n.rhsIdx_val_of_single rfl i q
theorem rhs_pool_1 (i : S64x32.Idx) (q : dot_S5000x64_S5000x32_S64x32_0_0_1_1_n_n.contr.Idx) :
    (dot_S5000x64_S5000x32_S64x32_0_0_1_1_n_n.rhsIdx i q 1).val = (i 1).val := by
  unfold DotDims.rhsIdx
  rw [dif_neg (show ¬(1 : Fin S5000x32.rank) ∈ dot_S5000x64_S5000x32_S64x32_0_0_1_1_n_n.rhsBatch by decide),
    dif_pos (show (1 : Fin S5000x32.rank) ∈ dot_S5000x64_S5000x32_S64x32_0_0_1_1_n_n.rhsNonContracting by decide)]
  rfl

/-- Sums and products of equal extended reals are equal. -/
theorem sum_of_eq {a a' b b' : EReal} (h1 : a = a') (h2 : b = b') : a + b = a' + b' := h1 ▸ h2 ▸ rfl
theorem prod_of_eq {a a' b b' : EReal} (h1 : a = a') (h2 : b = b') : a * b = a' * b' := h1 ▸ h2 ▸ rfl

/-- THE INCREASE. Entry `(g, d)` of what a point stores is the carried entry plus the sum, over the point's 5000 rows,
    of the row's feature `d` where the row's graph is `g`. -/
theorem poolStep_apply (x : Vec Ideal S5000x32 .f32) (gid : Vec Ideal S5000x1 .i32) (acc : Vec Ideal S64x32 .f32)
    (g : Fin 64) (d : Fin 32) :
    k8_pay2 x gid acc (ix2 g d)
      = acc (ix2 g d) + ∑ r : Fin 5000, (if gid (ix2 r 0) = BitVec.ofNat 32 g.val then (1 : EReal) else 0) * x (ix2 r d) := by
  unfold k8_pay2
  dsimp only
  refine (addf_apply _ _ (ix2 g d)).trans ?_
  refine sum_of_eq (congrFun (shapeCast_self acc shapeCasts_S64x32_S64x32) (ix2 g d)) ?_
  refine (Ideal.matmul_constant_zero_apply dot_S5000x64_S5000x32_S64x32_0_0_1_1_n_n none _ _ (ix2 g d)).trans ?_
  rw [← Equiv.sum_comp (contrEquiv1 dot_S5000x64_S5000x32_S64x32_0_0_1_1_n_n 5000 rfl rfl).symm]
  refine Finset.sum_congr rfl fun r _ => ?_
  have hk := contrEquiv1_symm_val dot_S5000x64_S5000x32_S64x32_0_0_1_1_n_n 5000 rfl rfl r
  have el : dot_S5000x64_S5000x32_S64x32_0_0_1_1_n_n.lhsIdx (ix2 g d)
      ((contrEquiv1 dot_S5000x64_S5000x32_S64x32_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x64_S5000x32_S64x32_0_0_1_1_n_n.rhsIdx (ix2 g d)
      ((contrEquiv1 dot_S5000x64_S5000x32_S64x32_0_0_1_1_n_n 5000 rfl rfl).symm r) = ix2 r d := funext fun a => Fin.ext (by
    match a with
    | ⟨0, _⟩ => exact (rhs_pool_0 _ _).trans hk
    | ⟨1, _⟩ => exact rhs_pool_1 _ _)
  rw [el, er]
  exact prod_of_eq (membership_apply gid r g)
    ((truncf_apply _ bitsLt_bf16_f32 (ix2 r d)).trans (congrFun (shapeCast_self x shapeCasts_S5000x32_S5000x32) (ix2 r d)))

/-- The block the first point stores before it adds is zero everywhere. -/
theorem poolZero_apply (g : Fin 64) (d : Fin 32) : (k8_pay1 : FVec Ideal S64x32 .f32) (ix2 g d) = 0 := by
  show Ideal.ofBits .f32 0x00000000#32 = 0
  exact Ideal.ofBits_zero_f32

/-! ## The point's blocks, read where their rectangles say -/

/-- The node features and the graph ids as the region finds them, and their blocks at a point, at their literal types. -/
abbrev feat (c : Dev nD) : Vec Ideal S100000x32 .f32 := V c main_v82
abbrev gids (c : Dev nD) : Vec Ideal S100000x1 .i32 := V c main_v0
abbrev featBlk (c : Dev nD) (t : Fin cfg8.N) : Vec Ideal S5000x32 .f32 := iblk8 V c 0 t
abbrev gidsBlk (c : Dev nD) (t : Fin cfg8.N) : Vec Ideal S5000x1 .i32 := iblk8 V c 1 t

/-- The printed index maps, decided over the grid: the two input windows walk down the rows block by block, the output
    window stays on its one block. -/
theorem poolIndex : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0 :=
  (by decide +kernel : ∀ t : Fin grid8.N, _)

/-- Row `r` of point `t`'s feature block is node `5000 t + r`. -/
theorem featBlk_apply (c : Dev nD) (t : Fin cfg8.N) (r : Fin 5000) (d : Fin 32) (h : 5000 * t.val + r.val < 100000) :
    featBlk V c t (ix2 r d) = feat V c (ix2 ⟨5000 * t.val + r.val, h⟩ d) := by
  obtain ⟨e0, e1, -, -, -, -⟩ := poolIndex t
  show iblk8 V c 0 t (ix2 r d) = V c main_v82 _
  unfold iblk8
  rw [View.read_apply]
  show V c main_v82 _ = V c main_v82 _
  congr 1
  funext a
  apply Fin.ext
  match a with
  | ⟨0, _⟩ => show win8_0.index t (0 : Fin 2) * 5000 + 1 * r.val = 5000 * t.val + r.val; omega
  | ⟨1, _⟩ => show win8_0.index t (1 : Fin 2) * 32 + 1 * d.val = d.val; omega

/-- Row `r` of point `t`'s block of graph ids is node `5000 t + r`'s. -/
theorem gidsBlk_apply (c : Dev nD) (t : Fin cfg8.N) (r : Fin 5000) (h : 5000 * t.val + r.val < 100000) :
    gidsBlk V c t (ix2 r 0) = gids V c (ix2 ⟨5000 * t.val + r.val, h⟩ 0) := by
  obtain ⟨-, -, e0, e1, -, -⟩ := poolIndex t
  show iblk8 V c 1 t (ix2 r 0) = V c main_v0 _
  unfold iblk8
  rw [View.read_apply]
  show V c main_v0 _ = V c main_v0 _
  congr 1
  funext a
  apply Fin.ext
  match a with
  | ⟨0, _⟩ => show win8_1.index t (0 : Fin 2) * 5000 + 1 * r.val = 5000 * t.val + r.val; omega
  | ⟨1, _⟩ => show win8_1.index t (1 : Fin 2) * 1 + 1 * 0 = 0; omega

/-! ## The carried block after each point: the sum over the nodes seen so far -/

/-- Node `k`'s share of graph `g`'s sum in feature `d`: its feature where its graph is `g` (nothing past the last node). -/
def share (c : Dev nD) (g : Fin 64) (d : Fin 32) (k : ℕ) : EReal :=
  if h : k < 100000 then
    (if gids V c (ix2 ⟨k, h⟩ 0) = BitVec.ofNat 32 g.val then (1 : EReal) else 0) * feat V c (ix2 ⟨k, h⟩ d)
  else 0

/-- A point adds, at `(g, d)`, the shares of its own 5000 nodes. -/
theorem poolStep_shares (c : Dev nD) (t : Fin cfg8.N) (acc : Vec Ideal S64x32 .f32) (g : Fin 64) (d : Fin 32) :
    k8_pay2 (featBlk V c t) (gidsBlk V c t) acc (ix2 g d)
      = acc (ix2 g d) + ∑ r ∈ Finset.range 5000, share V c g d (5000 * t.val + r) := by
  have hN : cfg8.N = 20 := N_8
  have ht : t.val < 20 := lt_of_lt_of_eq t.isLt hN
  refine (poolStep_apply (featBlk V c t) (gidsBlk V c t) acc g d).trans (congrArg (acc (ix2 g d) + ·) ?_)
  rw [Finset.sum_range]
  refine Finset.sum_congr rfl fun r _ => ?_
  have hr : r.val < 5000 := r.isLt
  have h : 5000 * t.val + r.val < 100000 := by omega
  unfold share
  rw [dif_pos h, featBlk_apply V c t r d h, gidsBlk_apply V c t r h]

/-- The first point leaves the increase of the zero block; a later one the increase of what the point before left. -/
theorem carriedFirst (c : Dev nD) (t : Fin cfg8.N) (h0 : t.val % 20 = 0) :
    outsAt8 V c t.val t.isLt = k8_pay2 (featBlk V c t) (gidsBlk V c t) (k8_pay1 (F := Ideal)) :=
  (outsAt8_A V c t h0).trans
    (poolFirst c (grid8.coords t) (ms8_0 t) (hs8_0 t) (ms8_1 t) (hs8_1 t) (ms8_2 t) (hs8_2 t) ((hcond8_0 t).mpr h0)
      (featBlk V c t) (gidsBlk V c t))
theorem carriedLater (c : Dev nD) (t : Fin cfg8.N) (h0 : ¬t.val % 20 = 0) :
    outsAt8 V c t.val t.isLt = k8_pay2 (featBlk V c t) (gidsBlk V c t)
      (outsAt8 V c (t.val - 1) (Nat.lt_of_le_of_lt (Nat.sub_le _ _) t.isLt)) :=
  (outsAt8_B V c t h0).trans
    (poolLater c (grid8.coords t) (ms8_0 t) (hs8_0 t) (ms8_1 t) (hs8_1 t) (ms8_2 t) (hs8_2 t) (fun h => h0 ((hcond8_0 t).mp h))
      (featBlk V c t) (gidsBlk V c t) (outsAt8 V c (t.val - 1) (Nat.lt_of_le_of_lt (Nat.sub_le _ _) t.isLt)))

/-- THE INVARIANT. After point `t` the carried block holds, at `(g, d)`, the shares of the first `5000 (t + 1)` nodes:
    by induction on the point. -/
theorem carried_eq (c : Dev nD) (g : Fin 64) (d : Fin 32) : ∀ (t : ℕ) (ht : t < cfg8.N),
    outsAt8 V c t ht (ix2 g d) = ∑ k ∈ Finset.range (5000 * (t + 1)), share V c g d k
  | 0, ht => by
    refine (congrFun (carriedFirst V c ⟨0, ht⟩ rfl) (ix2 g d)).trans ?_
    refine (poolStep_shares V c ⟨0, ht⟩ (k8_pay1 (F := Ideal)) g d).trans ?_
    rw [poolZero_apply, zero_add]
    refine Finset.sum_congr rfl fun r _ => ?_
    show share V c g d (5000 * 0 + r) = _
    rw [Nat.mul_zero, Nat.zero_add]
  | n + 1, hn => by
    have hN : cfg8.N = 20 := N_8
    have hB : ¬(⟨n + 1, hn⟩ : Fin cfg8.N).val % 20 = 0 := by dsimp only; omega
    refine (congrFun (carriedLater V c ⟨n + 1, hn⟩ hB) (ix2 g d)).trans ?_
    refine (poolStep_shares V c ⟨n + 1, hn⟩ _ g d).trans ?_
    show outsAt8 V c n _ (ix2 g d) + ∑ r ∈ Finset.range 5000, share V c g d (5000 * (n + 1) + r) = _
    rw [carried_eq c g d n (Nat.lt_of_succ_lt hn), show 5000 * (n + 1 + 1) = 5000 * (n + 1) + 5000 from by omega,
      Finset.sum_range_add]

/-! ## The output array after the run -/

/-- The per-graph sums as contents of the output array. -/
abbrev pooled (c : Dev nD) : Buf (Elt Ideal) ((c : Thread nD τ).loc main_v83) := Fns.pool (feat V c) (gids V c)

/-- After the last point the carried block holds the sums over all nodes. -/
theorem carriedLast (c : Dev nD) (t : Fin cfg8.N) (h19 : t.val = 19) : outsAt8 V c t.val t.isLt = pooled V c := by
  funext i
  obtain ⟨g, d, rfl⟩ : ∃ (g : Fin 64) (d : Fin 32), i = ix2 g d := ⟨i 0, i 1, eq_ix2 i⟩
  rw [carried_eq V c g d t.val t.isLt, h19]
  show ∑ k ∈ Finset.range 100000, share V c g d k
    = ∑ n : Fin 100000, (if gids V c (ix2 n 0) = BitVec.ofNat 32 g.val then (1 : EReal) else 0) * feat V c (ix2 n d)
  rw [Finset.sum_range]
  refine Finset.sum_congr rfl fun n _ => ?_
  unfold share
  rw [dif_pos n.isLt]

/-- The one write-back, at the last point, writes them: the window's one block, read through zero offsets, is the array. -/
theorem poolFlushed (c : Dev nD) (t : Fin cfg8.N) (hf : (cfg8.win 2).flush t = true) :
    (dat8 V c).flushed 2 t = ((cfg8.win 2).blk t).view.read (Elt Ideal) (pooled V c) := by
  have hN : cfg8.N = 20 := N_8
  have h19 : t.val = 19 := by have := (flush8_2 t).mp hf; have := t.isLt; omega
  obtain ⟨-, -, -, -, e0, e1⟩ := poolIndex t
  show (cfg8.win 2).cut (grid8.coords t) ((dat8 V c).after 2 t) = _
  rw [after8_2, carriedLast V c t h19]
  have hz' : (fun a => win8_2.index t a * main_v83.ty.shape.size a) = fun _ => 0 := funext fun a => by
    match a with
    | ⟨0, _⟩ => show win8_2.index t (0 : Fin 2) * 64 = 0; omega
    | ⟨1, _⟩ => show win8_2.index t (1 : Fin 2) * 32 = 0; omega
  exact (Memref.read_access_unit_zero (Elt Ideal) main_v83 hz' (fun a => by rw [congrFun hz' a]; simp) (pooled V c)).symm

/-- An index of the array is in point `t`'s block iff each coordinate is in the block's range on its axis. -/
theorem mem_poolBlk (t : Fin cfg8.N) (i : S64x32.Idx) :
    i ∈ ((cfg8.win 2).blk t).view.set ↔ ∀ a : Fin 2, win8_2.index t a * S64x32.size a ≤ (i a).val ∧ (i a).val < win8_2.index t a * S64x32.size a + S64x32.size a := by
  show i ∈ ((View.whole main_v83).slice (win8_2.rect t)).set ↔ _
  rw [View.set_slice_whole, Rect.mem_set_unit]
  exact Iff.rfl

/-- The output array of region 8 after the run, as one function of the two input arrays as the region finds them. -/
theorem arr8 (c : Dev nD) : (dat8 V c).arrAt 2 cfg8.N = Fns.pool (V c main_v82) (V c main_v0) :=
  (dat8 V c).arrAt_eq_of_cover 2 (pooled V c) (poolFlushed V c) fun i => by
    have hN : cfg8.N = 20 := N_8
    have hL : 19 < cfg8.N := by omega
    obtain ⟨-, -, -, -, e0, e1⟩ := poolIndex ⟨19, hL⟩
    refine ⟨⟨19, hL⟩, (flush8_2 _).mpr rfl, ?_⟩
    rw [mem_poolBlk]
    intro a
    have h0 : (i 0 : Nat) < 64 := (i 0).isLt
    have h1 : (i 1 : Nat) < 32 := (i 1).isLt
    match a with
    | ⟨0, _⟩ => show win8_2.index ⟨19, hL⟩ (0 : Fin 2) * 64 ≤ (i 0).val ∧ (i 0).val < win8_2.index ⟨19, hL⟩ (0 : Fin 2) * 64 + 64; omega
    | ⟨1, _⟩ => show win8_2.index ⟨19, hL⟩ (1 : Fin 2) * 32 ≤ (i 1).val ∧ (i 1).val < win8_2.index ⟨19, hL⟩ (1 : Fin 2) * 32 + 32; omega

end Cert.KernelIdeal.KV

end
-- ==== Proof.KReg9.lean ====
/-
  Region 9 (the two small dense layers and the softmax): one grid point whose blocks are the whole arrays, so the
  output array after the run is the body's one stored value of the five input arrays.
-/
import proofs.«412697_j56040733278666_2_alg».proof.Proof.Gen.KernelIdeal.Frame
import proofs.«412697_j56040733278666_2_alg».proof.Proof.Fns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero block offsets, however spelt. -/
theorem zero_off9 : (![0, 0] : Fin 2 → Nat) = fun _ => 0 := funext fun a => by
  match a with
  | ⟨0, _⟩ => rfl
  | ⟨1, _⟩ => rfl

/-- The region's index maps at the grid's one point: every window sits at block index (0, 0). -/
theorem index9 : ∀ t : Fin cfg9.N,
    win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

/-! ## A block at block index (0, 0) whose extent is the array's is the array -/

/-- Window 0 (the pooled features, 64×32): the block's element `y` is the array's element `y`. -/
theorem emb9_0 (t : Fin cfg9.N) (y : S64x32.Idx) : ((cfg9.win 0).blk t).view.emb y = y := by
  obtain ⟨e0, e1, -, -, -, -, -, -, -, -, -, -⟩ := index9 t
  funext a; apply Fin.ext
  match a with
  | ⟨0, _⟩ => show win9_0.index t (0 : Fin 2) * 64 + 1 * (y 0).val = (y 0).val; omega
  | ⟨1, _⟩ => show win9_0.index t (1 : Fin 2) * 32 + 1 * (y 1).val = (y 1).val; omega

/-- Window 1 (the first dense layer's weights, 32×8): the block's element `y` is the array's element `y`. -/
theorem emb9_1 (t : Fin cfg9.N) (y : S32x8.Idx) : ((cfg9.win 1).blk t).view.emb y = y := by
  obtain ⟨-, -, e0, e1, -, -, -, -, -, -, -, -⟩ := index9 t
  funext a; apply Fin.ext
  match a with
  | ⟨0, _⟩ => show win9_1.index t (0 : Fin 2) * 32 + 1 * (y 0).val = (y 0).val; omega
  | ⟨1, _⟩ => show win9_1.index t (1 : Fin 2) * 8 + 1 * (y 1).val = (y 1).val; omega

/-- Window 2 (the first dense layer's bias row, 1×8): the block's element `y` is the array's element `y`. -/
theorem emb9_2 (t : Fin cfg9.N) (y : S1x8.Idx) : ((cfg9.win 2).blk t).view.emb y = y := by
  obtain ⟨-, -, -, -, e0, e1, -, -, -, -, -, -⟩ := index9 t
  funext a; apply Fin.ext
  match a with
  | ⟨0, _⟩ => show win9_2.index t (0 : Fin 2) * 1 + 1 * (y 0).val = (y 0).val; omega
  | ⟨1, _⟩ => show win9_2.index t (1 : Fin 2) * 8 + 1 * (y 1).val = (y 1).val; omega

/-- Window 3 (the second dense layer's weights, 8×4): the block's element `y` is the array's element `y`. -/
theorem emb9_3 (t : Fin cfg9.N) (y : S8x4.Idx) : ((cfg9.win 3).blk t).view.emb y = y := by
  obtain ⟨-, -, -, -, -, -, e0, e1, -, -, -, -⟩ := index9 t
  funext a; apply Fin.ext
  match a with
  | ⟨0, _⟩ => show win9_3.index t (0 : Fin 2) * 8 + 1 * (y 0).val = (y 0).val; omega
  | ⟨1, _⟩ => show win9_3.index t (1 : Fin 2) * 4 + 1 * (y 1).val = (y 1).val; omega

/-- Window 4 (the second dense layer's bias row, 1×4): the block's element `y` is the array's element `y`. -/
theorem emb9_4 (t : Fin cfg9.N) (y : S1x4.Idx) : ((cfg9.win 4).blk t).view.emb y = y := by
  obtain ⟨-, -, -, -, -, -, -, -, e0, e1, -, -⟩ := index9 t
  funext a; apply Fin.ext
  match a with
  | ⟨0, _⟩ => show win9_4.index t (0 : Fin 2) * 1 + 1 * (y 0).val = (y 0).val; omega
  | ⟨1, _⟩ => show win9_4.index t (1 : Fin 2) * 4 + 1 * (y 1).val = (y 1).val; omega

/-- Window 5 (the class probabilities, 64×4): the block's element `y` is the array's element `y`. -/
theorem emb9_5 (t : Fin cfg9.N) (y : S64x4.Idx) : ((cfg9.win 5).blk t).view.emb y = y := by
  obtain ⟨-, -, -, -, -, -, -, -, -, -, e0, e1⟩ := index9 t
  funext a; apply Fin.ext
  match a with
  | ⟨0, _⟩ => show win9_5.index t (0 : Fin 2) * 64 + 1 * (y 0).val = (y 0).val; omega
  | ⟨1, _⟩ => show win9_5.index t (1 : Fin 2) * 4 + 1 * (y 1).val = (y 1).val; omega

/-! ## The five input blocks are the five arrays -/

theorem blk9_0 (c : Dev nD) (t : Fin cfg9.N) : iblk9 V c 0 t = V c main_v83 :=
  funext fun y => congrArg (V c main_v83) (emb9_0 t y)

theorem blk9_1 (c : Dev nD) (t : Fin cfg9.N) : iblk9 V c 1 t = V c main_arg7 :=
  funext fun y => congrArg (V c main_arg7) (emb9_1 t y)

theorem blk9_2 (c : Dev nD) (t : Fin cfg9.N) : iblk9 V c 2 t = V c main_v84 :=
  funext fun y => congrArg (V c main_v84) (emb9_2 t y)

theorem blk9_3 (c : Dev nD) (t : Fin cfg9.N) : iblk9 V c 3 t = V c main_arg9 :=
  funext fun y => congrArg (V c main_arg9) (emb9_3 t y)

theorem blk9_4 (c : Dev nD) (t : Fin cfg9.N) : iblk9 V c 4 t = V c main_v85 :=
  funext fun y => congrArg (V c main_v85) (emb9_4 t y)

/-! ## What the point writes back, the cover, the array -/

/-- What the one point writes back to the output array: the body's value of the five input ARRAYS, read through the
    point's block (the store fills the whole buffer, each load reads a whole buffer, each buffer holds its array). -/
theorem flushed9 (c : Dev nD) (t : Fin cfg9.N) :
    (dat9 V c).flushed 5 t = ((cfg9.win 5).blk t).view.read (Elt Ideal)
      (k9_pay1 (F := Ideal) (V c main_v83) (V c main_arg7) (V c main_v84) (V c main_arg9) (V c main_v85)) := by
  show (cfg9.win 5).cut (grid9.coords t) ((dat9 V c).after 5 t) = _
  rw [after9_5]
  unfold out9_5
  rw [View.canon_unit_zero zero_off9]
  simp only [View.ld_unit_zero (S := S64x32) zero_off9, View.ld_unit_zero (S := S32x8) zero_off9,
    View.ld_unit_zero (S := S1x8) zero_off9, View.ld_unit_zero (S := S8x4) zero_off9,
    View.ld_unit_zero (S := S1x4) zero_off9]
  rw [blk9_0, blk9_1, blk9_2, blk9_3, blk9_4]
  funext y
  exact (congrArg (k9_pay1 (F := Ideal) (V c main_v83) (V c main_arg7) (V c main_v84) (V c main_arg9) (V c main_v85))
    (emb9_5 t y)).symm

/-- An index of the output array is in the point's block iff each coordinate is in the block's range on its axis. -/
theorem mem_blk9 (t : Fin cfg9.N) (i : S64x4.Idx) :
    i ∈ ((cfg9.win 5).blk t).view.set ↔ ∀ a : Fin 2, win9_5.index t a * S64x4.size a ≤ (i a).val
      ∧ (i a).val < win9_5.index t a * S64x4.size a + S64x4.size a := by
  show i ∈ ((View.whole main_v86).slice (win9_5.rect t)).set ↔ _
  rw [View.set_slice_whole, Rect.mem_set_unit]
  exact Iff.rfl

/-- The one block is the whole 64×4 array: every index is in it. -/
theorem cover9 (i : S64x4.Idx) :
    ∃ t : Fin cfg9.N, (cfg9.win 5).flush t = true ∧ i ∈ ((cfg9.win 5).blk t).view.set := by
  obtain ⟨-, -, -, -, -, -, -, -, -, -, e0, e1⟩ := index9 t9_0
  have hi0 : (i 0).val < 64 := (i 0).isLt
  have hi1 : (i 1).val < 4 := (i 1).isLt
  refine ⟨t9_0, flush9_5 t9_0, ?_⟩
  rw [mem_blk9]
  intro a
  match a with
  | ⟨0, _⟩ => show win9_5.index t9_0 (0 : Fin 2) * 64 ≤ (i 0).val ∧ (i 0).val < win9_5.index t9_0 (0 : Fin 2) * 64 + 64; omega
  | ⟨1, _⟩ => show win9_5.index t9_0 (1 : Fin 2) * 4 ≤ (i 1).val ∧ (i 1).val < win9_5.index t9_0 (1 : Fin 2) * 4 + 4; omega

/-- The output array of region 9 after the run: the body's value of the five input arrays as the region finds them. -/
theorem arr9 (c : Dev nD) : (dat9 V c).arrAt 5 cfg9.N
    = k9_pay1 (F := Ideal) (V c main_v83) (V c main_arg7) (V c main_v84) (V c main_arg9) (V c main_v85) :=
  (dat9 V c).arrAt_eq_of_cover 5 _ (fun t _ => flushed9 V c t) cover9

end Cert.KernelIdeal.KV

end
-- ==== Proof.RefFns.lean ====
/-
  The reference's operations grouped as functions, at the ideal instance: the messages summed along the edges, one
  graph-convolution layer (the neighbours' product gathered and summed, plus the bias, plus the node's own product,
  positive part), the per-graph sums as an accumulating scatter, and the two small dense layers with the softmax.
-/
import proofs.«412697_j56040733278666_2_alg».proof.Proof.Gen.ReferenceIdeal
import Idealize.ShloMosaic.PureOps.Ideal

noncomputable section

namespace Cert.ReferenceIdeal.RF

open Cert.ReferenceIdeal Cert.ReferenceIdeal.Gen Idealize.ShloMosaic

/-- The messages summed at each node: row `src e` of `rhs` (a negative source counted from the end) added into row
    `dst e`, over all edges `e`. -/
def agg (rhs : FVec Ideal S100000x32 .f32) (src dst : IVec S3200000 32) : FVec Ideal S100000x32 .f32 :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (Host.gather gather_S100000x32_S3200000x1_S3200000x32_1_0_n_n_0_1_132 rhs
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The first layer (128 input features): `max ((agg (h·A) + b) + h·B) 0`. -/
def layer128 (h : FVec Ideal S100000x128 .f32) (A B : FVec Ideal S128x32 .f32) (b : FVec Ideal S32 .f32)
    (src dst : IVec S3200000 32) : FVec Ideal S100000x32 .f32 :=
  maximumf
    (addf
      (addf (agg (Host.dotGeneral (F := Ideal) dot_S100000x128_S128x32_S100000x32_1_0_0_1_n_n none h A) src dst)
        (broadcastInDim S100000x32 ![0, 1] bcast_S1x32_S100000x32_0_1 (broadcastInDim S1x32 ![1] bcast_S32_S1x32_1 b)))
      (Host.dotGeneral (F := Ideal) dot_S100000x128_S128x32_S100000x32_1_0_0_1_n_n none h B))
    (broadcastInDim S100000x32 ![] bcast_S_S100000x32 (constant (F := Ideal) S_ .f32 0x00000000#32))

/-- A later layer (32 input features): `max ((agg (h·A) + b) + h·B) 0`. -/
def layer32 (h : FVec Ideal S100000x32 .f32) (A B : FVec Ideal S32x32 .f32) (b : FVec Ideal S32 .f32)
    (src dst : IVec S3200000 32) : FVec Ideal S100000x32 .f32 :=
  maximumf
    (addf
      (addf (agg (Host.dotGeneral (F := Ideal) dot_S100000x32_S32x32_S100000x32_1_0_0_1_n_n none h A) src dst)
        (broadcastInDim S100000x32 ![0, 1] bcast_S1x32_S100000x32_0_1 (broadcastInDim S1x32 ![1] bcast_S32_S1x32_1 b)))
      (Host.dotGeneral (F := Ideal) dot_S100000x32_S32x32_S100000x32_1_0_0_1_n_n none h B))
    (broadcastInDim S100000x32 ![] bcast_S_S100000x32 (constant (F := Ideal) S_ .f32 0x00000000#32))

/-- The per-graph sums: row `n` of `H` added into row `gid n` of a zero 64×32 array (a row whose graph id is outside
    0..63 is dropped). -/
def pool (H : FVec Ideal S100000x32 .f32) (gid : IVec S100000 32) : FVec Ideal S64x32 .f32 :=
  Host.scatterAdd (F := Ideal) scatter_S64x32_S100000x1_S100000x32_1_0_0_1
    (broadcastInDim S64x32 ![] bcast_S_S64x32 (constant (F := Ideal) S_ .f32 0x00000000#32))
    (broadcastInDim S100000x1 ![0] bcast_S100000_S100000x1_0 gid) H

/-- The first small dense layer: `max (hg·W1 + b1) 0`. -/
def fc1 (hg : FVec Ideal S64x32 .f32) (W1 : FVec Ideal S32x8 .f32) (b1 : FVec Ideal S8 .f32) : FVec Ideal S64x8 .f32 :=
  maximumf
    (addf (Host.dotGeneral (F := Ideal) dot_S64x32_S32x8_S64x8_1_0_0_1_n_n none hg W1)
      (broadcastInDim S64x8 ![0, 1] bcast_S1x8_S64x8_0_1 (broadcastInDim S1x8 ![1] bcast_S8_S1x8_1 b1)))
    (broadcastInDim S64x8 ![] bcast_S_S64x8 (constant (F := Ideal) S_ .f32 0x00000000#32))

/-- The second small dense layer: `max (y·W2 + b2) 0`. -/
def fc2 (y : FVec Ideal S64x8 .f32) (W2 : FVec Ideal S8x4 .f32) (b2 : FVec Ideal S4 .f32) : FVec Ideal S64x4 .f32 :=
  maximumf
    (addf (Host.dotGeneral (F := Ideal) dot_S64x8_S8x4_S64x4_1_0_0_1_n_n none y W2)
      (broadcastInDim S64x4 ![0, 1] bcast_S1x4_S64x4_0_1 (broadcastInDim S1x4 ![1] bcast_S4_S1x4_1 b2)))
    (broadcastInDim S64x4 ![] bcast_S_S64x4 (constant (F := Ideal) S_ .f32 0x00000000#32))

/-- Each entry's exponential after subtracting its row's maximum (the maximum taken against `-∞`). -/
def expShift (z : FVec Ideal S64x4 .f32) : FVec Ideal S64x4 .f32 :=
  Host.exp (F := Ideal) (subf z
    (broadcastInDim S64x4 ![0, 1] bcast_S64x1_S64x4_0_1 (broadcastInDim S64x1 ![0] bcast_S64_S64x1_0
      (maximumf (broadcastInDim S64 ![] bcast_S_S64 (constant (F := Ideal) S_ .f32 0xFF800000#32))
        (Host.reduce (FloatOps.maximumf (F := Ideal) (φ := .f32)) z (constant (F := Ideal) S_ .f32 0xFF800000#32) reducesTo_S64x4_S64_d1 h_S_)))))

/-- The row-wise softmax: the shifted exponentials over their row's sum. -/
def softmax (z : FVec Ideal S64x4 .f32) : FVec Ideal S64x4 .f32 :=
  Host.divf (F := Ideal) (expShift z)
    (broadcastInDim S64x4 ![0, 1] bcast_S64x1_S64x4_0_1 (broadcastInDim S64x1 ![0] bcast_S64_S64x1_0
      (Host.reduceAdd (F := Ideal) (expShift z) (constant (F := Ideal) S_ .f32 0x00000000#32) reducesTo_S64x4_S64_d1 h_S_)))

/-- The head: the two small dense layers, then the softmax. -/
def head (hg : FVec Ideal S64x32 .f32) (W1 : FVec Ideal S32x8 .f32) (b1 : FVec Ideal S8 .f32) (W2 : FVec Ideal S8x4 .f32)
    (b2 : FVec Ideal S4 .f32) : FVec Ideal S64x4 .f32 :=
  softmax (fc2 (fc1 hg W1 b1) W2 b2)

end Cert.ReferenceIdeal.RF

end
-- ==== Proof.RefVal.lean ====
/-
  The reference's stages, grouped: the features after each layer are one layer function of the features before it, the
  per-graph sums an accumulating scatter of the last features, the result the head of the sums. Each equation holds by
  unfolding the stages' definitions: the grouped functions are the same operations in the same order.
-/
import proofs.«412697_j56040733278666_2_alg».proof.Proof.Gen.ReferenceIdeal.Run
import proofs.«412697_j56040733278666_2_alg».proof.Proof.Gen.ReferenceIdeal.Read
import proofs.«412697_j56040733278666_2_alg».proof.Proof.RefFns

noncomputable section

namespace Cert.ReferenceIdeal.RefVal

open Cert.ReferenceIdeal Cert.ReferenceIdeal.Gen Cert.ReferenceIdeal.Read Idealize.ShloMosaic

variable (x0 : FVec Ideal S100000x128 .f32) (x1 : FVec Ideal S128x32 .f32) (x2 : FVec Ideal S32 .f32) (x3 : FVec Ideal S128x32 .f32)
  (x4 : FVec Ideal S3x32x32 .f32) (x5 : FVec Ideal S3x32 .f32) (x6 : FVec Ideal S3x32x32 .f32) (x7 : FVec Ideal S32x8 .f32)
  (x8 : FVec Ideal S8 .f32) (x9 : FVec Ideal S8x4 .f32) (x10 : FVec Ideal S4 .f32) (x11 x12 : IVec S3200000 32)
  (x13 : IVec S100000 32)

/-- The features after layer 0. -/
theorem v16_eq : val_main_v16 (F := Ideal) x0 x1 x2 x3 x11 x12 = RF.layer128 x0 x1 x3 x2 x11 x12 := rfl
/-- The features after layer 1. -/
theorem v39_eq : val_main_v39 (F := Ideal) x0 x1 x2 x3 x4 x5 x6 x11 x12
    = RF.layer32 (val_main_v16 (F := Ideal) x0 x1 x2 x3 x11 x12) (val_main_v18 (F := Ideal) x4) (val_main_v22 (F := Ideal) x6) (val_main_v20 (F := Ideal) x5) x11 x12 := rfl
/-- The features after layer 2. -/
theorem v62_eq : val_main_v62 (F := Ideal) x0 x1 x2 x3 x4 x5 x6 x11 x12
    = RF.layer32 (val_main_v39 (F := Ideal) x0 x1 x2 x3 x4 x5 x6 x11 x12) (val_main_v41 (F := Ideal) x4) (val_main_v45 (F := Ideal) x6) (val_main_v43 (F := Ideal) x5) x11 x12 := rfl
/-- The features after layer 3. -/
theorem v85_eq : val_main_v85 (F := Ideal) x0 x1 x2 x3 x4 x5 x6 x11 x12
    = RF.layer32 (val_main_v62 (F := Ideal) x0 x1 x2 x3 x4 x5 x6 x11 x12) (val_main_v64 (F := Ideal) x4) (val_main_v68 (F := Ideal) x6) (val_main_v66 (F := Ideal) x5) x11 x12 := rfl
/-- The per-graph sums. -/
theorem v88_eq : val_main_v88 (F := Ideal) x0 x1 x2 x3 x4 x5 x6 x11 x12 x13 = RF.pool (val_main_v85 (F := Ideal) x0 x1 x2 x3 x4 x5 x6 x11 x12) x13 := rfl
/-- The result. -/
theorem v109_eq : val_main_v109 (F := Ideal) x0 x1 x2 x3 x4 x5 x6 x7 x8 x9 x10 x11 x12 x13 = RF.head (val_main_v88 (F := Ideal) x0 x1 x2 x3 x4 x5 x6 x11 x12 x13) x7 x8 x9 x10 := rfl

end Cert.ReferenceIdeal.RefVal

end
-- ==== Proof.BrLayer0.lean ====
/-
  One graph-convolution layer, the kernel's way and the reference's, is one function of the features, the two weight
  matrices, the bias and the edges. The kernel multiplies the features by the two matrices side by side and slices
  the product's halves apart; a column of the left (right) half is the same sum of products as the column of the
  features against the first (second) matrix alone. The messages are the same host operations of equal arrays. The
  kernel adds "messages + own product" and then the bias, the reference "messages + bias" and then the own product:
  addition of extended reals is commutative and associative, so the sums agree, and both take the maximum with zero.
-/
import proofs.«412697_j56040733278666_2_alg».proof.Proof.KFns
import proofs.«412697_j56040733278666_2_alg».proof.Proof.RefFns
import proofs.«412697_j56040733278666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-! ## The reference's product of the features with one matrix, at an index -/

/-- The left operand (the features) is read at (the result's row, the contraction position) … -/
theorem lhs_dot_0_128 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x32_S100000x32_1_0_0_1_n_n.lhsBatch by decide),
    dif_pos (show (0 : Fin Cert.ReferenceIdeal.S100000x128.rank) ∈ Cert.ReferenceIdeal.dot_S100000x128_S128x32_S100000x32_1_0_0_1_n_n.lhsNonContracting by decide)]
  rfl
theorem lhs_dot_1_128 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 1).val = (q ⟨0, by decide⟩).val :=
  Cert.ReferenceIdeal.dot_S100000x128_S128x32_S100000x32_1_0_0_1_n_n.lhsIdx_val_of_single rfl i q
/-- … and the right operand (the matrix) at (the contraction position, the result's column). -/
theorem rhs_dot_0_128 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 0).val = (q ⟨0, by decide⟩).val :=
  Cert.ReferenceIdeal.dot_S100000x128_S128x32_S100000x32_1_0_0_1_n_n.rhsIdx_val_of_single rfl i q
theorem rhs_dot_1_128 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 1).val = (i 1).val := by
  unfold DotDims.rhsIdx
  rw [dif_neg (show ¬(1 : Fin Cert.ReferenceIdeal.S128x32.rank) ∈ Cert.ReferenceIdeal.dot_S100000x128_S128x32_S100000x32_1_0_0_1_n_n.rhsBatch by decide),
    dif_pos (show (1 : Fin Cert.ReferenceIdeal.S128x32.rank) ∈ Cert.ReferenceIdeal.dot_S100000x128_S128x32_S100000x32_1_0_0_1_n_n.rhsNonContracting by decide)]
  rfl

/-- Entry `(r, j)` of the features times a matrix is row `r` of the features against column `j` of the matrix. -/
theorem dot_apply128 (x : FVec Ideal Cert.ReferenceIdeal.S100000x128 .f32) (W : FVec Ideal Cert.ReferenceIdeal.S128x32 .f32) (r : Fin 100000) (j : Fin 32) :
    Host.dotGeneral (F := Ideal) Cert.ReferenceIdeal.dot_S100000x128_S128x32_S100000x32_1_0_0_1_n_n none x W (ix2 r j) = ∑ k : Fin 128, x (ix2 r k) * W (ix2 k j) := by
  simp only [Host.dotGeneral]
  rw [Ideal.dotGeneral_apply, ← Equiv.sum_comp (contrEquiv1 Cert.ReferenceIdeal.dot_S100000x128_S128x32_S100000x32_1_0_0_1_n_n 128 rfl rfl).symm]
  refine Finset.sum_congr rfl fun k _ => ?_
  have hk := contrEquiv1_symm_val Cert.ReferenceIdeal.dot_S100000x128_S128x32_S100000x32_1_0_0_1_n_n 128 rfl rfl k
  have el : Cert.ReferenceIdeal.dot_S100000x128_S128x32_S100000x32_1_0_0_1_n_n.lhsIdx (ix2 r j) ((contrEquiv1 Cert.ReferenceIdeal.dot_S100000x128_S128x32_S100000x32_1_0_0_1_n_n 128 rfl rfl).symm k) = ix2 r k := funext fun a => Fin.ext (by
    match a with
    | ⟨0, _⟩ => exact lhs_dot_0_128 _ _
    | ⟨1, _⟩ => exact (lhs_dot_1_128 _ _).trans hk)
  have er : Cert.ReferenceIdeal.dot_S100000x128_S128x32_S100000x32_1_0_0_1_n_n.rhsIdx (ix2 r j) ((contrEquiv1 Cert.ReferenceIdeal.dot_S100000x128_S128x32_S100000x32_1_0_0_1_n_n 128 rfl rfl).symm k) = ix2 k j := funext fun a => Fin.ext (by
    match a with
    | ⟨0, _⟩ => exact (rhs_dot_0_128 _ _).trans hk
    | ⟨1, _⟩ => exact rhs_dot_1_128 _ _)
  rw [el, er]

/-! ## The two halves of the product with the matrices side by side -/

/-- Columns 0 to 31 of the features times `[A | B]` are the features times `A`: column `j` of `[A | B]` is `A`'s. -/
theorem halfL_lin128 (h : FVec Ideal Cert.KernelIdeal.S100000x128 .f32) (A B : FVec Ideal Cert.KernelIdeal.S128x32 .f32) :
    Cert.KernelIdeal.KV.halfL (Cert.KernelIdeal.Fns.lin128 h (Cert.KernelIdeal.KV.wcat128 A B)) = Host.dotGeneral (F := Ideal) Cert.ReferenceIdeal.dot_S100000x128_S128x32_S100000x32_1_0_0_1_n_n none h A := by
  funext i
  obtain ⟨r, j, rfl⟩ : ∃ (r : Fin 100000) (j : Fin 32), i = ix2 r j := ⟨i 0, i 1, eq_ix2 i⟩
  have hj : j.val < 64 := by have := j.isLt; omega
  refine Eq.trans ?_ (dot_apply128 h A r j).symm
  unfold Cert.KernelIdeal.KV.halfL
  refine (extractStridedSlice_apply ![0, 0] _ Cert.KernelIdeal.Gen.slices_S100000x64_S100000x32_0_0 (ix2 r j)
    (ix2 r (⟨j.val, hj⟩ : Fin 64)) fun a => ?_).trans ?_
  · match a with
    | ⟨0, _⟩ => show r.val = 0 + r.val; omega
    | ⟨1, _⟩ => show j.val = 0 + j.val; omega
  · show ∑ k : Fin 128, h (ix2 r k) * Cert.KernelIdeal.KV.wcat128 A B (ix2 k (⟨j.val, hj⟩ : Fin 64)) = ∑ k : Fin 128, h (ix2 r k) * A (ix2 k j)
    refine Finset.sum_congr rfl fun k _ => congrArg (h (ix2 r k) * ·) ?_
    unfold Cert.KernelIdeal.KV.wcat128
    exact concatenate_pair_apply_left 1 A B Cert.KernelIdeal.Gen.concatenates_S128x32_S128x32_S128x64_d1 (ix2 k (⟨j.val, hj⟩ : Fin 64)) rfl
      (ix2 k j) fun b => by
        match b with
        | ⟨0, _⟩ => rfl
        | ⟨1, _⟩ => rfl

/-- Columns 32 to 63 of the features times `[A | B]` are the features times `B`: column `32 + j` of `[A | B]` is `B`'s `j`. -/
theorem halfR_lin128 (h : FVec Ideal Cert.KernelIdeal.S100000x128 .f32) (A B : FVec Ideal Cert.KernelIdeal.S128x32 .f32) :
    Cert.KernelIdeal.KV.halfR (Cert.KernelIdeal.Fns.lin128 h (Cert.KernelIdeal.KV.wcat128 A B)) = Host.dotGeneral (F := Ideal) Cert.ReferenceIdeal.dot_S100000x128_S128x32_S100000x32_1_0_0_1_n_n none h B := by
  funext i
  obtain ⟨r, j, rfl⟩ : ∃ (r : Fin 100000) (j : Fin 32), i = ix2 r j := ⟨i 0, i 1, eq_ix2 i⟩
  have hj : 32 + j.val < 64 := by have := j.isLt; omega
  refine Eq.trans ?_ (dot_apply128 h B r j).symm
  unfold Cert.KernelIdeal.KV.halfR
  refine (extractStridedSlice_apply ![0, 32] _ Cert.KernelIdeal.Gen.slices_S100000x64_S100000x32_0_32 (ix2 r j)
    (ix2 r (⟨32 + j.val, hj⟩ : Fin 64)) fun a => ?_).trans ?_
  · match a with
    | ⟨0, _⟩ => show r.val = 0 + r.val; omega
    | ⟨1, _⟩ => show 32 + j.val = 32 + j.val; rfl
  · show ∑ k : Fin 128, h (ix2 r k) * Cert.KernelIdeal.KV.wcat128 A B (ix2 k (⟨32 + j.val, hj⟩ : Fin 64)) = ∑ k : Fin 128, h (ix2 r k) * B (ix2 k j)
    refine Finset.sum_congr rfl fun k _ => congrArg (h (ix2 r k) * ·) ?_
    unfold Cert.KernelIdeal.KV.wcat128
    exact concatenate_pair_apply_right 1 A B Cert.KernelIdeal.Gen.concatenates_S128x32_S128x32_S128x64_d1 (ix2 k (⟨32 + j.val, hj⟩ : Fin 64)) rfl rfl
      (ix2 k j) (fun b => by
        match b with
        | ⟨0, _⟩ => exact fun _ => rfl
        | ⟨1, _⟩ => exact fun hne => absurd rfl hne)
      (by show j.val + 32 = 32 + j.val; omega)

/-! ## The messages, the bias and the zero -/

/-- The messages summed along the edges are the same host operations on both sides. -/
theorem agg_same128 (X : FVec Ideal Cert.KernelIdeal.S100000x32 .f32) (src dst : IVec Cert.KernelIdeal.S3200000 32) :
    Cert.KernelIdeal.KV.agg X src dst = Cert.ReferenceIdeal.RF.agg X src dst := rfl

/-- The kernel's bias row (the 32 biases viewed 1×32) reads bias `j` at column `j`. -/
theorem biasRow_apply128 (b : FVec Ideal Cert.KernelIdeal.S32 .f32) (j : Fin 32) :
    shapeCast Cert.KernelIdeal.S1x32 b Cert.KernelIdeal.Gen.shapeCasts_S32_S1x32 (ix2 (0 : Fin 1) j) = b (ix1 j) :=
  shapeCast_a_1a_apply b Cert.KernelIdeal.Gen.shapeCasts_S32_S1x32 0 j

/-- The reference's bias, spread over one row and then over all rows, reads bias `j` at every `(r, j)`. -/
theorem biasSpread_apply128 (b : FVec Ideal Cert.ReferenceIdeal.S32 .f32) (i : Cert.ReferenceIdeal.S100000x32.Idx) :
    broadcastInDim Cert.ReferenceIdeal.S100000x32 ![0, 1] Cert.ReferenceIdeal.Gen.bcast_S1x32_S100000x32_0_1
      (broadcastInDim Cert.ReferenceIdeal.S1x32 ![1] Cert.ReferenceIdeal.Gen.bcast_S32_S1x32_1 b) i = b (ix1 (i 1)) := by
  refine (broadcastInDim_apply ![0, 1] Cert.ReferenceIdeal.Gen.bcast_S1x32_S100000x32_0_1 _ i (ix2 (0 : Fin 1) (i 1)) fun a => ?_).trans
    (broadcastInDim_apply ![1] Cert.ReferenceIdeal.Gen.bcast_S32_S1x32_1 b (ix2 (0 : Fin 1) (i 1)) (ix1 (i 1)) fun a => ?_)
  · match a with
    | ⟨0, _⟩ => rfl
    | ⟨1, _⟩ => show (i 1).val = if (32 : ℕ) = 1 then 0 else (i 1).val; rw [if_neg (by decide)]
  · match a with
    | ⟨0, _⟩ => show (i 1).val = if (32 : ℕ) = 1 then 0 else (i 1).val; rw [if_neg (by decide)]

/-- The reference's zero, spread over the array, is zero everywhere. -/
theorem zeroSpread_apply128 (i : Cert.ReferenceIdeal.S100000x32.Idx) :
    broadcastInDim Cert.ReferenceIdeal.S100000x32 ![] Cert.ReferenceIdeal.Gen.bcast_S_S100000x32
      (constant (F := Ideal) Cert.ReferenceIdeal.S_ .f32 0x00000000#32) i = (0 : EReal) :=
  (broadcastInDim_apply ![] Cert.ReferenceIdeal.Gen.bcast_S_S100000x32 _ i ix0 fun a => a.elim0).trans Ideal.ofBits_zero_f32

/-! ## The layer -/

/-- The first layer (128 input features). -/
theorem layer128_eq (h : Vec Ideal Cert.KernelIdeal.S100000x128 .f32) (A B : Vec Ideal Cert.KernelIdeal.S128x32 .f32)
    (b : Vec Ideal Cert.KernelIdeal.S32 .f32) (src dst : Vec Ideal Cert.KernelIdeal.S3200000 .i32) :
    Cert.KernelIdeal.KV.layer (Cert.KernelIdeal.Fns.lin128 h (Cert.KernelIdeal.KV.wcat128 A B))
        (shapeCast Cert.KernelIdeal.S1x32 b Cert.KernelIdeal.Gen.shapeCasts_S32_S1x32) src dst
      = Cert.ReferenceIdeal.RF.layer128 h A B b src dst := by
  unfold Cert.KernelIdeal.KV.layer
  rw [halfL_lin128 h A B, halfR_lin128 h A B, agg_same128]
  funext i
  unfold Cert.KernelIdeal.Fns.comb Cert.ReferenceIdeal.RF.layer128
  rw [maximumf_apply, addf_apply, addf_apply, biasRow_apply128 b (i 1), biasSpread_apply128 b i, zeroSpread_apply128 i]
  exact congrArg (fun z : EReal => max z 0) (add_right_comm _ _ _)

end Cert.Bridge

end
-- ==== Proof.BrLayer.lean ====
/-
  One graph-convolution layer, the kernel's way and the reference's, is one function of the features, the two weight
  matrices, the bias and the edges. The kernel multiplies the features by the two matrices side by side and slices
  the product's halves apart; a column of the left (right) half is the same sum of products as the column of the
  features against the first (second) matrix alone. The messages are the same host operations of equal arrays. The
  kernel adds "messages + own product" and then the bias, the reference "messages + bias" and then the own product:
  addition of extended reals is commutative and associative, so the sums agree, and both take the maximum with zero.
-/
import proofs.«412697_j56040733278666_2_alg».proof.Proof.KFns
import proofs.«412697_j56040733278666_2_alg».proof.Proof.RefFns
import proofs.«412697_j56040733278666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-! ## The reference's product of the features with one 32×32 matrix, entry by entry -/

/-- The 32-feature product's dimension numbers: rows of the left operand against columns of the right. -/
abbrev D32 := Cert.ReferenceIdeal.dot_S100000x32_S32x32_S100000x32_1_0_0_1_n_n

/-- The left operand is read in the output's row … -/
theorem lhsRow32 (i : Cert.ReferenceIdeal.S100000x32.Idx) (q : D32.contr.Idx) : (D32.lhsIdx i q 0).val = (i 0).val := by
  unfold DotDims.lhsIdx
  rw [dif_neg (show ¬(0 : Fin Cert.ReferenceIdeal.S100000x32.rank) ∈ D32.lhsBatch by decide),
    dif_pos (show (0 : Fin Cert.ReferenceIdeal.S100000x32.rank) ∈ D32.lhsNonContracting by decide)]
  rfl
/-- … at the summation index as its column; … -/
theorem lhsCol32 (i : Cert.ReferenceIdeal.S100000x32.Idx) (q : D32.contr.Idx) : (D32.lhsIdx i q 1).val = (q ⟨0, by decide⟩).val :=
  D32.lhsIdx_val_of_single rfl i q
/-- … the right operand at the summation index as its row … -/
theorem rhsRow32 (i : Cert.ReferenceIdeal.S100000x32.Idx) (q : D32.contr.Idx) : (D32.rhsIdx i q 0).val = (q ⟨0, by decide⟩).val :=
  D32.rhsIdx_val_of_single rfl i q
/-- … in the output's column. -/
theorem rhsCol32 (i : Cert.ReferenceIdeal.S100000x32.Idx) (q : D32.contr.Idx) : (D32.rhsIdx i q 1).val = (i 1).val := by
  unfold DotDims.rhsIdx
  rw [dif_neg (show ¬(1 : Fin Cert.ReferenceIdeal.S32x32.rank) ∈ D32.rhsBatch by decide),
    dif_pos (show (1 : Fin Cert.ReferenceIdeal.S32x32.rank) ∈ D32.rhsNonContracting by decide)]
  rfl

/-- Entry `(r, j)` of the reference's product of the features with one 32×32 matrix is `∑ k, X r k · W k j`. -/
theorem dotApply32 (X : Vec Ideal Cert.KernelIdeal.S100000x32 .f32) (W : Vec Ideal Cert.KernelIdeal.S32x32 .f32)
    (i : Cert.KernelIdeal.S100000x32.Idx) :
    Host.dotGeneral (F := Ideal) (φ₁ := .f32) (φ₂ := .f32) D32 none X W i = ∑ k : Fin 32, X (ix2 (i 0) k) * W (ix2 k (i 1)) := by
  simp only [Host.dotGeneral]
  rw [Ideal.dotGeneral_apply, ← Equiv.sum_comp (contrEquiv1 D32 32 rfl rfl).symm]
  refine Finset.sum_congr rfl fun k _ => ?_
  have hk := contrEquiv1_symm_val D32 32 rfl rfl k
  have el : D32.lhsIdx i ((contrEquiv1 D32 32 rfl rfl).symm k) = ix2 (i 0) k := funext fun a => Fin.ext (by
    match a with
    | ⟨0, _⟩ => exact lhsRow32 _ _
    | ⟨1, _⟩ => exact (lhsCol32 _ _).trans hk)
  have er : D32.rhsIdx i ((contrEquiv1 D32 32 rfl rfl).symm k) = ix2 k (i 1) := funext fun a => Fin.ext (by
    match a with
    | ⟨0, _⟩ => exact (rhsRow32 _ _).trans hk
    | ⟨1, _⟩ => exact rhsCol32 _ _)
  exact congrArg₂ (· * ·) (congrArg X el) (congrArg W er)

/-! ## The two matrices side by side, column by column -/

/-- Column `j` (below 32) of the two matrices side by side is column `j` of the first. -/
theorem wcatLeft32 (A B : Vec Ideal Cert.KernelIdeal.S32x32 .f32) (k j : Fin 32) :
    Cert.KernelIdeal.KV.wcat32 A B (ix2 k (⟨j.val, by omega⟩ : Fin 64)) = A (ix2 k j) := by
  unfold Cert.KernelIdeal.KV.wcat32
  refine concatenate_pair_apply_left (t := Cert.KernelIdeal.S32x64) 1 A B _ _ rfl (ix2 k j) fun c => ?_
  match c with
  | ⟨0, _⟩ => rfl
  | ⟨1, _⟩ => rfl

/-- Column `32 + j` of the two matrices side by side is column `j` of the second. -/
theorem wcatRight32 (A B : Vec Ideal Cert.KernelIdeal.S32x32 .f32) (k j : Fin 32) :
    Cert.KernelIdeal.KV.wcat32 A B (ix2 k (⟨32 + j.val, by omega⟩ : Fin 64)) = B (ix2 k j) := by
  unfold Cert.KernelIdeal.KV.wcat32
  refine concatenate_pair_apply_right (t := Cert.KernelIdeal.S32x64) 1 A B _ _ rfl rfl (ix2 k j) (fun c hc => ?_) ?_
  · match c with
    | ⟨0, _⟩ => rfl
    | ⟨1, _⟩ => exact absurd rfl hc
  · show j.val + 32 = 32 + j.val
    omega

/-! ## The halves of the double product are the two single products -/

/-- The left half of the features against the two matrices side by side is the features against the first. -/
theorem halfL_lin32 (h : Vec Ideal Cert.KernelIdeal.S100000x32 .f32) (A B : Vec Ideal Cert.KernelIdeal.S32x32 .f32) :
    Cert.KernelIdeal.KV.halfL (Cert.KernelIdeal.Fns.lin32 h (Cert.KernelIdeal.KV.wcat32 A B))
      = Host.dotGeneral (F := Ideal) (φ₁ := .f32) (φ₂ := .f32) D32 none h A := by
  funext i
  rw [dotApply32]
  unfold Cert.KernelIdeal.KV.halfL
  refine (extractStridedSlice_apply _ _ _ i (ix2 (i 0) (⟨(i 1).val, by have := idx2_lt1 i; omega⟩ : Fin 64)) fun a => ?_).trans ?_
  · match a with
    | ⟨0, _⟩ => exact (Nat.zero_add _).symm
    | ⟨1, _⟩ => exact (Nat.zero_add _).symm
  · exact Finset.sum_congr rfl fun k _ => congrArg (h (ix2 (i 0) k) * ·) (wcatLeft32 A B k (i 1))

/-- The right half of the features against the two matrices side by side is the features against the second. -/
theorem halfR_lin32 (h : Vec Ideal Cert.KernelIdeal.S100000x32 .f32) (A B : Vec Ideal Cert.KernelIdeal.S32x32 .f32) :
    Cert.KernelIdeal.KV.halfR (Cert.KernelIdeal.Fns.lin32 h (Cert.KernelIdeal.KV.wcat32 A B))
      = Host.dotGeneral (F := Ideal) (φ₁ := .f32) (φ₂ := .f32) D32 none h B := by
  funext i
  rw [dotApply32]
  unfold Cert.KernelIdeal.KV.halfR
  refine (extractStridedSlice_apply _ _ _ i (ix2 (i 0) (⟨32 + (i 1).val, by have := idx2_lt1 i; omega⟩ : Fin 64)) fun a => ?_).trans ?_
  · match a with
    | ⟨0, _⟩ => exact (Nat.zero_add _).symm
    | ⟨1, _⟩ => rfl
  · exact Finset.sum_congr rfl fun k _ => congrArg (h (ix2 (i 0) k) * ·) (wcatRight32 A B k (i 1))

/-! ## The messages -/

/-- The kernel's and the reference's messages are the same host operations over the same dimension numbers. -/
theorem agg_eq32 (X : Vec Ideal Cert.KernelIdeal.S100000x32 .f32) (src dst : Vec Ideal Cert.KernelIdeal.S3200000 .i32) :
    Cert.KernelIdeal.KV.agg X src dst = Cert.ReferenceIdeal.RF.agg X src dst := rfl

/-! ## The bias row and the zero -/

/-- The kernel's bias, a vector viewed as one row, read at `(0, j)` is the vector at `j`. -/
theorem biasRow32 (b : Vec Ideal Cert.KernelIdeal.S32 .f32) (j : Fin 32) :
    shapeCast Cert.KernelIdeal.S1x32 b Cert.KernelIdeal.Gen.shapeCasts_S32_S1x32 (ix2 (0 : Fin 1) j) = b (ix1 j) :=
  shapeCast_a_1a_apply b _ 0 j

/-- The reference's bias, a vector broadcast to one row and the row down all nodes, read at `(r, j)` is the vector at `j`. -/
theorem biasBcast32 (b : Vec Ideal Cert.KernelIdeal.S32 .f32) (i : Cert.KernelIdeal.S100000x32.Idx) :
    broadcastInDim Cert.ReferenceIdeal.S100000x32 ![0, 1] Cert.ReferenceIdeal.Gen.bcast_S1x32_S100000x32_0_1
      (broadcastInDim Cert.ReferenceIdeal.S1x32 ![1] Cert.ReferenceIdeal.Gen.bcast_S32_S1x32_1 b) i = b (ix1 (i 1)) := by
  refine (broadcastInDim_apply _ _ _ i (ix2 (0 : Fin 1) (i 1)) fun a => ?_).trans
    (broadcastInDim_apply _ _ b (ix2 (0 : Fin 1) (i 1)) (ix1 (i 1)) fun a => ?_)
  · match a with
    | ⟨0, _⟩ => rfl
    | ⟨1, _⟩ => rfl
  · match a with
    | ⟨0, _⟩ => rfl

/-- The reference's zero array is `0` at every entry. -/
theorem zero32 (i : Cert.KernelIdeal.S100000x32.Idx) :
    broadcastInDim Cert.ReferenceIdeal.S100000x32 ![] Cert.ReferenceIdeal.Gen.bcast_S_S100000x32
      (constant (F := Ideal) Cert.ReferenceIdeal.S_ .f32 0x00000000#32) i = (0 : EReal) := by
  refine (broadcastInDim_apply _ _ _ i ix0 fun a => a.elim0).trans ?_
  exact Ideal.ofBits_zero_f32

/-! ## The layer -/

/-- A later layer (32 input features). -/
theorem layer32_eq (h : Vec Ideal Cert.KernelIdeal.S100000x32 .f32) (A B : Vec Ideal Cert.KernelIdeal.S32x32 .f32)
    (b : Vec Ideal Cert.KernelIdeal.S32 .f32) (src dst : Vec Ideal Cert.KernelIdeal.S3200000 .i32) :
    Cert.KernelIdeal.KV.layer (Cert.KernelIdeal.Fns.lin32 h (Cert.KernelIdeal.KV.wcat32 A B))
        (shapeCast Cert.KernelIdeal.S1x32 b Cert.KernelIdeal.Gen.shapeCasts_S32_S1x32) src dst
      = Cert.ReferenceIdeal.RF.layer32 h A B b src dst := by
  unfold Cert.KernelIdeal.KV.layer Cert.ReferenceIdeal.RF.layer32
  rw [halfL_lin32, halfR_lin32, agg_eq32]
  funext i
  unfold Cert.KernelIdeal.Fns.comb
  rw [maximumf_apply, addf_apply, addf_apply, biasBcast32, zero32]
  refine (congrArg (fun z => max (_ + _ + z) 0) (biasRow32 b (i 1))).trans ?_
  exact congrArg (max · 0) (add_right_comm _ _ _)

end Cert.Bridge

end
-- ==== Proof.BrPool.lean ====
/-
  The per-graph sums, the kernel's way and the reference's. The kernel sums, over all nodes, the node's features times
  the indicator (a one or a zero) that the node's graph id is the row's graph; the reference adds each node's row into
  the row of its graph id, dropping a node whose id is outside 0..63. A zero times any extended real is zero, so the
  kernel's sum is the sum over the nodes of that graph, which is what the accumulating scatter leaves on a zero array.
-/
import proofs.«412697_j56040733278666_2_alg».proof.Proof.KFns
import proofs.«412697_j56040733278666_2_alg».proof.Proof.RefFns
import proofs.«412697_j56040733278666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Bridge

open Idealize.ShloMosaic Idealize.ShloMosaic.ValueIdx

namespace Pool

/-- The accumulating scatter's dimension numbers. -/
abbrev poolDims : ScatterDims Cert.ReferenceIdeal.S64x32 Cert.ReferenceIdeal.S100000x1 Cert.ReferenceIdeal.S100000x32 :=
  Cert.ReferenceIdeal.scatter_S64x32_S100000x1_S100000x32_1_0_0_1

/-- On the row axis the window starts at the node's graph id, read as a signed word off the column of ids. -/
theorem start_row (j : (⟨2, ![100000, 32]⟩ : Shape).Idx) (idx : IVec (⟨2, ![100000, 1]⟩ : Shape) 32) :
    poolDims.start j idx 0 = (idx (ix2 (j 0) 0)).toInt := by
  unfold ScatterDims.start
  rw [dif_pos (by decide)]
  refine congrArg BitVec.toInt (congrArg idx (funext fun b => ?_))
  match b with
  | ⟨0, _⟩ => exact Fin.ext rfl
  | ⟨1, _⟩ => exact Fin.ext rfl

/-- On the column axis the window starts at `0`. -/
theorem start_col (j : (⟨2, ![100000, 32]⟩ : Shape).Idx) (idx : IVec (⟨2, ![100000, 1]⟩ : Shape) 32) :
    poolDims.start j idx 1 = 0 := by
  unfold ScatterDims.start
  rw [dif_neg (by decide)]

/-- The row axis is not a window axis: the window coordinate there is `0`. -/
theorem window_row (j : (⟨2, ![100000, 32]⟩ : Shape).Idx) : poolDims.window j 0 = 0 := by
  unfold ScatterDims.window
  rw [dif_neg (by decide)]

/-- The column axis is the window axis: the window coordinate there is the update's column. -/
theorem window_col (j : (⟨2, ![100000, 32]⟩ : Shape).Idx) : poolDims.window j 1 = (j 1).val := by
  unfold ScatterDims.window
  rw [dif_pos (by decide)]
  rfl

/-- Where an update element lands: the update at `(n, c)` lands on `(g, c')` exactly when node `n`'s graph id, read as a
    signed word, is `g`, and `c = c'`. -/
theorem resultIdx_iff (j : (⟨2, ![100000, 32]⟩ : Shape).Idx) (idx : IVec (⟨2, ![100000, 1]⟩ : Shape) 32)
    (i : (⟨2, ![64, 32]⟩ : Shape).Idx) :
    poolDims.resultIdx? j idx = some i ↔ (idx (ix2 (j 0) 0)).toInt = ((i 0).val : Int) ∧ (j 1).val = (i 1).val := by
  have hi0 : (i 0).val < 64 := (i 0).isLt
  have hi1 : (i 1).val < 32 := (i 1).isLt
  unfold ScatterDims.resultIdx?
  split
  · rename_i h
    have h0 := h 0
    have h1 := h 1
    rw [start_row, window_row] at h0
    rw [start_col, window_col] at h1
    constructor
    · intro e
      have e' := Option.some.inj e
      have e0 := congrArg Fin.val (congrFun e' 0)
      have e1 := congrArg Fin.val (congrFun e' 1)
      simp only [start_row, window_row] at e0
      simp only [start_col, window_col] at e1
      constructor <;> omega
    · rintro ⟨g0, g1⟩
      refine congrArg some (funext fun a => Fin.ext ?_)
      match a with
      | ⟨0, _⟩ =>
        show (poolDims.start j idx 0 + (poolDims.window j 0 : Int)).toNat = (i 0).val
        rw [start_row, window_row, g0]; omega
      | ⟨1, _⟩ =>
        show (poolDims.start j idx 1 + (poolDims.window j 1 : Int)).toNat = (i 1).val
        rw [start_col, window_col]; omega
  · rename_i h
    constructor
    · intro e; cases e
    · rintro ⟨g0, g1⟩
      refine absurd (fun a => ?_) h
      match a with
      | ⟨0, _⟩ =>
        show 0 ≤ poolDims.start j idx 0 + (poolDims.window j 0 : Int) ∧ poolDims.start j idx 0 + (poolDims.window j 0 : Int) < ((64 : Nat) : Int)
        rw [start_row, window_row, g0]; omega
      | ⟨1, _⟩ =>
        show 0 ≤ poolDims.start j idx 1 + (poolDims.window j 1 : Int) ∧ poolDims.start j idx 1 + (poolDims.window j 1 : Int) < ((32 : Nat) : Int)
        rw [start_col, window_col]; omega

/-- A word is the small number `g` exactly when its signed value is `g`. -/
theorem word_eq_iff (x : BitVec 32) (g : Nat) (hg : g < 2 ^ 31) : x = BitVec.ofNat 32 g ↔ x.toInt = (g : Int) :=
  ⟨fun h => h ▸ StableHlo.Predicate.toInt_ofNat_small g hg,
   fun h => BitVec.eq_of_toInt_eq (h.trans (StableHlo.Predicate.toInt_ofNat_small g hg).symm)⟩

/-- The same, with the update's index written by its coordinates. -/
theorem resultIdx_ix2 (n : Fin 100000) (c : Fin 32) (idx : IVec (⟨2, ![100000, 1]⟩ : Shape) 32)
    (i : (⟨2, ![64, 32]⟩ : Shape).Idx) :
    poolDims.resultIdx? (ix2 n c) idx = some i ↔ (idx (ix2 n 0)).toInt = ((i 0).val : Int) ∧ c.val = (i 1).val :=
  resultIdx_iff (ix2 n c) idx i

/-- The zero array the scatter accumulates into reads `0` everywhere. -/
theorem zeros_apply (i : (⟨2, ![64, 32]⟩ : Shape).Idx) :
    broadcastInDim Cert.ReferenceIdeal.S64x32 ![] Cert.ReferenceIdeal.Gen.bcast_S_S64x32
      (constant (F := Ideal) Cert.ReferenceIdeal.S_ .f32 0x00000000#32) i = 0 := by
  rw [broadcastInDim_apply _ Cert.ReferenceIdeal.Gen.bcast_S_S64x32 _ i ix0 (fun a => a.elim0), constant_apply,
    Ideal.ofBits_zero_f32]

/-- The graph ids laid out as a column (the reference's way): entry `(n, 0)` is node `n`'s id. -/
theorem gcol_apply (gid : IVec (⟨1, ![100000]⟩ : Shape) 32) (n : Fin 100000) (z : Fin 1) :
    broadcastInDim Cert.ReferenceIdeal.S100000x1 ![0] Cert.ReferenceIdeal.Gen.bcast_S100000_S100000x1_0 gid (ix2 n z)
      = gid (ix1 n) :=
  broadcastInDim_apply _ Cert.ReferenceIdeal.Gen.bcast_S100000_S100000x1_0 gid _ (ix1 n) (fun a => match a with
    | ⟨0, _⟩ => by show n.val = if (100000 : Nat) = 1 then 0 else n.val; rw [if_neg (by decide)])

/-- The graph ids laid out as a column (the kernel's way, a reshape): entry `(n, 0)` is node `n`'s id. -/
theorem gcast_apply (gid : IVec (⟨1, ![100000]⟩ : Shape) 32) (n : Fin 100000) (z : Fin 1) :
    shapeCast Cert.KernelIdeal.S100000x1 gid Cert.KernelIdeal.Gen.shapeCasts_S100000_S100000x1 (ix2 n z) = gid (ix1 n) :=
  shapeCast_apply gid _ _ (ix1 n) (by
    rw [Shape.rowMajor_val_one, Shape.rowMajor_val_two]
    show n.val = n.val * 1 + z.val
    have := z.isLt
    omega)

/-- One row of updates: of the 32 entries of node `n`'s row, the one in column `c'` lands on `(g, c')` when the node's
    graph is `g`, and none does otherwise. -/
theorem row_sum (A : Prop) [Decidable A] (f : Fin 32 → EReal) (c' : Fin 32) :
    (∑ c : Fin 32, if A ∧ c.val = c'.val then f c else 0) = if A then f c' else 0 := by
  by_cases hA : A
  · simp only [hA, true_and, if_true]
    rw [Finset.sum_eq_single c' (fun b _ hb => if_neg fun h => hb (Fin.ext h))
      (fun h => absurd (Finset.mem_univ c') h), if_pos rfl]
  · simp only [hA, false_and, if_false, Finset.sum_const_zero]

end Pool

open Pool in
/-- The per-graph sums. -/
theorem pool_eq (H : Vec Ideal Cert.KernelIdeal.S100000x32 .f32) (gid : Vec Ideal Cert.KernelIdeal.S100000 .i32) :
    Cert.KernelIdeal.Fns.pool H (shapeCast Cert.KernelIdeal.S100000x1 gid Cert.KernelIdeal.Gen.shapeCasts_S100000_S100000x1)
      = Cert.ReferenceIdeal.RF.pool H gid := by
  funext i
  have hi0 : (i 0).val < 64 := (i 0).isLt
  -- both sides are the sum, over the nodes whose graph id reads `i 0` as a signed word, of the node's entry in column `i 1`
  have hK : Cert.KernelIdeal.Fns.pool H
        (shapeCast Cert.KernelIdeal.S100000x1 gid Cert.KernelIdeal.Gen.shapeCasts_S100000_S100000x1) i
      = ∑ n : Fin 100000, if (gid (ix1 n)).toInt = ((i 0).val : Int) then H (ix2 n (i 1)) else 0 := by
    unfold Cert.KernelIdeal.Fns.pool
    refine Finset.sum_congr rfl fun n _ => ?_
    rw [gcast_apply, ite_mul, one_mul, zero_mul]
    exact if_congr (word_eq_iff _ _ (by omega)) rfl rfl
  have hR : Cert.ReferenceIdeal.RF.pool H gid i
      = ∑ n : Fin 100000, if (gid (ix1 n)).toInt = ((i 0).val : Int) then H (ix2 n (i 1)) else 0 := by
    unfold Cert.ReferenceIdeal.RF.pool Host.scatterAdd
    rw [Ideal.hostScatterAdd_def]
    unfold Ideal.hostScatterAdd
    beta_reduce
    rw [zeros_apply, zero_add, Finset.sum_filter, sum_idx2]
    refine Finset.sum_congr rfl fun n _ => ?_
    refine (Finset.sum_congr rfl fun c _ => if_congr (resultIdx_ix2 n c
      (broadcastInDim Cert.ReferenceIdeal.S100000x1 ![0] Cert.ReferenceIdeal.Gen.bcast_S100000_S100000x1_0 gid) i) rfl rfl).trans ?_
    rw [gcol_apply]
    exact row_sum ((gid (ix1 n)).toInt = ((i 0).val : Int)) (fun c => H (ix2 n c)) (i 1)
  rw [hK, hR]

end Cert.Bridge

end
-- ==== Proof.BrSoft.lean ====
/-
  The softmax over the four entries of each row, the kernel's lines and the reference's operations: both subtract the
  row's maximum (taken against minus infinity) from each entry, exponentiate, and divide by the row's sum of the
  exponentials; the kernel's lane reductions and the reference's host reductions are the same maximum and the same
  sum of the row's four entries.
-/
import proofs.«412697_j56040733278666_2_alg».proof.Proof.RefFns
import proofs.«412697_j56040733278666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

open Cert.KernelIdeal Cert.KernelIdeal.Gen in
/-- The kernel body's last lines, as a function of the second dense layer's output `z`: the row maximum against
    `-∞`, the shifted exponentials, their row sums, the quotient. -/
def softK (z : FVec Ideal Cert.KernelIdeal.S64x4 .f32) : FVec Ideal Cert.KernelIdeal.S64x4 .f32 :=
  have v22 : FVec Ideal S64 .f32 := multiReduction (F := Ideal) .maximumf [1] S64 z 0xFF800000#32 reduces_S64x4_S64 (.inl rfl) rfl
  have cst_13 : Ideal .f32 := Scalar.ofBits (F := Ideal) .f32 0xFF800000#32
  have v23 : FVec Ideal S64 .f32 := broadcast S64 cst_13
  have v24 : FVec Ideal S64 .f32 := maximumf v23 v22
  have v25 : FVec Ideal S64x1 .f32 := shapeCast S64x1 v24 shapeCasts_S64_S64x1
  have v26 : FVec Ideal S64x4 .f32 := broadcastTo S64x4 v25 broadcasts_S64x1_S64x4
  have v27 : FVec Ideal S64x4 .f32 := subf z v26
  have v28 : FVec Ideal S64x4 .f32 := exp v27
  have v29 : FVec Ideal S64 .f32 := multiReduction (F := Ideal) .add [1] S64 v28 0x00000000#32 reduces_S64x4_S64 (.inl rfl) rfl
  have v30 : FVec Ideal S64x1 .f32 := shapeCast S64x1 v29 shapeCasts_S64_S64x1
  have v31 : FVec Ideal S64x4 .f32 := broadcastTo S64x4 v30 broadcasts_S64x1_S64x4
  divf v28 v31

namespace Soft
open Cert.KernelIdeal Cert.KernelIdeal.Gen

/-! ## The softmax lines cut in three: the row maximum, the shifted exponentials, the quotient by the row sum -/

/-- The body's row maximum (against `-∞`, twice). -/
def krowmax (z : FVec Ideal S64x4 .f32) : FVec Ideal S64 .f32 :=
  maximumf (broadcast S64 (Scalar.ofBits (F := Ideal) .f32 0xFF800000#32))
    (multiReduction (F := Ideal) .maximumf [1] S64 z 0xFF800000#32 reduces_S64x4_S64 (.inl rfl) rfl)

/-- The body's shifted exponentials: each entry less its row's maximum, exponentiated. -/
def kexp (z : FVec Ideal S64x4 .f32) : FVec Ideal S64x4 .f32 :=
  exp (subf z (broadcastTo S64x4 (shapeCast S64x1 (krowmax z) shapeCasts_S64_S64x1) broadcasts_S64x1_S64x4))

/-- The body's softmax: the shifted exponentials over their row's sum. -/
def ksoftmax (z : FVec Ideal S64x4 .f32) : FVec Ideal S64x4 .f32 :=
  divf (kexp z)
    (broadcastTo S64x4
      (shapeCast S64x1 (multiReduction (F := Ideal) .add [1] S64 (kexp z) 0x00000000#32 reduces_S64x4_S64 (.inl rfl) rfl)
        shapeCasts_S64_S64x1)
      broadcasts_S64x1_S64x4)

/-- The body's softmax lines are those three steps. -/
theorem softK_split (z : FVec Ideal S64x4 .f32) : softK z = ksoftmax z := rfl

/-- A column of 64 spread along the rows of a 64×4 array (through a 64×1 array): entry `(p, q)` is `v p`. -/
theorem col_apply (v : FVec Ideal S64 .f32) (p : Fin 64) (q : Fin 4) :
    broadcastTo S64x4 (shapeCast S64x1 v shapeCasts_S64_S64x1) broadcasts_S64x1_S64x4 (ix2 p q) = v (ix1 p) := by
  refine (broadcastTo_apply _ _ (ix2 p q) (ix2 p (0 : Fin 1)) (fun a => match a with
    | ⟨0, _⟩ => by show p.val = if (64 : Nat) = 1 then 0 else p.val; rw [if_neg (by decide)]
    | ⟨1, _⟩ => by show 0 = if (1 : Nat) = 1 then 0 else q.val; rw [if_pos rfl])).trans ?_
  exact shapeCast_apply v _ (ix2 p (0 : Fin 1)) (ix1 p) (by
    rw [Shape.rowMajor_val_two, Shape.rowMajor_val_one]
    show p.val = p.val * 1 + 0
    omega)

/-- The same spread written with the host's two broadcasts: entry `(p, q)` is `v p`. -/
theorem col_host_apply (v : FVec Ideal Cert.ReferenceIdeal.S64 .f32) (p : Fin 64) (q : Fin 4) :
    broadcastInDim Cert.ReferenceIdeal.S64x4 ![0, 1] Cert.ReferenceIdeal.Gen.bcast_S64x1_S64x4_0_1
        (broadcastInDim Cert.ReferenceIdeal.S64x1 ![0] Cert.ReferenceIdeal.Gen.bcast_S64_S64x1_0 v) (ix2 p q) = v (ix1 p) := by
  refine (broadcastInDim_apply _ _ _ (ix2 p q) (ix2 p (0 : Fin 1)) (fun a => match a with
    | ⟨0, _⟩ => by show p.val = if (64 : Nat) = 1 then 0 else p.val; rw [if_neg (by decide)]
    | ⟨1, _⟩ => by show 0 = if (1 : Nat) = 1 then 0 else q.val; rw [if_pos rfl])).trans ?_
  exact broadcastInDim_apply _ _ v (ix2 p (0 : Fin 1)) (ix1 p) (fun a => match a with
    | ⟨0, _⟩ => by show p.val = if (64 : Nat) = 1 then 0 else p.val; rw [if_neg (by decide)])

/-- The row maximum: the same fold of `max` from `-∞` over the row's four entries, then `max` with `-∞` once more. -/
theorem rowmax_apply (z : FVec Ideal S64x4 .f32) (j : S64.Idx) :
    krowmax z j
      = maximumf (broadcastInDim Cert.ReferenceIdeal.S64 ![] Cert.ReferenceIdeal.Gen.bcast_S_S64
            (constant (F := Ideal) Cert.ReferenceIdeal.S_ .f32 0xFF800000#32))
          (Host.reduce (FloatOps.maximumf (F := Ideal) (φ := .f32)) z
            (constant (F := Ideal) Cert.ReferenceIdeal.S_ .f32 0xFF800000#32)
            Cert.ReferenceIdeal.Gen.reducesTo_S64x4_S64_d1 Cert.ReferenceIdeal.Gen.h_S_) j := by
  have e1 : multiReduction (F := Ideal) .maximumf [1] S64 z 0xFF800000#32 reduces_S64x4_S64 (.inl rfl) rfl j
      = Host.reduce (FloatOps.maximumf (F := Ideal) (φ := .f32)) z
          (constant (F := Ideal) Cert.ReferenceIdeal.S_ .f32 0xFF800000#32)
          Cert.ReferenceIdeal.Gen.reducesTo_S64x4_S64_d1 Cert.ReferenceIdeal.Gen.h_S_ j := by
    refine (Ideal.multiReduction_maximumf_single z _ reduces_S64x4_S64 _ _ j).trans ?_
    refine Eq.trans ?_ (Host.reduce_eq_fold_single (FloatOps.maximumf (F := Ideal) (φ := .f32)) z _
        Cert.ReferenceIdeal.Gen.reducesTo_S64x4_S64_d1 reduces_S64x4_S64 Cert.ReferenceIdeal.Gen.h_S_ j).symm
    rfl
  have e0 : broadcast S64 (Scalar.ofBits (F := Ideal) .f32 0xFF800000#32) j
      = broadcastInDim Cert.ReferenceIdeal.S64 ![] Cert.ReferenceIdeal.Gen.bcast_S_S64
          (constant (F := Ideal) Cert.ReferenceIdeal.S_ .f32 0xFF800000#32) j :=
    (broadcastInDim_apply _ _ (constant (F := Ideal) Cert.ReferenceIdeal.S_ .f32 0xFF800000#32) j (fun a => a.elim0)
      (fun a => a.elim0)).symm
  exact congrArg₂ max e0 e1

/-- The shifted exponentials, the body's and the reference's: the same exponential of the same difference. -/
theorem kexp_eq (z : FVec Ideal S64x4 .f32) : kexp z = Cert.ReferenceIdeal.RF.expShift z := by
  funext i
  obtain ⟨p, q, rfl⟩ : ∃ (p : Fin 64) (q : Fin 4), i = ix2 p q := ⟨i 0, i 1, eq_ix2 i⟩
  refine congrArg Ideal.exp (congrArg (fun t => z (ix2 p q) - t) ?_)
  exact (col_apply (krowmax z) p q).trans ((rowmax_apply z (ix1 p)).trans (col_host_apply _ p q).symm)

/-- The row sum: the same sum over the row's four entries (the host's has the zero initial value in front). -/
theorem rowsum_apply (e : FVec Ideal S64x4 .f32) (j : S64.Idx) :
    multiReduction (F := Ideal) .add [1] S64 e 0x00000000#32 reduces_S64x4_S64 (.inl rfl) rfl j
      = Host.reduceAdd (F := Ideal) e (constant (F := Ideal) Cert.ReferenceIdeal.S_ .f32 0x00000000#32)
          Cert.ReferenceIdeal.Gen.reducesTo_S64x4_S64_d1 Cert.ReferenceIdeal.Gen.h_S_ j := by
  refine (Ideal.multiReduction_add_single e _ reduces_S64x4_S64 _ _ j).trans ?_
  simp only [Host.reduceAdd, Ideal.hostReduceAdd_def]
  rw [Ideal.hostReduceAdd_single Cert.ReferenceIdeal.Gen.reducesTo_S64x4_S64_d1 reduces_S64x4_S64]
  show _ = Ideal.ofBits .f32 0x00000000#32 + _
  rw [Ideal.ofBits_zero_f32, zero_add]

/-- The softmax, the body's and the reference's: the same quotient of the same two numbers. -/
theorem ksoftmax_eq (z : FVec Ideal S64x4 .f32) : ksoftmax z = Cert.ReferenceIdeal.RF.softmax z := by
  funext i
  obtain ⟨p, q, rfl⟩ : ∃ (p : Fin 64) (q : Fin 4), i = ix2 p q := ⟨i 0, i 1, eq_ix2 i⟩
  unfold ksoftmax Cert.ReferenceIdeal.RF.softmax
  rw [kexp_eq]
  refine congrArg (Ideal.div (Cert.ReferenceIdeal.RF.expShift z (ix2 p q))) ?_
  exact (col_apply _ p q).trans ((rowsum_apply _ (ix1 p)).trans (col_host_apply _ p q).symm)

end Soft

/-- The kernel's softmax lines are the reference's softmax. -/
theorem softK_eq (z : FVec Ideal Cert.KernelIdeal.S64x4 .f32) : softK z = Cert.ReferenceIdeal.RF.softmax z :=
  (Soft.softK_split z).trans (Soft.ksoftmax_eq z)

end Cert.Bridge

end
-- ==== Proof.BrHead.lean ====
/-
  The two small dense layers and the softmax, the kernel's body and the reference's operations, entry by entry: a
  product into a zero accumulator is the host's product, a bias row broadcast down the rows is the same entry either
  way, the row maximum and the row sum are the same fold and the same sum over the four entries of a row, and the
  quotient is the same quotient.
-/
import proofs.«412697_j56040733278666_2_alg».proof.Proof.KFns
import proofs.«412697_j56040733278666_2_alg».proof.Proof.RefFns
import proofs.«412697_j56040733278666_2_alg».proof.Proof.BrSoft
import proofs.«412697_j56040733278666_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

namespace Head
open Cert.KernelIdeal Cert.KernelIdeal.Gen

/-! ## The body's value cut in three: a dense layer, a dense layer, the softmax lines -/

/-- The body's first dense layer: the product of the features and the weights into a zero accumulator, plus the bias row
    down the 64 rows, positive part. -/
def kfc1 (x : FVec Ideal S64x32 .f32) (w : FVec Ideal S32x8 .f32) (b : FVec Ideal S1x8 .f32) : FVec Ideal S64x8 .f32 :=
  maximumf
    (addf
      (matmul (F := Ideal) dot_S64x32_S32x8_S64x8_1_0_0_1_n_n none
        (truncf .bf16 (shapeCast S64x32 x shapeCasts_S64x32_S64x32) bitsLt_bf16_f32) (truncf .bf16 w bitsLt_bf16_f32)
        (constant (F := Ideal) S64x8 .f32 0x00000000#32))
      (broadcastTo S64x8 (shapeCast S1x8 b shapeCasts_S1x8_S1x8) broadcasts_S1x8_S64x8))
    (broadcast S64x8 (Scalar.ofBits (F := Ideal) .f32 0x00000000#32))

/-- The body's second dense layer, likewise. -/
def kfc2 (y : FVec Ideal S64x8 .f32) (w : FVec Ideal S8x4 .f32) (b : FVec Ideal S1x4 .f32) : FVec Ideal S64x4 .f32 :=
  maximumf
    (addf
      (matmul (F := Ideal) dot_S64x8_S8x4_S64x4_1_0_0_1_n_n none
        (truncf .bf16 y bitsLt_bf16_f32) (truncf .bf16 w bitsLt_bf16_f32)
        (constant (F := Ideal) S64x4 .f32 0x00000000#32))
      (broadcastTo S64x4 (shapeCast S1x4 b shapeCasts_S1x4_S1x4) broadcasts_S1x4_S64x4))
    (broadcast S64x4 (Scalar.ofBits (F := Ideal) .f32 0x00000000#32))

/-- The body's one stored value is the two dense layers, then its softmax lines. -/
theorem pay_split (x : FVec Ideal S64x32 .f32) (w1 : FVec Ideal S32x8 .f32) (b1 : FVec Ideal S1x8 .f32)
    (w2 : FVec Ideal S8x4 .f32) (b2 : FVec Ideal S1x4 .f32) :
    k9_pay1 (F := Ideal) x w1 b1 w2 b2 = softK (kfc2 (kfc1 x w1 b1) w2 b2) := rfl

/-! ## The first dense layer -/

/-- The product into a zero accumulator is the host's product of the same two arrays (the narrowing of the operands is
    the identity on the extended reals): the same sum over the contracted axis. -/
theorem mm1_apply (x : FVec Ideal S64x32 .f32) (w : FVec Ideal S32x8 .f32) (i : S64x8.Idx) :
    matmul (F := Ideal) dot_S64x32_S32x8_S64x8_1_0_0_1_n_n none
        (truncf .bf16 (shapeCast S64x32 x shapeCasts_S64x32_S64x32) bitsLt_bf16_f32) (truncf .bf16 w bitsLt_bf16_f32)
        (constant (F := Ideal) S64x8 .f32 0x00000000#32) i
      = Host.dotGeneral (F := Ideal) Cert.ReferenceIdeal.dot_S64x32_S32x8_S64x8_1_0_0_1_n_n none x w i := by
  rw [shapeCast_self]
  simp only [matmul, Host.dotGeneral]
  rw [Ideal.matmul_constant_zero_apply, Ideal.dotGeneral_apply]
  rfl

/-- The bias row down the rows: entry `(p, q)` is `b q` either way. -/
theorem bias1_apply (b : FVec Ideal S8 .f32) (p : Fin 64) (q : Fin 8) :
    broadcastTo S64x8 (shapeCast S1x8 (shapeCast S1x8 b shapeCasts_S8_S1x8) shapeCasts_S1x8_S1x8) broadcasts_S1x8_S64x8 (ix2 p q)
      = broadcastInDim Cert.ReferenceIdeal.S64x8 ![0, 1] Cert.ReferenceIdeal.Gen.bcast_S1x8_S64x8_0_1
          (broadcastInDim Cert.ReferenceIdeal.S1x8 ![1] Cert.ReferenceIdeal.Gen.bcast_S8_S1x8_1 b) (ix2 p q) := by
  rw [shapeCast_self]
  refine (broadcastTo_1b_ab_apply _ _ p q).trans ?_
  refine (shapeCast_a_1a_apply b _ 0 q).trans ?_
  symm
  refine (broadcastInDim_apply _ _ _ (ix2 p q) (ix2 (0 : Fin 1) q) (fun a => match a with
    | ⟨0, _⟩ => by show 0 = if (1 : Nat) = 1 then 0 else p.val; rw [if_pos rfl]
    | ⟨1, _⟩ => by show q.val = if (8 : Nat) = 1 then 0 else q.val; rw [if_neg (by decide)])).trans ?_
  exact broadcastInDim_apply _ _ b (ix2 (0 : Fin 1) q) (ix1 q) (fun a => match a with
    | ⟨0, _⟩ => by show q.val = if (8 : Nat) = 1 then 0 else q.val; rw [if_neg (by decide)])

/-- The zero the positive part is taken against: the same word at every entry. -/
theorem zero8_apply (i : S64x8.Idx) :
    broadcast S64x8 (Scalar.ofBits (F := Ideal) .f32 0x00000000#32) i
      = broadcastInDim Cert.ReferenceIdeal.S64x8 ![] Cert.ReferenceIdeal.Gen.bcast_S_S64x8
          (constant (F := Ideal) Cert.ReferenceIdeal.S_ .f32 0x00000000#32) i :=
  (broadcastInDim_apply _ _ (constant (F := Ideal) Cert.ReferenceIdeal.S_ .f32 0x00000000#32) i (fun a => a.elim0)
    (fun a => a.elim0)).symm

/-- The first dense layer, the body's and the reference's. -/
theorem kfc1_eq (x : FVec Ideal S64x32 .f32) (w : FVec Ideal S32x8 .f32) (b : FVec Ideal S8 .f32) :
    kfc1 x w (shapeCast S1x8 b shapeCasts_S8_S1x8) = Cert.ReferenceIdeal.RF.fc1 x w b := by
  funext i
  obtain ⟨p, q, rfl⟩ : ∃ (p : Fin 64) (q : Fin 8), i = ix2 p q := ⟨i 0, i 1, eq_ix2 i⟩
  exact congrArg₂ max (congrArg₂ (· + ·) (mm1_apply x w (ix2 p q)) (bias1_apply b p q)) (zero8_apply (ix2 p q))

/-! ## The second dense layer -/

/-- The second product into a zero accumulator is the host's product of the same two arrays. -/
theorem mm2_apply (y : FVec Ideal S64x8 .f32) (w : FVec Ideal S8x4 .f32) (i : S64x4.Idx) :
    matmul (F := Ideal) dot_S64x8_S8x4_S64x4_1_0_0_1_n_n none
        (truncf .bf16 y bitsLt_bf16_f32) (truncf .bf16 w bitsLt_bf16_f32)
        (constant (F := Ideal) S64x4 .f32 0x00000000#32) i
      = Host.dotGeneral (F := Ideal) Cert.ReferenceIdeal.dot_S64x8_S8x4_S64x4_1_0_0_1_n_n none y w i := by
  simp only [matmul, Host.dotGeneral]
  rw [Ideal.matmul_constant_zero_apply, Ideal.dotGeneral_apply]
  rfl

/-- The second bias row down the rows: entry `(p, q)` is `b q` either way. -/
theorem bias2_apply (b : FVec Ideal S4 .f32) (p : Fin 64) (q : Fin 4) :
    broadcastTo S64x4 (shapeCast S1x4 (shapeCast S1x4 b shapeCasts_S4_S1x4) shapeCasts_S1x4_S1x4) broadcasts_S1x4_S64x4 (ix2 p q)
      = broadcastInDim Cert.ReferenceIdeal.S64x4 ![0, 1] Cert.ReferenceIdeal.Gen.bcast_S1x4_S64x4_0_1
          (broadcastInDim Cert.ReferenceIdeal.S1x4 ![1] Cert.ReferenceIdeal.Gen.bcast_S4_S1x4_1 b) (ix2 p q) := by
  rw [shapeCast_self]
  refine (broadcastTo_1b_ab_apply _ _ p q).trans ?_
  refine (shapeCast_a_1a_apply b _ 0 q).trans ?_
  symm
  refine (broadcastInDim_apply _ _ _ (ix2 p q) (ix2 (0 : Fin 1) q) (fun a => match a with
    | ⟨0, _⟩ => by show 0 = if (1 : Nat) = 1 then 0 else p.val; rw [if_pos rfl]
    | ⟨1, _⟩ => by show q.val = if (4 : Nat) = 1 then 0 else q.val; rw [if_neg (by decide)])).trans ?_
  exact broadcastInDim_apply _ _ b (ix2 (0 : Fin 1) q) (ix1 q) (fun a => match a with
    | ⟨0, _⟩ => by show q.val = if (4 : Nat) = 1 then 0 else q.val; rw [if_neg (by decide)])

/-- The zero the second positive part is taken against. -/
theorem zero4_apply (i : S64x4.Idx) :
    broadcast S64x4 (Scalar.ofBits (F := Ideal) .f32 0x00000000#32) i
      = broadcastInDim Cert.ReferenceIdeal.S64x4 ![] Cert.ReferenceIdeal.Gen.bcast_S_S64x4
          (constant (F := Ideal) Cert.ReferenceIdeal.S_ .f32 0x00000000#32) i :=
  (broadcastInDim_apply _ _ (constant (F := Ideal) Cert.ReferenceIdeal.S_ .f32 0x00000000#32) i (fun a => a.elim0)
    (fun a => a.elim0)).symm

/-- The second dense layer, the body's and the reference's. -/
theorem kfc2_eq (y : FVec Ideal S64x8 .f32) (w : FVec Ideal S8x4 .f32) (b : FVec Ideal S4 .f32) :
    kfc2 y w (shapeCast S1x4 b shapeCasts_S4_S1x4) = Cert.ReferenceIdeal.RF.fc2 y w b := by
  funext i
  obtain ⟨p, q, rfl⟩ : ∃ (p : Fin 64) (q : Fin 4), i = ix2 p q := ⟨i 0, i 1, eq_ix2 i⟩
  exact congrArg₂ max (congrArg₂ (· + ·) (mm2_apply y w (ix2 p q)) (bias2_apply b p q)) (zero4_apply (ix2 p q))

end Head

/-- The head. -/
theorem head_eq (hg : Vec Ideal Cert.KernelIdeal.S64x32 .f32) (W1 : Vec Ideal Cert.KernelIdeal.S32x8 .f32)
    (b1 : Vec Ideal Cert.KernelIdeal.S8 .f32) (W2 : Vec Ideal Cert.KernelIdeal.S8x4 .f32) (b2 : Vec Ideal Cert.KernelIdeal.S4 .f32) :
    Cert.KernelIdeal.Gen.k9_pay1 (F := Ideal) hg W1 (shapeCast Cert.KernelIdeal.S1x8 b1 Cert.KernelIdeal.Gen.shapeCasts_S8_S1x8) W2
        (shapeCast Cert.KernelIdeal.S1x4 b2 Cert.KernelIdeal.Gen.shapeCasts_S4_S1x4)
      = Cert.ReferenceIdeal.RF.head hg W1 b1 W2 b2 := by
  unfold Cert.ReferenceIdeal.RF.head
  rw [Head.pay_split, Head.kfc1_eq, Head.kfc2_eq, softK_eq]

end Cert.Bridge

end
-- ==== Proof.Bridge.lean ====
/-
  The kernel's result and the reference's are one function of the fourteen argument arrays. Layer by layer: the
  features after a layer agree because the features before it agree and the layer is one function either way; the
  per-graph sums agree; the head agrees.
-/
import proofs.«412697_j56040733278666_2_alg».proof.Proof.KFns
import proofs.«412697_j56040733278666_2_alg».proof.Proof.RefVal
import proofs.«412697_j56040733278666_2_alg».proof.Proof.BrLayer0
import proofs.«412697_j56040733278666_2_alg».proof.Proof.BrLayer
import proofs.«412697_j56040733278666_2_alg».proof.Proof.BrPool
import proofs.«412697_j56040733278666_2_alg».proof.Proof.BrHead

noncomputable section

namespace Cert.Bridge

open Idealize.ShloMosaic Cert.KernelIdeal.KV Cert.ReferenceIdeal.Read Cert.ReferenceIdeal

variable (x0 : Vec Ideal Cert.KernelIdeal.S100000x128 .f32) (x1 : Vec Ideal Cert.KernelIdeal.S128x32 .f32) (x2 : Vec Ideal Cert.KernelIdeal.S32 .f32) (x3 : Vec Ideal Cert.KernelIdeal.S128x32 .f32)
  (x4 : Vec Ideal Cert.KernelIdeal.S3x32x32 .f32) (x5 : Vec Ideal Cert.KernelIdeal.S3x32 .f32) (x6 : Vec Ideal Cert.KernelIdeal.S3x32x32 .f32) (x7 : Vec Ideal Cert.KernelIdeal.S32x8 .f32)
  (x8 : Vec Ideal Cert.KernelIdeal.S8 .f32) (x9 : Vec Ideal Cert.KernelIdeal.S8x4 .f32) (x10 : Vec Ideal Cert.KernelIdeal.S4 .f32) (x11 x12 : Vec Ideal Cert.KernelIdeal.S3200000 .i32)
  (x13 : Vec Ideal Cert.KernelIdeal.S100000 .i32)

/-- The features after layer 0. -/
theorem feat1_eq : feat1 x0 x1 x2 x3 x11 x12 = val_main_v16 (F := Ideal) x0 x1 x2 x3 x11 x12 := by
  rw [RefVal.v16_eq]
  exact layer128_eq x0 x1 x3 x2 x11 x12
/-- The features after layer 1. -/
theorem feat2_eq : feat2 x0 x1 x2 x3 x4 x5 x6 x11 x12 = val_main_v39 (F := Ideal) x0 x1 x2 x3 x4 x5 x6 x11 x12 := by
  rw [RefVal.v39_eq, ← feat1_eq]
  exact layer32_eq (feat1 x0 x1 x2 x3 x11 x12) (val_main_v18 (F := Ideal) x4) (val_main_v22 (F := Ideal) x6) (val_main_v20 (F := Ideal) x5) x11 x12
/-- The features after layer 2. -/
theorem feat3_eq : feat3 x0 x1 x2 x3 x4 x5 x6 x11 x12 = val_main_v62 (F := Ideal) x0 x1 x2 x3 x4 x5 x6 x11 x12 := by
  rw [RefVal.v62_eq, ← feat2_eq]
  exact layer32_eq (feat2 x0 x1 x2 x3 x4 x5 x6 x11 x12) (val_main_v41 (F := Ideal) x4) (val_main_v45 (F := Ideal) x6) (val_main_v43 (F := Ideal) x5) x11 x12
/-- The features after layer 3. -/
theorem feat4_eq : feat4 x0 x1 x2 x3 x4 x5 x6 x11 x12 = val_main_v85 (F := Ideal) x0 x1 x2 x3 x4 x5 x6 x11 x12 := by
  rw [RefVal.v85_eq, ← feat3_eq]
  exact layer32_eq (feat3 x0 x1 x2 x3 x4 x5 x6 x11 x12) (val_main_v64 (F := Ideal) x4) (val_main_v68 (F := Ideal) x6) (val_main_v66 (F := Ideal) x5) x11 x12
/-- The per-graph sums. -/
theorem graphSums_eq : graphSums x0 x1 x2 x3 x4 x5 x6 x11 x12 x13 = val_main_v88 (F := Ideal) x0 x1 x2 x3 x4 x5 x6 x11 x12 x13 := by
  rw [RefVal.v88_eq, ← feat4_eq]
  exact pool_eq (feat4 x0 x1 x2 x3 x4 x5 x6 x11 x12) x13
/-- The result. -/
theorem result_eq : result x0 x1 x2 x3 x4 x5 x6 x7 x8 x9 x10 x11 x12 x13 = val_main_v109 (F := Ideal) x0 x1 x2 x3 x4 x5 x6 x7 x8 x9 x10 x11 x12 x13 := by
  rw [RefVal.v109_eq, ← graphSums_eq]
  exact head_eq (graphSums x0 x1 x2 x3 x4 x5 x6 x11 x12 x13) x7 x8 x9 x10

end Cert.Bridge

end
-- ==== Proof.lean ====
/-
  The certificate of the graph-convolution kernel against its reference. The kernel runs ten regions among host
  operations: four layers (a double product of the node features with the neighbour and self weight matrices side by
  side; its left half gathered along the edges and summed at their destinations; the sum combined with the right half
  and the bias under the positive part), the per-graph sums as sums of indicator times features accumulated over the
  node blocks, and two small dense layers with a softmax. The reference computes the two products of a layer
  separately, adds the bias before the own product, and sums each graph's nodes by an accumulating scatter. At the
  ideal instance (floats are extended reals, roundings the identity) the two are one function of the arguments: a
  column of the double product is the column of the one product; addition is commutative and associative; a zero
  indicator times anything is zero; the heads are the same operations entry by entry.
  The three frames: the two kernel programs' are the generated frames; the reference's is its run with the result
  dropped. The idealization rewrote nothing. The value claim: the kernel's run keeps what every buffer holds at the
  last boundary of @main, read back through the regions' whole-array values and the host stretches' functions to one
  term of the launch memory; the reference's run ends at its stages' term; the two terms are equal.
-/
import proofs.«412697_j56040733278666_2_alg».proof.Defs
import proofs.«412697_j56040733278666_2_alg».proof.Proof.Gen.Kernel
import proofs.«412697_j56040733278666_2_alg».proof.Proof.Gen.Kernel.Skeleton
import proofs.«412697_j56040733278666_2_alg».proof.Proof.Gen.Kernel.Launch
import proofs.«412697_j56040733278666_2_alg».proof.Proof.Gen.Kernel.Points
import proofs.«412697_j56040733278666_2_alg».proof.Proof.Gen.Kernel.Frame
import proofs.«412697_j56040733278666_2_alg».proof.Proof.Gen.KernelIdeal
import proofs.«412697_j56040733278666_2_alg».proof.Proof.Gen.KernelIdeal.Skeleton
import proofs.«412697_j56040733278666_2_alg».proof.Proof.Gen.KernelIdeal.Launch
import proofs.«412697_j56040733278666_2_alg».proof.Proof.Gen.KernelIdeal.Points
import proofs.«412697_j56040733278666_2_alg».proof.Proof.Gen.KernelIdeal.Frame
import proofs.«412697_j56040733278666_2_alg».proof.Proof.Gen.ReferenceIdeal
import proofs.«412697_j56040733278666_2_alg».proof.Proof.Gen.ReferenceIdeal.Run
import proofs.«412697_j56040733278666_2_alg».proof.Proof.Gen.ReferenceIdeal.Read
import proofs.«412697_j56040733278666_2_alg».proof.Proof.Gen.Pre_finite_inputs
import proofs.«412697_j56040733278666_2_alg».proof.Proof.KRun
import proofs.«412697_j56040733278666_2_alg».proof.Proof.KChain
import proofs.«412697_j56040733278666_2_alg».proof.Proof.KReg0
import proofs.«412697_j56040733278666_2_alg».proof.Proof.KReg1
import proofs.«412697_j56040733278666_2_alg».proof.Proof.KReg2
import proofs.«412697_j56040733278666_2_alg».proof.Proof.KReg3
import proofs.«412697_j56040733278666_2_alg».proof.Proof.KReg4
import proofs.«412697_j56040733278666_2_alg».proof.Proof.KReg5
import proofs.«412697_j56040733278666_2_alg».proof.Proof.KReg6
import proofs.«412697_j56040733278666_2_alg».proof.Proof.KReg7
import proofs.«412697_j56040733278666_2_alg».proof.Proof.KReg8
import proofs.«412697_j56040733278666_2_alg».proof.Proof.KReg9
import proofs.«412697_j56040733278666_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The ten regions' whole-array values. -/
theorem regionVals : Cert.KernelIdeal.KV.RegionVals :=
  ⟨Cert.KernelIdeal.KV.arr0, Cert.KernelIdeal.KV.arr1, Cert.KernelIdeal.KV.arr2, Cert.KernelIdeal.KV.arr3, Cert.KernelIdeal.KV.arr4,
   Cert.KernelIdeal.KV.arr5, Cert.KernelIdeal.KV.arr6, Cert.KernelIdeal.KV.arr7, Cert.KernelIdeal.KV.arr8, Cert.KernelIdeal.KV.arr9⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's run: the result buffer ends at the kernel's term of the launch memory, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v86) = Cert.KernelIdeal.KV.kout m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
      ⟨(h c _ (Cert.KernelIdeal.Gen.mem_uc Cert.KernelIdeal.main_v86 (by decide))).trans (Cert.KernelIdeal.KV.result_eq m ρ c regionVals),
        (h c _ (Cert.KernelIdeal.Gen.mem_uc Cert.KernelIdeal.main_arg0 (by decide))).trans (Cert.KernelIdeal.Gen.W19_main_arg0 m ρ c),
        (h c _ (Cert.KernelIdeal.Gen.mem_uc Cert.KernelIdeal.main_arg1 (by decide))).trans (Cert.KernelIdeal.Gen.W19_main_arg1 m ρ c),
        (h c _ (Cert.KernelIdeal.Gen.mem_uc Cert.KernelIdeal.main_arg2 (by decide))).trans (Cert.KernelIdeal.Gen.W19_main_arg2 m ρ c),
        (h c _ (Cert.KernelIdeal.Gen.mem_uc Cert.KernelIdeal.main_arg3 (by decide))).trans (Cert.KernelIdeal.Gen.W19_main_arg3 m ρ c),
        (h c _ (Cert.KernelIdeal.Gen.mem_uc Cert.KernelIdeal.main_arg4 (by decide))).trans (Cert.KernelIdeal.Gen.W19_main_arg4 m ρ c),
        (h c _ (Cert.KernelIdeal.Gen.mem_uc Cert.KernelIdeal.main_arg5 (by decide))).trans (Cert.KernelIdeal.Gen.W19_main_arg5 m ρ c),
        (h c _ (Cert.KernelIdeal.Gen.mem_uc Cert.KernelIdeal.main_arg6 (by decide))).trans (Cert.KernelIdeal.Gen.W19_main_arg6 m ρ c),
        (h c _ (Cert.KernelIdeal.Gen.mem_uc Cert.KernelIdeal.main_arg7 (by decide))).trans (Cert.KernelIdeal.Gen.W19_main_arg7 m ρ c),
        (h c _ (Cert.KernelIdeal.Gen.mem_uc Cert.KernelIdeal.main_arg8 (by decide))).trans (Cert.KernelIdeal.Gen.W19_main_arg8 m ρ c),
        (h c _ (Cert.KernelIdeal.Gen.mem_uc Cert.KernelIdeal.main_arg9 (by decide))).trans (Cert.KernelIdeal.Gen.W19_main_arg9 m ρ c),
        (h c _ (Cert.KernelIdeal.Gen.mem_uc Cert.KernelIdeal.main_arg10 (by decide))).trans (Cert.KernelIdeal.Gen.W19_main_arg10 m ρ c),
        (h c _ (Cert.KernelIdeal.Gen.mem_uc Cert.KernelIdeal.main_arg11 (by decide))).trans (Cert.KernelIdeal.Gen.W19_main_arg11 m ρ c),
        (h c _ (Cert.KernelIdeal.Gen.mem_uc Cert.KernelIdeal.main_arg12 (by decide))).trans (Cert.KernelIdeal.Gen.W19_main_arg12 m ρ c),
        (h c _ (Cert.KernelIdeal.Gen.mem_uc Cert.KernelIdeal.main_arg13 (by decide))).trans (Cert.KernelIdeal.Gen.W19_main_arg13 m ρ c)⟩)
    (Cert.KernelIdeal.RunAll.run_all (F := Ideal) m ρ)

/-- The two idealized programs end with equal results. -/
theorem algebraic : Cert.algebraic_KernelIdeal_ReferenceIdeal := by
  intro m ρ m' ρ' _ hagree
  refine ⟨fun c => Cert.KernelIdeal.KV.kout m c, kernel_run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v109_eq, e0, e1, e2, e3, e4, e5, e6, e7, e8, e9, e10, e11, e12, e13]
  exact (Cert.Bridge.result_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
